-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S4096x2048 : Shape := ⟨2, ![4096, 2048]⟩
abbrev S4096 : Shape := ⟨1, ![4096]⟩
abbrev S4096x1 : Shape := ⟨2, ![4096, 1]⟩
abbrev S1x4096 : Shape := ⟨2, ![1, 4096]⟩
abbrev S256x2048 : Shape := ⟨2, ![256, 2048]⟩
abbrev S512x2048 : Shape := ⟨2, ![512, 2048]⟩
abbrev S256x1 : Shape := ⟨2, ![256, 1]⟩
abbrev S1x512 : Shape := ⟨2, ![1, 512]⟩
abbrev S256 : Shape := ⟨1, ![256]⟩
abbrev S512 : Shape := ⟨1, ![512]⟩
abbrev S512x1 : Shape := ⟨2, ![512, 1]⟩
abbrev S256x512 : Shape := ⟨2, ![256, 512]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S512x2048, .f32⟩
  | .local _ .vmem, ⟨3, _⟩ => ⟨S512x2048, .f32⟩
  | .local _ .vmem, ⟨4, _⟩ => ⟨S256x1, .i32⟩
  | .local _ .vmem, ⟨5, _⟩ => ⟨S256x1, .i32⟩
  | .local _ .vmem, ⟨6, _⟩ => ⟨S1x512, .i32⟩
  | .local _ .vmem, ⟨7, _⟩ => ⟨S1x512, .i32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_23 : BitVec 32 := 0#32
  let v48 : BitVec 1 := Scalar.cmpi .ne v47 c0_i32_23
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096_S4096x1 : S4096.ShapeCasts S4096x1
  shapeCasts_S4096_S1x4096 : S4096.ShapeCasts S1x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  inb_S512x2048_S512x2048_0_0 : ∀ a, (![0, 0] : Fin 2 → Nat) a + S512x2048.size a ≤ S512x2048.size a
  h_S512x2048 : 0 < S512x2048.numel
  reduces_S256x2048_S256 : S256x2048.Reduces [1] S256
  shapeCasts_S256_S256x1 : S256.ShapeCasts S256x1
  reduces_S512x2048_S512 : S512x2048.Reduces [1] S512
  shapeCasts_S512_S512x1 : S512.ShapeCasts S512x1
  bitsLt_bf16_f32 : FTy.bits .bf16 < FTy.bits .f32
  transposes_S512x1_p1_0_S1x512 : S512x1.Transposes [1, 0] S1x512
  broadcasts_S256x1_S256x512 : S256x1.Broadcasts S256x512
  broadcasts_S1x512_S256x512 : S1x512.Broadcasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S256x512_S256 : S256x512.Reduces [1] S256
  reducesTo_S4096x1_S_d0_1 : S4096x1.ReducesTo [0, 1] S_
  h_S_ : 0 < S_.numel
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .i32 = 32 ∨ (Rect.block (s := S4096x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S_, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S2048x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x1, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_call1_v0 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.Kernel.Base.lean ====
/-
  The tiled kernel's region, seen from outside the body.

  @main is: two reshapes of the label vector (a column [4096,1] and a row [1,4096]), the region, then the mean
  of the region's [4096,1] result. The region walks a 16 × 8 grid: point t has row tile a = t / 8 (256 rows) and
  column tile b = t % 8 (512 rows of the SAME matrix, read as columns of the distance matrix). Windows 0 and 1
  both read the matrix (row tile a, column tile b), windows 2 and 3 the labels' column and row, window 4 is the
  result's row tile a. The body resets its two running extrema where b = 0, folds one tile into them at every
  point, and stores the margin loss into window 4 where b = 7 — the only points at which window 4 is written back.
-/
import proofs.«176029_j6657199309074_1_alg».proof.Proof.Gen.Kernel.Launch
import proofs.«176029_j6657199309074_1_alg».proof.Proof.Gen.Kernel.Skeleton
import proofs.«176029_j6657199309074_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the mean's four operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes write only their own results: the two arguments enter the region as launched. -/
theorem V_main_arg0 (c : Dev nD) : V m c main_arg0 = m ((c : Thread nD τ).loc main_arg0) := by
  dsimp only [V, V0]
  simp only [hostOps0, List.flatten_cons, List.flatten_nil, List.append_nil]
  after_results
theorem V_main_arg1 (c : Dev nD) : V m c main_arg1 = m ((c : Thread nD τ).loc main_arg1) := by
  dsimp only [V, V0]
  simp only [hostOps0, List.flatten_cons, List.flatten_nil, List.append_nil]
  after_results

/-- The mean the host takes of the region's [4096,1] result: its sum over both axes from 0, divided by 4096. -/
def meanOf (X : (⟨S4096x1, .f32⟩ : BufTy).Contents (Elt F)) : (⟨S_, .f32⟩ : BufTy).Contents (Elt F) :=
  Host.divf (Host.reduceAdd X (constant S_ .f32 0x00000000#32) reducesTo_S4096x1_S_d0_1 h_S_) (constant S_ .f32 0x45800000#32)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, refetched there or not: between two
    fetches the block index has not moved and the body leaves the block in place. One statement per input. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first column tile" (b = 0): the running extrema are reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the last column tile" (b = 7): the row tile's loss is stored. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column tile nothing is stored into the result's buffer and it is not written back. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-! ## The memrefs the body is called with -/

abbrev ms0 (t : Fin cfg0.N) : Memref sig .tc .vmem S256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
/-- The running maximum's and the running minimum's scratch buffers. -/
abbrev scPos : Memref sig .tc .vmem S256x1 .f32 := Memref.whole cc0_scratch0
abbrev scNeg : Memref sig .tc .vmem S256x1 .f32 := Memref.whole cc0_scratch1
/-- Views through which buffer contents are stated (any whole buffer of the shape serves). -/
abbrev VOut : View sig .tc .vmem S256x1 .f32 := (Memref.whole cc0_stg4_0 : Memref sig .tc .vmem S256x1 .f32).view
abbrev VPos : View sig .tc .vmem S256x1 .f32 := scPos.view
abbrev VNeg : View sig .tc .vmem S256x1 .f32 := scNeg.view

/-- What the region hands the body besides the windows: the two scratch buffers at some contents, and the
    generator register. -/
theorem PhiA_eq (c : Dev nD) :
    (Pipeline.ΦA spec0 c : sProp 𝕄)
      = iprop(iprop((∃ d, owns (c : Thread nD τ) scPos fullShare d) ∗ (∃ d, owns (c : Thread nD τ) scNeg fullShare d)) ∗ (∃ r, prngReg c r)) := by
  unfold Pipeline.ΦA; rw [scopedRest0_eq]; simp only [scPos, scNeg, owns_whole]; try rfl

end Cert.Kernel.Hand

end
-- ==== Proof.Kernel.Launch.lean ====
/-
  The run of @main, from the region's launch rule.

  Two of the region's windows read one array (the matrix, once by row tiles and once by column tiles), so the
  matrix's full share is dealt in halves to the two windows reading it; every other array goes whole to its one
  window. After the region the host takes the mean of the result: four operations that read the result's array and
  write four buffers the region never touches. The final memory then holds the mean of what the region left in the
  result's array, and the two arguments as launched.
-/
import proofs.«176029_j6657199309074_1_alg».proof.Proof.Kernel.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt to the windows -/

/-- The distinct arrays behind the five windows: the matrix (twice), the labels' column and row, the result. -/
theorem arr_image : Finset.univ.image (Pipeline.arrRef spec0) = [main_arg0, main_v0, main_v1, main_v2].toFinset := by decide

/-- The four of them, each whole at the full share, one by one. -/
theorem arrBufs0_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq _ arr_image (by decide) _

/-- The four arrays, each held whole at the full share, are the five windows' arrays at the windows' shares: the
    matrix's full share is its left half, for the row-tile window, joined with its right half, for the column-tile
    window; the labels' column and row and the result go whole to the one window on each. -/
theorem hsplit_of {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hA : ∀ w, dat.A w = V m c (Pipeline.arrRef spec0 w)) :
    (Pipeline.arrBufs spec0 c (V m c) : sProp 𝕄) ⊢ dat.arrays (dat.arrAt · 0) := by
  have hs0 : dat.share 0 = fullShare.left := (if_neg (by decide)).trans hq0
  have hs1 : dat.share 1 = fullShare.right := (if_neg (by decide)).trans hq1
  have hs2 : dat.share 2 = fullShare := (if_neg (by decide)).trans hq2
  have hs3 : dat.share 3 = fullShare := (if_neg (by decide)).trans hq3
  have hs4 : dat.share 4 = fullShare := if_pos (by decide)
  have e0 : dat.arrAt 0 0 = V m c main_arg0 := hA 0
  have e1 : dat.arrAt 1 0 = V m c main_arg0 := hA 1
  have e2 : dat.arrAt 2 0 = V m c main_v0 := hA 2
  have e3 : dat.arrAt 3 0 = V m c main_v1 := hA 3
  have e4 : dat.arrAt 4 0 = V m c main_v2 := hA 4
  rw [arrBufs0_eq]
  unfold Dat.arrays
  rw [bigSep_W0, hs0, hs1, hs2, hs3, hs4]
  dsimp only
  rw [e0, e1, e2, e3, e4]
  simp only [View.set_whole]
  iintro ⟨H0, H1, H2, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H2]; · iexact H2
  iexact H3

/-! ## The mean after the region -/

/-- The buffers the mean's four operations touch: the result's array, which they read, and the four they write. -/
abbrev tailL : List (Ref sig .tc) := [main_v2, main_cst, main_v3, main_cst_0, main_v4]
abbrev tailS : Finset (DevRef τ sig) := tailL.toFinset.map ⟨Proc.devRef (sig := sig) .tc, Proc.devRef_injective _⟩

/-- A listed reference is, as a buffer of the device, one of them. -/
theorem mem_tailS {r : Ref sig .tc} (h : r ∈ tailL) : Proc.devRef (τ := τ) .tc r ∈ tailS :=
  Finset.mem_map_of_mem _ (List.mem_toFinset.mpr h)

/-- Each of the four operations touches only those: a constant its own buffer, the sum and the quotient their two
    operands and their result. -/
theorem hostOps1_tail : (hostOps1 : List (HloOp τ sig (Elt F))).Forall fun op => op.bufs ⊆ tailS :=
  ⟨Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩,
   Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩⟩

/-- Those buffers held whole at contents `W`, one by one. -/
theorem held_tailS (c : Dev nD) (W : Valuation τ sig (Elt F)) :
    (StableHlo.held (c.tc : Thread nD τ) tailS W : sProp 𝕄)
      = iprop((((c : Thread nD τ).loc main_v2) ↦{fullShare} W (Proc.devRef .tc main_v2)) ∗ (((c : Thread nD τ).loc main_cst) ↦{fullShare} W (Proc.devRef .tc main_cst))
          ∗ (((c : Thread nD τ).loc main_v3) ↦{fullShare} W (Proc.devRef .tc main_v3)) ∗ (((c : Thread nD τ).loc main_cst_0) ↦{fullShare} W (Proc.devRef .tc main_cst_0))
          ∗ (((c : Thread nD τ).loc main_v4) ↦{fullShare} W (Proc.devRef .tc main_v4))) := by
  unfold StableHlo.held tailS
  rw [bigSep_map]
  exact bigSep_eq_bigSepL tailL (by decide) _

/-- Core `c`'s contents as the mean's operations find them: the result's array at `X`, what the region left there,
    and every other buffer as the region was entered. -/
def exitV (c : Dev nD) (X : (⟨S4096x1, .f32⟩ : BufTy).Contents (Elt F)) : Valuation τ sig (Elt F) :=
  Function.update (V0 m c) (Proc.devRef .tc main_v2) X

/-- Read at the result's array it gives what the region left there, -/
theorem exitV_v2 (c : Dev nD) (X : (⟨S4096x1, .f32⟩ : BufTy).Contents (Elt F)) : exitV m c X (Proc.devRef .tc main_v2) = X :=
  Function.update_self ..
/-- and at any other reference the contents at the region's entry. -/
theorem exitV_ne (c : Dev nD) (X : (⟨S4096x1, .f32⟩ : BufTy).Contents (Elt F)) {r : Ref sig .tc} (h : r ≠ main_v2) :
    exitV m c X (Proc.devRef .tc r) = V m c r :=
  Function.update_of_ne (StableHlo.devRef_ne_of_ne h) ..

/-- After the four operations the last buffer holds the mean of the result's array, -/
theorem after_v4 (c : Dev nD) (X : (⟨S4096x1, .f32⟩ : BufTy).Contents (Elt F)) :
    StableHlo.after hostOps1 (exitV m c X) (Proc.devRef .tc main_v4) = meanOf X := by
  unfold meanOf
  after_results
  rw [exitV_v2]
/-- and the result's array, which they only read, what it held. -/
theorem after_v2 (c : Dev nD) (X : (⟨S4096x1, .f32⟩ : BufTy).Contents (Elt F)) :
    StableHlo.after hostOps1 (exitV m c X) (Proc.devRef .tc main_v2) = X := by
  after_results
  rw [exitV_v2]

/-- What the four operations leave of the buffers they touch: the result's array as it was, the last buffer at the
    mean (the three intermediate buffers are of no further use). -/
theorem held_after (c : Dev nD) (X : (⟨S4096x1, .f32⟩ : BufTy).Contents (Elt F)) :
    (StableHlo.held (c.tc : Thread nD τ) tailS (StableHlo.after [(hostOps1 : List (HloOp τ sig (Elt F)))].flatten (exitV m c X)) : sProp 𝕄)
      ⊢ iprop((((c : Thread nD τ).loc main_v2) ↦{fullShare} X) ∗ (((c : Thread nD τ).loc main_v4) ↦{fullShare} meanOf X)) := by
  rw [held_tailS, List.flatten_cons, List.flatten_nil, List.append_nil, after_v2, after_v4]
  iintro ⟨A4, -, -, -, Z4⟩
  isplitl [A4] <;> iassumption

/-- What the run holds of the buffers the region bypasses once the mean is taken: the labels as the region was
    entered, and the mean of what the region left in the result's array. -/
def tailZ' {c : Dev nD} (dat : Dat τ (Elt F) Unit ℕ (UR sig nD τ) ℕ cfg0 c) : sProp 𝕄 :=
  iprop((((c : Thread nD τ).loc main_arg1) ↦{fullShare} V m c main_arg1)
    ∗ (((c : Thread nD τ).loc main_v4) ↦{fullShare} meanOf (dat.arrAt 4 cfg0.N)))

/-- The mean's four operations from the region's exit: they run within the result's array (window 4's, held whole)
    and the four buffers they write, which bypass the region; the arrays come back as they were. -/
theorem htail_of {c : Dev nD} (dat : Dat τ (Elt F) Unit ℕ (UR sig nD τ) ℕ cfg0 c) (Q' : PUnit → sProp 𝕄) :
    iprop((iprop(dat.arrays (dat.arrAt · cfg0.N) ∗ tailZ' m dat) -∗ Q' ⟨⟩)
        ∗ boundary (c.tc : Thread nD τ) ∗ dat.arrays (dat.arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  have hs4 : dat.share 4 = fullShare := if_pos (by decide)
  rw [unscopedRest0_eq]
  unfold Dat.arrays tailZ'
  rw [bigSep_W0]
  dsimp only
  rw [hs4]
  simp only [View.set_whole]
  change _ ⊢ wp frame _ Set.univ (Pipeline.chain ([hostOps1].map StableHlo.seq ++ [])) Q'
  iintro ⟨Hk, Hb, ⟨A0, A1, A2, A3, A4⟩, Z1, Zc, Z3, Zc0, Z4⟩
  have hsub : ∀ ops ∈ [(hostOps1 : List (HloOp τ sig (Elt F)))], ∀ op ∈ ops, op.bufs ⊆ tailS := fun ops hops op hop => by
    rw [List.mem_singleton.mp hops] at hop
    exact List.forall_iff_forall_mem.mp hostOps1_tail op hop
  have hfresh : ∀ ops ∈ [(hostOps1 : List (HloOp τ sig (Elt F)))], ∀ op ∈ ops, op.fresh = ∅ := fun ops hops op hop => by
    rw [List.mem_singleton.mp hops] at hop
    exact List.forall_iff_forall_mem.mp hostOps1_fresh op hop
  iapply (Pipeline.wp_seqs_then pcfgs defs₀ Variants.none c tailS [] [hostOps1] hsub hfresh (exitV m c (dat.arrAt 4 cfg0.N))) $$ [Hb A4 Zc Z3 Zc0 Z4]
  · isplitl [Hb]; · iexact Hb
    rw [held_tailS, exitV_v2, exitV_ne m c _ (by decide : main_cst ≠ main_v2), exitV_ne m c _ (by decide : main_v3 ≠ main_v2),
      exitV_ne m c _ (by decide : main_cst_0 ≠ main_v2), exitV_ne m c _ (by decide : main_v4 ≠ main_v2)]
    isplitl [A4]; · iexact A4
    isplitl [Zc]; · iexact Zc
    isplitl [Z3]; · iexact Z3
    isplitl [Zc0]; · iexact Zc0
    iexact Z4
  iintro ⟨Hb, Hh⟩
  rw [Pipeline.chain_nil, wp_pure]
  imodintro
  ihave Hh' := (held_after m c (dat.arrAt 4 cfg0.N)) $$ Hh
  icases Hh' with ⟨A4, Z4⟩
  iapply Hk
  isplitl [A0 A1 A2 A3 A4]
  · isplitl [A0]; · iexact A0
    isplitl [A1]; · iexact A1
    isplitl [A2]; · iexact A2
    isplitl [A3]; · iexact A3
    iexact A4
  isplitl [Z1]; · iexact Z1
  iexact Z4

/-! ## The run -/

/-- From any launch memory with zero counters, for proof data that deal the matrix's halves to its two windows and
    enter at the contents after the reshapes: every weakly fair execution of @main terminates, the last buffer then
    holds the mean of what the region left in the result's array, and both arguments hold what they were launched with. -/
theorem run_of (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V m c (Pipeline.arrRef spec0 w))
    (hbody : ∀ c, Pipeline.BodyObligationLoose (dats 0 c) defs₀ Variants.none () Set.univ)
    (howed : ∀ c t, (dats 0 c).owed t = 0)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v4) = meanOf ((dats 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  -- The region's launch rule, with: no ghost state beyond the staging cells'; the region entered at the contents after
  -- the reshapes; the arrays dealt to the windows as above; the generator register handed through the region and the
  -- buffers that bypass it carried around it whole; the mean run from the region's exit; and the final memory read
  -- off the points-tos that remain — the mean and the labels from the bypassing buffers, the matrix from its first
  -- window's array, which, an input's, no write-back ever changes.
  exact Pipeline.θ_run_region_pf_tail (fun p => (cfgs p).toPCfg (Val := Elt F)) (fun p => (cfgs p).toPCfg_adm) dats () cellOf_inj 0
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_of m (dats 0 c) (hq0 c) (hq1 c) (hq2 c) (hq3 c) (hA c))
    (hpf := fun _ k => k.elim0)
    (X := fun c => iprop(∃ r, prngReg c r)) (Y := fun c => iprop(∃ r, prngReg c r))
    (Z := fun c => Pipeline.unscopedRest spec0 c (V m c)) (Z' := fun c => tailZ' m (dats 0 c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_of m (dats 0 c) Q')
    (QY := fun c s => s.mem ((c.tc : Thread nD τ).loc main_arg1) = V m c main_arg1
      ∧ s.mem ((c.tc : Thread nD τ).loc main_v4) = meanOf ((dats 0 c).arrAt 4 cfg0.N))
    (hY := fun c s' => by
      unfold tailZ'
      iintro ⟨-, ⟨H1, H4⟩, HSI⟩
      icombine HSI H1 gives %h1
      icombine HSI H4 gives %h4
      imodintro
      isplitr; · ipureintro; exact ⟨Buf.eq_of_forall_mem_univ h1, Buf.eq_of_forall_mem_univ h4⟩
      iexact HSI)
    (hQ := fun s h c => ⟨(h c).2.2.2,
      ((h c).1 0).trans ((((dats 0 c).arrAt_in 0 rfl _).trans (hA c 0)).trans (V_main_arg0 m c)),
      (h c).2.2.1.trans (V_main_arg1 m c)⟩)

end Cert.Kernel.Hand

end
-- ==== Proof.Kernel.RunFirst.lean ====
/-
  The body at a point of the FIRST column tile (b = 0, so not the last): both running extrema are reset to
  their start values (−1e30, +1e30) and then this tile is folded in. The result's buffer is not touched.
  The run states what the two scratch buffers end with as lists of stored pieces (latest first).
-/
import proofs.«176029_j6657199309074_1_alg».proof.Proof.Kernel.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- On whole memrefs — the four inputs at their contents, the result's buffer at `xi4` (handed back untouched),
    the two scratch buffers at anything — the body runs to its end holding the inputs and the result's buffer as
    they were and each scratch buffer with its pieces written. -/
noncomputable def runFirst (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : condFirst i) (hc1 : ¬condLast i)
    (x0 : Vec F S256x2048 .f32) (x1 : Vec F S512x2048 .f32) (x2 : Vec F S256x1 .i32) (x3 : Vec F S1x512 .i32) :
    Σ' (LPos : List (View.Piece (Elt F) S256x1 .f32)), { LNeg : List (View.Piece (Elt F) S256x1 .f32) //
      ∀ (xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LPos)
                ∗ (∃ f, arg8.view.loc (c : Thread nD τ) ↦[arg8.view.set]{fullShare} arg8.view.writes (Elt F) f LNeg)) -∗ K ⟨⟩))
          ⊢ wp frame (wpE (defs₀ (F := F)) Variants.none c none) E (cc0__trihard_kernel i arg2 harg2 arg3 harg3 arg4 harg4 arg5 harg5 arg6 harg6 arg7 harg7 arg8 harg8) K } := by
  refine ⟨?_, ?_, fun xi4 E K => ?run⟩
  case run =>
    simp only [cc0__trihard_kernel_eq_skeleton]; unfold cc0__trihard_kernel_skel
    unfold owns
    iintro ⟨⟨%f0, %hf0, H0⟩, ⟨%f1, %hf1, H1⟩, ⟨%f2, %hf2, H2⟩, ⟨%f3, %hf3, H3⟩, ⟨%f4, %hf4, H4⟩, ⟨%dp, %fp, -, HP⟩, ⟨%dn, %fn, -, HN⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HP]; · iexists _; iexact HP
    iexists _; iexact HN

end Cert.Kernel.Hand

end
-- ==== Proof.Kernel.RunMid.lean ====
/-
  The body at a point of a MIDDLE column tile (0 < b < 7): the running extrema the point before left
  (`xp`, `xn`) are folded with this tile's row maxima and minima. The result's buffer is not touched.
-/
import proofs.«176029_j6657199309074_1_alg».proof.Proof.Kernel.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- On whole memrefs — the four inputs at their contents, the result's buffer at `xi4` (handed back untouched),
    the two scratch buffers at what the point before left — the body runs to its end holding the inputs and the
    result's buffer as they were and each scratch buffer with its pieces written. -/
noncomputable def runMid (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : ¬condLast i)
    (x0 : Vec F S256x2048 .f32) (x1 : Vec F S512x2048 .f32) (x2 : Vec F S256x1 .i32) (x3 : Vec F S1x512 .i32) (xp : Vec F S256x1 .f32) (xn : Vec F S256x1 .f32) :
    Σ' (LPos : List (View.Piece (Elt F) S256x1 .f32)), { LNeg : List (View.Piece (Elt F) S256x1 .f32) //
      ∀ (xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xp ∗ owns (c : Thread nD τ) arg8 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LPos)
                ∗ (∃ f, arg8.view.loc (c : Thread nD τ) ↦[arg8.view.set]{fullShare} arg8.view.writes (Elt F) f LNeg)) -∗ K ⟨⟩))
          ⊢ wp frame (wpE (defs₀ (F := F)) Variants.none c none) E (cc0__trihard_kernel i arg2 harg2 arg3 harg3 arg4 harg4 arg5 harg5 arg6 harg6 arg7 harg7 arg8 harg8) K } := by
  refine ⟨?_, ?_, fun xi4 E K => ?run⟩
  case run =>
    simp only [cc0__trihard_kernel_eq_skeleton]; unfold cc0__trihard_kernel_skel
    unfold owns
    iintro ⟨⟨%f0, %hf0, H0⟩, ⟨%f1, %hf1, H1⟩, ⟨%f2, %hf2, H2⟩, ⟨%f3, %hf3, H3⟩, ⟨%f4, %hf4, H4⟩, ⟨%fp, %hfp, HP⟩, ⟨%fn, %hfn, HN⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfp; obtain rfl := harg8.eq_unread hfn
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HP]; · iexists _; iexact HP
    iexists _; iexact HN

end Cert.Kernel.Hand

end
-- ==== Proof.Kernel.RunLast.lean ====
/-
  The body at a point of the LAST column tile (b = 7, so not the first): the running extrema the point before
  left (`xp`, `xn`) are folded with this tile, and the margin loss of the row tile, computed from the two
  final extrema, is stored over the whole of the result's buffer.
-/
import proofs.«176029_j6657199309074_1_alg».proof.Proof.Kernel.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- On whole memrefs — the four inputs at their contents, the result's buffer at anything, the two scratch
    buffers at what the point before left — the body runs to its end holding the inputs as they were and the
    result's buffer and each scratch buffer with its pieces written. -/
noncomputable def runLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i)
    (x0 : Vec F S256x2048 .f32) (x1 : Vec F S512x2048 .f32) (x2 : Vec F S256x1 .i32) (x3 : Vec F S1x512 .i32) (xp : Vec F S256x1 .f32) (xn : Vec F S256x1 .f32) :
    Σ' (LOut : List (View.Piece (Elt F) S256x1 .f32)) (LPos : List (View.Piece (Elt F) S256x1 .f32)), { LNeg : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xp ∗ owns (c : Thread nD τ) arg8 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LOut)
                ∗ (∃ f, arg7.view.loc (c : Thread nD τ) ↦[arg7.view.set]{fullShare} arg7.view.writes (Elt F) f LPos)
                ∗ (∃ f, arg8.view.loc (c : Thread nD τ) ↦[arg8.view.set]{fullShare} arg8.view.writes (Elt F) f LNeg)) -∗ K ⟨⟩))
          ⊢ wp frame (wpE (defs₀ (F := F)) Variants.none c none) E (cc0__trihard_kernel i arg2 harg2 arg3 harg3 arg4 harg4 arg5 harg5 arg6 harg6 arg7 harg7 arg8 harg8) K } := by
  refine ⟨?_, ?_, ?_, fun E K => ?run⟩
  case run =>
    simp only [cc0__trihard_kernel_eq_skeleton]; unfold cc0__trihard_kernel_skel
    unfold owns
    iintro ⟨⟨%f0, %hf0, H0⟩, ⟨%f1, %hf1, H1⟩, ⟨%f2, %hf2, H2⟩, ⟨%f3, %hf3, H3⟩, ⟨%d4, %f4, -, H4⟩, ⟨%fp, %hfp, HP⟩, ⟨%fn, %hfn, HN⟩, Hk⟩
    obtain rfl := harg2.eq_unread hf0; obtain rfl := harg3.eq_unread hf1; obtain rfl := harg4.eq_unread hf2
    obtain rfl := harg5.eq_unread hf3
    obtain rfl := harg7.eq_unread hfp; obtain rfl := harg8.eq_unread hfn
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HP]; · iexists _; iexact HP
    iexists _; iexact HN

end Cert.Kernel.Hand

end
-- ==== Proof.Kernel.Data.lean ====
/-
  What the region's buffers hold, point by point.

  Each case of the body leaves lists of stored pieces in the scratch buffers (and, at a last column tile, in the
  result's buffer); read back, a covering list is one vector. `outsAt n` is the triple (result buffer, running
  maximum, running minimum) after the body at point n, by recursion on n: at a first column tile the extrema
  restart, elsewhere they continue from point n − 1 — between two points of one row tile nothing else touches the
  scratch buffers. The region's invariant before point n + 1 holds the two scratch buffers at exactly that.
  The matrix is read through two windows; its full share is dealt to them as the left and the right half.
-/
import proofs.«176029_j6657199309074_1_alg».proof.Proof.Kernel.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, as vectors -/

/-- The first-tile case's pieces cover each scratch buffer (one whole store is the latest piece). -/
theorem coverPosFirst (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : condFirst i) (hc1 : ¬condLast i) (x0 : Vec F S256x2048 .f32) (x1 : Vec F S512x2048 .f32) (x2 : Vec F S256x1 .i32) (x3 : Vec F S1x512 .i32) (y : S256x1.Idx) :
    ∃ pc ∈ (runFirst c i arg2 harg2 arg3 harg3 arg4 harg4 arg5 harg5 arg6 harg6 arg7 harg7 arg8 harg8 hc0 hc1 x0 x1 x2 x3).1, y ∈ pc.1.set :=
  View.cover_of_tiledL (runFirst c i arg2 harg2 arg3 harg3 arg4 harg4 arg5 harg5 arg6 harg6 arg7 harg7 arg8 harg8 hc0 hc1 x0 x1 x2 x3).1 S256x1.size (by sl_kernel_rfl) y
theorem coverNegFirst (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : condFirst i) (hc1 : ¬condLast i) (x0 : Vec F S256x2048 .f32) (x1 : Vec F S512x2048 .f32) (x2 : Vec F S256x1 .i32) (x3 : Vec F S1x512 .i32) (y : S256x1.Idx) :
    ∃ pc ∈ (runFirst c i arg2 harg2 arg3 harg3 arg4 harg4 arg5 harg5 arg6 harg6 arg7 harg7 arg8 harg8 hc0 hc1 x0 x1 x2 x3).2.1, y ∈ pc.1.set :=
  View.cover_of_tiledL (runFirst c i arg2 harg2 arg3 harg3 arg4 harg4 arg5 harg5 arg6 harg6 arg7 harg7 arg8 harg8 hc0 hc1 x0 x1 x2 x3).2.1 S256x1.size (by sl_kernel_rfl) y
/-- The running maximum and minimum after a first tile. -/
def posFirst (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : condFirst i) (hc1 : ¬condLast i) (x0 : Vec F S256x2048 .f32) (x1 : Vec F S512x2048 .f32) (x2 : Vec F S256x1 .i32) (x3 : Vec F S1x512 .i32) : Vec F S256x1 .f32 :=
  VPos.read (Elt F) (VPos.writes (Elt F) VPos.junk (runFirst c i arg2 harg2 arg3 harg3 arg4 harg4 arg5 harg5 arg6 harg6 arg7 harg7 arg8 harg8 hc0 hc1 x0 x1 x2 x3).1)
def negFirst (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : condFirst i) (hc1 : ¬condLast i) (x0 : Vec F S256x2048 .f32) (x1 : Vec F S512x2048 .f32) (x2 : Vec F S256x1 .i32) (x3 : Vec F S1x512 .i32) : Vec F S256x1 .f32 :=
  VNeg.read (Elt F) (VNeg.writes (Elt F) VNeg.junk (runFirst c i arg2 harg2 arg3 harg3 arg4 harg4 arg5 harg5 arg6 harg6 arg7 harg7 arg8 harg8 hc0 hc1 x0 x1 x2 x3).2.1)

/-- The middle-tile case likewise, over what the point before left. -/
theorem coverPosMid (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : ¬condLast i) (x0 : Vec F S256x2048 .f32) (x1 : Vec F S512x2048 .f32) (x2 : Vec F S256x1 .i32) (x3 : Vec F S1x512 .i32) (xp : Vec F S256x1 .f32) (xn : Vec F S256x1 .f32) (y : S256x1.Idx) :
    ∃ pc ∈ (runMid c i arg2 harg2 arg3 harg3 arg4 harg4 arg5 harg5 arg6 harg6 arg7 harg7 arg8 harg8 hc0 hc1 x0 x1 x2 x3 xp xn).1, y ∈ pc.1.set :=
  View.cover_of_tiledL (runMid c i arg2 harg2 arg3 harg3 arg4 harg4 arg5 harg5 arg6 harg6 arg7 harg7 arg8 harg8 hc0 hc1 x0 x1 x2 x3 xp xn).1 S256x1.size (by sl_kernel_rfl) y
theorem coverNegMid (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : ¬condLast i) (x0 : Vec F S256x2048 .f32) (x1 : Vec F S512x2048 .f32) (x2 : Vec F S256x1 .i32) (x3 : Vec F S1x512 .i32) (xp : Vec F S256x1 .f32) (xn : Vec F S256x1 .f32) (y : S256x1.Idx) :
    ∃ pc ∈ (runMid c i arg2 harg2 arg3 harg3 arg4 harg4 arg5 harg5 arg6 harg6 arg7 harg7 arg8 harg8 hc0 hc1 x0 x1 x2 x3 xp xn).2.1, y ∈ pc.1.set :=
  View.cover_of_tiledL (runMid c i arg2 harg2 arg3 harg3 arg4 harg4 arg5 harg5 arg6 harg6 arg7 harg7 arg8 harg8 hc0 hc1 x0 x1 x2 x3 xp xn).2.1 S256x1.size (by sl_kernel_rfl) y
def posMid (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : ¬condLast i) (x0 : Vec F S256x2048 .f32) (x1 : Vec F S512x2048 .f32) (x2 : Vec F S256x1 .i32) (x3 : Vec F S1x512 .i32) (xp : Vec F S256x1 .f32) (xn : Vec F S256x1 .f32) : Vec F S256x1 .f32 :=
  VPos.read (Elt F) (VPos.writes (Elt F) VPos.junk (runMid c i arg2 harg2 arg3 harg3 arg4 harg4 arg5 harg5 arg6 harg6 arg7 harg7 arg8 harg8 hc0 hc1 x0 x1 x2 x3 xp xn).1)
def negMid (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : ¬condLast i) (x0 : Vec F S256x2048 .f32) (x1 : Vec F S512x2048 .f32) (x2 : Vec F S256x1 .i32) (x3 : Vec F S1x512 .i32) (xp : Vec F S256x1 .f32) (xn : Vec F S256x1 .f32) : Vec F S256x1 .f32 :=
  VNeg.read (Elt F) (VNeg.writes (Elt F) VNeg.junk (runMid c i arg2 harg2 arg3 harg3 arg4 harg4 arg5 harg5 arg6 harg6 arg7 harg7 arg8 harg8 hc0 hc1 x0 x1 x2 x3 xp xn).2.1)

/-- The last-tile case: the result's buffer is covered too. -/
theorem coverOutLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) (y : S256x1.Idx) :
    ∃ pc ∈ (runLast c i arg2 harg2 arg3 harg3 arg4 harg4 arg5 harg5 arg6 harg6 arg7 harg7 arg8 harg8 hc0 hc1 x0 x1 x2 x3 xp xn).1, y ∈ pc.1.set :=
  View.cover_of_tiledL (runLast c i arg2 harg2 arg3 harg3 arg4 harg4 arg5 harg5 arg6 harg6 arg7 harg7 arg8 harg8 hc0 hc1 x0 x1 x2 x3 xp xn).1 S256x1.size (by sl_kernel_rfl) y
theorem coverPosLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) (y : S256x1.Idx) :
    ∃ pc ∈ (runLast c i arg2 harg2 arg3 harg3 arg4 harg4 arg5 harg5 arg6 harg6 arg7 harg7 arg8 harg8 hc0 hc1 x0 x1 x2 x3 xp xn).2.1, y ∈ pc.1.set :=
  View.cover_of_tiledL (runLast c i arg2 harg2 arg3 harg3 arg4 harg4 arg5 harg5 arg6 harg6 arg7 harg7 arg8 harg8 hc0 hc1 x0 x1 x2 x3 xp xn).2.1 S256x1.size (by sl_kernel_rfl) y
theorem coverNegLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) (y : S256x1.Idx) :
    ∃ pc ∈ (runLast c i arg2 harg2 arg3 harg3 arg4 harg4 arg5 harg5 arg6 harg6 arg7 harg7 arg8 harg8 hc0 hc1 x0 x1 x2 x3 xp xn).2.2.1, y ∈ pc.1.set :=
  View.cover_of_tiledL (runLast c i arg2 harg2 arg3 harg3 arg4 harg4 arg5 harg5 arg6 harg6 arg7 harg7 arg8 harg8 hc0 hc1 x0 x1 x2 x3 xp xn).2.2.1 S256x1.size (by sl_kernel_rfl) y
def outLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) : Vec F S256x1 .f32 :=
  VOut.read (Elt F) (VOut.writes (Elt F) VOut.junk (runLast c i arg2 harg2 arg3 harg3 arg4 harg4 arg5 harg5 arg6 harg6 arg7 harg7 arg8 harg8 hc0 hc1 x0 x1 x2 x3 xp xn).1)
def posLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) : Vec F S256x1 .f32 :=
  VPos.read (Elt F) (VPos.writes (Elt F) VPos.junk (runLast c i arg2 harg2 arg3 harg3 arg4 harg4 arg5 harg5 arg6 harg6 arg7 harg7 arg8 harg8 hc0 hc1 x0 x1 x2 x3 xp xn).2.1)
def negLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) : Vec F S256x1 .f32 :=
  VNeg.read (Elt F) (VNeg.writes (Elt F) VNeg.junk (runLast c i arg2 harg2 arg3 harg3 arg4 harg4 arg5 harg5 arg6 harg6 arg7 harg7 arg8 harg8 hc0 hc1 x0 x1 x2 x3 xp xn).2.2.1)

/-- Where the result's buffer is not stored into, its entry in the triple is a placeholder nothing consults
    (the window is idle there and not written back). -/
def junkOut : Vec F S256x1 .f32 := VOut.read (Elt F) VOut.junk

/-! ## The accumulation over the points -/

theorem notLast_of_first (t : Fin cfg0.N) (h0 : t.val % 8 = 0) : ¬condLast (grid0.coords t) :=
  fun h => by have h7 := (hcondLast t).mp h; omega
theorem notFirst_of (t : Fin cfg0.N) (h0 : ¬t.val % 8 = 0) : ¬condFirst (grid0.coords t) := fun h => h0 ((hcondFirst t).mp h)
theorem notLast_of (t : Fin cfg0.N) (h1 : ¬t.val % 8 = 7) : ¬condLast (grid0.coords t) := fun h => h1 ((hcondLast t).mp h)

/-- (result buffer, running maximum, running minimum) after the body at point `n`. -/
def outsAt (c : Dev nD) : (n : ℕ) → n < cfg0.N → Vec F S256x1 .f32 × Vec F S256x1 .f32 × Vec F S256x1 .f32
  | 0, hn => (junkOut, posFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scPos (Memref.isWhole_whole _) scNeg (Memref.isWhole_whole _) ((hcondFirst ⟨0, hn⟩).mpr (Nat.zero_mod _)) (notLast_of_first ⟨0, hn⟩ (Nat.zero_mod _)) (iblk m c 0 ⟨0, hn⟩) (iblk m c 1 ⟨0, hn⟩) (iblk m c 2 ⟨0, hn⟩) (iblk m c 3 ⟨0, hn⟩), negFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scPos (Memref.isWhole_whole _) scNeg (Memref.isWhole_whole _) ((hcondFirst ⟨0, hn⟩).mpr (Nat.zero_mod _)) (notLast_of_first ⟨0, hn⟩ (Nat.zero_mod _)) (iblk m c 0 ⟨0, hn⟩) (iblk m c 1 ⟨0, hn⟩) (iblk m c 2 ⟨0, hn⟩) (iblk m c 3 ⟨0, hn⟩))
  | n + 1, hn =>
    if h0 : (n + 1) % 8 = 0 then
      (junkOut, posFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) ((hcondFirst ⟨n + 1, hn⟩).mpr h0) (notLast_of_first ⟨n + 1, hn⟩ h0) (iblk m c 0 ⟨n + 1, hn⟩) (iblk m c 1 ⟨n + 1, hn⟩) (iblk m c 2 ⟨n + 1, hn⟩) (iblk m c 3 ⟨n + 1, hn⟩), negFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) ((hcondFirst ⟨n + 1, hn⟩).mpr h0) (notLast_of_first ⟨n + 1, hn⟩ h0) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) (notFirst_of ⟨n + 1, hn⟩ h0) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, posLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) (notFirst_of ⟨n + 1, hn⟩ h0) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, negLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) (notFirst_of ⟨n + 1, hn⟩ h0) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)
      else
        (junkOut, posMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) (notFirst_of ⟨n + 1, hn⟩ h0) (notLast_of ⟨n + 1, hn⟩ h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, negMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) (notFirst_of ⟨n + 1, hn⟩ h0) (notLast_of ⟨n + 1, hn⟩ h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)

/-- `outsAt` at a first column tile. -/
theorem outsAt_first (c : Dev nD) (t : Fin cfg0.N) (h0 : t.val % 8 = 0) :
    outsAt m c t.val t.isLt = (junkOut, posFirst c (grid0.coords t) (ms0 t) (hs0 t) (ms1 t) (hs1 t) (ms2 t) (hs2 t) (ms3 t) (hs3 t) (ms4 t) (hs4 t) scPos (Memref.isWhole_whole _) scNeg (Memref.isWhole_whole _) ((hcondFirst t).mpr h0) (notLast_of_first t h0) (iblk m c 0 t) (iblk m c 1 t) (iblk m c 2 t) (iblk m c 3 t), negFirst c (grid0.coords t) (ms0 t) (hs0 t) (ms1 t) (hs1 t) (ms2 t) (hs2 t) (ms3 t) (hs3 t) (ms4 t) (hs4 t) scPos (Memref.isWhole_whole _) scNeg (Memref.isWhole_whole _) ((hcondFirst t).mpr h0) (notLast_of_first t h0) (iblk m c 0 t) (iblk m c 1 t) (iblk m c 2 t) (iblk m c 3 t)) := by
  obtain ⟨n, hn⟩ := t
  cases n with
  | zero => exact rfl
  | succ n => exact (dif_pos h0).trans rfl

/-- `outsAt` at a middle column tile, over what the point before left. -/
theorem outsAt_mid (c : Dev nD) (t : Fin cfg0.N) (h0 : ¬t.val % 8 = 0) (h1 : ¬t.val % 8 = 7) :
    outsAt m c t.val t.isLt = (junkOut, posMid c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) (notLast_of t h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, negMid c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) (notLast_of t h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a last column tile, over what the point before left. -/
theorem outsAt_last (c : Dev nD) (t : Fin cfg0.N) (h0 : ¬t.val % 8 = 0) (h1 : t.val % 8 = 7) :
    outsAt m c t.val t.isLt = (outLast c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, posLast c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, negLast c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point: the scratch buffers at anything. Before point n + 1: at what point n left. -/
def PhiS (c : Dev nD) : (n : ℕ) → n ≤ cfg0.N → sProp 𝕄
  | 0, _ => Pipeline.ΦA spec0 c
  | n + 1, hn => iprop(iprop(owns (c : Thread nD τ) scPos fullShare ((outsAt m c n hn).2.1) ∗ owns (c : Thread nD τ) scNeg fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scPos fullShare ((outsAt m c n hn).2.1) ∗ owns (c : Thread nD τ) scNeg fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scPos fullShare ((outsAt m c (n - 1) (by omega)).2.1) ∗ owns (c : Thread nD τ) scNeg fullShare ((outsAt m c (n - 1) (by omega)).2.2)) ∗ (∃ r, prngReg c r)) := by
  cases n with
  | zero => exact absurd rfl hz
  | succ n => rfl

/-! ## The pipeline's proof data -/

/-- Arrays as the region finds them; after the body each input's buffer at its block and the result's at
    `outsAt`'s first component; the invariant `PhiS`; the matrix's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem q0_eq (c : Dev nD) : (dats m 0 c).q 0 = fullShare.left := by dsimp only [dats]
theorem q1_eq (c : Dev nD) : (dats m 0 c).q 1 = fullShare.right := by dsimp only [dats]
theorem q2_eq (c : Dev nD) : (dats m 0 c).q 2 = fullShare := by dsimp only [dats]
theorem q3_eq (c : Dev nD) : (dats m 0 c).q 3 = fullShare := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

end Cert.Kernel.Hand

end
-- ==== Proof.Kernel.Body.lean ====
/-
  The body's obligation to the pipeline, point by point.

  At point t the pipeline hands the body the region's invariant, what the core owes, and the current staging
  buffer of each of the five windows; it wants back the invariant of the next point, the same debt, and each
  buffer at what the proof data says the body leaves there. Which of the three runs of the body applies is
  decided by the column tile b = t % 8: b = 0 restarts the two running extrema (whatever the scratch buffers
  held is irrelevant), 0 < b < 7 folds one more tile into what the point before left, b = 7 folds the last tile
  and stores the row tile's loss over the whole of the result's buffer. Away from b = 7 the result's buffer is
  handed back exactly as it was received. Each run ends with a scratch (or result) buffer written piece by piece;
  since the pieces cover the buffer, reading them back gives one vector that does not depend on what was there.
-/
import proofs.«176029_j6657199309074_1_alg».proof.Proof.Kernel.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Pieces read back -/

/-- A buffer that a run has written piece by piece, the pieces covering it, is owned at the pieces read back
    over anything — through whichever whole view of the shape the reading is stated. -/
theorem owns_of_pieces (c : Dev nD) (a : Memref sig .tc .vmem S256x1 .f32) (W : View sig .tc .vmem S256x1 .f32)
    (L : List (View.Piece (Elt F) S256x1 .f32)) (hL : ∀ y : S256x1.Idx, ∃ pc ∈ L, y ∈ pc.1.set) :
    (iprop(∃ f, a.view.loc (c : Thread nD τ) ↦[a.view.set]{fullShare} a.view.writes (Elt F) f L) : sProp 𝕄)
      ⊢ owns (c : Thread nD τ) a fullShare (W.read (Elt F) (W.writes (Elt F) W.junk L)) := by
  unfold owns
  iintro ⟨%f, H⟩
  iexists a.view.writes (Elt F) f L; isplitr
  · ipureintro; exact View.read_writes_of_cover a.view f W W.junk L hL
  iexact H

/-! ## The invariant with the scratch contents forgotten -/

/-- Before any point the invariant gives the two scratch buffers at SOME contents and the generator register:
    before the first point that is what it says; later the named contents are dropped. -/
theorem Phi_forget (c : Dev nD) (t : Fin (cfg0.N + 1)) :
    (dats m 0 c).Φ t ⊢ (iprop(iprop((∃ d, owns (c : Thread nD τ) scPos fullShare d) ∗ (∃ d, owns (c : Thread nD τ) scNeg fullShare d)) ∗ (∃ r, prngReg c r)) : sProp 𝕄) := by
  rw [show (dats m 0 c).Φ t = PhiS m c t.val (Nat.le_of_lt_succ t.isLt) from rfl]
  by_cases hz : t.val = 0
  · rw [PhiS_zero m c _ _ hz, PhiA_eq]
  · rw [PhiS_pos m c _ _ hz]
    iintro ⟨⟨HP, HN⟩, Hg⟩
    isplitr [Hg]
    · isplitl [HP]
      · iexists _; iexact HP
      iexists _; iexact HN
    iexact Hg

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives back what the launch handed over. -/
theorem hout (c : Dev nD) : (dats m 0 c).Φ (Fin.last cfg0.N) ⊢ Pipeline.ΦA spec0 c := by
  rw [PhiA_eq]
  exact Phi_forget m c _

/-! ## What each window's buffer is left at -/

/-- The four inputs are live at every point: each buffer is left holding its block. -/
theorem leaves0 (c : Dev nD) (t : Fin cfg0.N) :
    (dats m 0 c).leavesExact 0 t = owns (c : Thread nD τ) (ms0 t) fullShare (iblk m c 0 t) := by
  rw [← after0 m c t]
theorem leaves1 (c : Dev nD) (t : Fin cfg0.N) :
    (dats m 0 c).leavesExact 1 t = owns (c : Thread nD τ) (ms1 t) fullShare (iblk m c 1 t) := by
  rw [← after1 m c t]
theorem leaves2 (c : Dev nD) (t : Fin cfg0.N) :
    (dats m 0 c).leavesExact 2 t = owns (c : Thread nD τ) (ms2 t) fullShare (iblk m c 2 t) := by
  rw [← after2 m c t]
theorem leaves3 (c : Dev nD) (t : Fin cfg0.N) :
    (dats m 0 c).leavesExact 3 t = owns (c : Thread nD τ) (ms3 t) fullShare (iblk m c 3 t) := by
  rw [← after3 m c t]

/-- Away from the last column tile the result's window is idle and not written back: its buffer is to come
    back as it was found. -/
theorem leaves4_idle (c : Dev nD) (t : Fin cfg0.N) (h : ¬condLast (grid0.coords t)) :
    (dats m 0 c).leavesExact 4 t = iprop(∃ d, owns (c : Thread nD τ) (ms4 t) fullShare ((dats m 0 c).before 4 t d)) :=
  Dat.leavesExact_idle (dats m 0 c) 4 t (idle4 t h) (noFlush4 t h)

/-- At the last column tile it is live: its buffer is left at the accumulation's first component. -/
theorem leaves4_live (c : Dev nD) (t : Fin cfg0.N) (h : condLast (grid0.coords t)) :
    (dats m 0 c).leavesExact 4 t = owns (c : Thread nD τ) (ms4 t) fullShare ((outsAt m c t.val t.isLt).1) := by
  rw [← after4 m c t]; unfold Dat.leavesExact; rw [live4 t h]

/-! ## What the pipeline hands over and what it wants back -/

/-- Before the body at point `t`: the invariant, the debt, and the five windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- After it: the next point's invariant, the debt, and each buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-! ## The three cases -/

set_option maxHeartbeats 2000000 in
/-- First column tile. The scratch buffers' contents are forgotten before the run (it overwrites them whole);
    afterwards each is read back from its covering pieces, which is what the accumulation names at `t`. -/
theorem sound_first (c : Dev nD) (t : Fin cfg0.N) (h0 : t.val % 8 = 0) :
    bodyPre m c t ⊢ wp frame (wpE (defs₀ (F := F)) Variants.none c none) Set.univ (bodyAt0 t) (fun _ => bodyPost m c t) := by
  have hF : condFirst (grid0.coords t) := (hcondFirst t).mpr h0
  have hL : ¬condLast (grid0.coords t) := notLast_of_first t h0
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4_idle m c t hL]
  rw [outsAt_first m c t h0]
  unfold posFirst negFirst; dsimp only
  iintro ⟨HΦ, Ho, ⟨%d0, H0⟩, ⟨%d1, H1⟩, ⟨%d2, H2⟩, ⟨%d3, H3⟩, ⟨%d4, H4⟩⟩
  ihave HΦ' := (Phi_forget m c t.castSucc) $$ HΦ
  icases HΦ' with ⟨⟨HP, HN⟩, Hg⟩
  iapply ((runFirst c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t)).2.2 _ Set.univ _)
  isplitl [H0]; · iexact H0
  isplitl [H1]; · iexact H1
  isplitl [H2]; · iexact H2
  isplitl [H3]; · iexact H3
  isplitl [H4]; · iexact H4
  isplitl [HP]; · iexact HP
  isplitl [HN]; · iexact HN
  iintro ⟨H0, H1, H2, H3, H4, HP, HN⟩
  isplitl [HP HN Hg]
  · isplitr [Hg]
    · isplitl [HP]
      · iapply (owns_of_pieces c scPos VPos _ (coverPosFirst c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t)))
        iexact HP
      · iapply (owns_of_pieces c scNeg VNeg _ (coverNegFirst c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t)))
        iexact HN
    iexact Hg
  isplitl [Ho]; · iexact Ho
  isplitl [H0]; · iexact H0
  isplitl [H1]; · iexact H1
  isplitl [H2]; · iexact H2
  isplitl [H3]; · iexact H3
  iexists _; iexact H4

set_option maxHeartbeats 2000000 in
/-- Middle column tile. The point is not the grid's first, so the invariant holds the scratch buffers at what
    the point before left, which is what this run folds the tile into. -/
theorem sound_mid (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hF : ¬condFirst (grid0.coords t) := notFirst_of t h0
  have hL : ¬condLast (grid0.coords t) := notLast_of t h1
  have hz : t.val ≠ 0 := fun h => h0 (by rw [h])
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4_idle m c t hL]
  rw [outsAt_mid m c t h0 h1]
  unfold posMid negMid; dsimp only
  rw [PhiS_castSucc m c t, PhiS_pos m c _ _ hz]
  iintro ⟨⟨⟨HP, HN⟩, Hg⟩, Ho, ⟨%d0, H0⟩, ⟨%d1, H1⟩, ⟨%d2, H2⟩, ⟨%d3, H3⟩, ⟨%d4, H4⟩⟩
  iapply ((runMid c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2).2.2 _ Set.univ _)
  isplitl [H0]; · iexact H0
  isplitl [H1]; · iexact H1
  isplitl [H2]; · iexact H2
  isplitl [H3]; · iexact H3
  isplitl [H4]; · iexact H4
  isplitl [HP]; · iexact HP
  isplitl [HN]; · iexact HN
  iintro ⟨H0, H1, H2, H3, H4, HP, HN⟩
  isplitl [HP HN Hg]
  · isplitr [Hg]
    · isplitl [HP]
      · iapply (owns_of_pieces c scPos VPos _ (coverPosMid c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2))
        iexact HP
      · iapply (owns_of_pieces c scNeg VNeg _ (coverNegMid c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2))
        iexact HN
    iexact Hg
  isplitl [Ho]; · iexact Ho
  isplitl [H0]; · iexact H0
  isplitl [H1]; · iexact H1
  isplitl [H2]; · iexact H2
  isplitl [H3]; · iexact H3
  iexists _; iexact H4

set_option maxHeartbeats 2000000 in
/-- Last column tile. As at a middle tile for the scratch buffers; the result's buffer is taken at anything
    and comes back covered by the stored loss, read back as the accumulation's first component. -/
theorem sound_last (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  have hF : ¬condFirst (grid0.coords t) := notFirst_of t h0
  have hL : condLast (grid0.coords t) := (hcondLast t).mpr h1
  have hz : t.val ≠ 0 := fun h => h0 (by rw [h])
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4_live m c t hL]
  rw [outsAt_last m c t h0 h1]
  unfold outLast posLast negLast; dsimp only
  rw [PhiS_castSucc m c t, PhiS_pos m c _ _ hz]
  iintro ⟨⟨⟨HP, HN⟩, Hg⟩, Ho, ⟨%d0, H0⟩, ⟨%d1, H1⟩, ⟨%d2, H2⟩, ⟨%d3, H3⟩, ⟨%d4, H4⟩⟩
  iapply ((runLast c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2).2.2.2 Set.univ _)
  isplitl [H0]; · iexact H0
  isplitl [H1]; · iexact H1
  isplitl [H2]; · iexact H2
  isplitl [H3]; · iexact H3
  isplitl [H4]; · iexists _; iexact H4
  isplitl [HP]; · iexact HP
  isplitl [HN]; · iexact HN
  iintro ⟨H0, H1, H2, H3, H4, HP, HN⟩
  isplitl [HP HN Hg]
  · isplitr [Hg]
    · isplitl [HP]
      · iapply (owns_of_pieces c scPos VPos _ (coverPosLast c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2))
        iexact HP
      · iapply (owns_of_pieces c scNeg VNeg _ (coverNegLast c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2))
        iexact HN
    iexact Hg
  isplitl [Ho]; · iexact Ho
  isplitl [H0]; · iexact H0
  isplitl [H1]; · iexact H1
  isplitl [H2]; · iexact H2
  isplitl [H3]; · iexact H3
  iapply (owns_of_pieces c (ms4 t) VOut _ (coverOutLast c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2))
  iexact H4

/-! ## Every point -/

/-- The column tile decides the case: b = 0, b = 7, or in between. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · by_cases h1 : t.val % 8 = 7
    · exact sound_last m c t h0 h1
    · exact sound_mid m c t h0 h1

/-- The library's body obligation: its two conjunctions over the windows written out are the pre and the post above. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Kernel.Run.lean ====
/-
  The kernel's program runs: every weakly fair execution of @main ends, faults nowhere, leaves the two arguments
  as launched, and leaves in the result buffer the mean of the region's final [4096,1] array — the array the
  proof data computes from the body's write-backs.
-/
import proofs.«176029_j6657199309074_1_alg».proof.Proof.Kernel.Launch
import proofs.«176029_j6657199309074_1_alg».proof.Proof.Kernel.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of @main, with the result named. -/
theorem run_main : θ_run defs (onTc (τ := τ) (main (F := F))) ⟨m, fun _ => 0, ρ⟩ (fun r => ∀ c : Dev nD,
      r.2.mem ((c.tc : Thread nD τ).loc main_v4) = meanOf ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (dats m) (q0_eq m) (q1_eq m) (q2_eq m) (q3_eq m) (A_eq m) (fun c => (body_obligation m c).loose)
    (fun _ _ => rfl) (hin m) (hout m)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KernelIdeal.Base.lean ====
/-
  The tiled kernel's region, seen from outside the body.

  @main is: two reshapes of the label vector (a column [4096,1] and a row [1,4096]), the region, then the mean
  of the region's [4096,1] result. The region walks a 16 × 8 grid: point t has row tile a = t / 8 (256 rows) and
  column tile b = t % 8 (512 rows of the SAME matrix, read as columns of the distance matrix). Windows 0 and 1
  both read the matrix (row tile a, column tile b), windows 2 and 3 the labels' column and row, window 4 is the
  result's row tile a. The body resets its two running extrema where b = 0, folds one tile into them at every
  point, and stores the margin loss into window 4 where b = 7 — the only points at which window 4 is written back.
-/
import proofs.«176029_j6657199309074_1_alg».proof.Proof.Gen.KernelIdeal.Launch
import proofs.«176029_j6657199309074_1_alg».proof.Proof.Gen.KernelIdeal.Skeleton
import proofs.«176029_j6657199309074_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the mean's four operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes write only their own results: the two arguments enter the region as launched. -/
theorem V_main_arg0 (c : Dev nD) : V m c main_arg0 = m ((c : Thread nD τ).loc main_arg0) := by
  dsimp only [V, V0]
  simp only [hostOps0, List.flatten_cons, List.flatten_nil, List.append_nil]
  after_results
theorem V_main_arg1 (c : Dev nD) : V m c main_arg1 = m ((c : Thread nD τ).loc main_arg1) := by
  dsimp only [V, V0]
  simp only [hostOps0, List.flatten_cons, List.flatten_nil, List.append_nil]
  after_results

/-- The mean the host takes of the region's [4096,1] result: its sum over both axes from 0, divided by 4096. -/
def meanOf (X : (⟨S4096x1, .f32⟩ : BufTy).Contents (Elt F)) : (⟨S_, .f32⟩ : BufTy).Contents (Elt F) :=
  Host.divf (Host.reduceAdd X (constant S_ .f32 0x00000000#32) reducesTo_S4096x1_S_d0_1 h_S_) (constant S_ .f32 0x45800000#32)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, refetched there or not: between two
    fetches the block index has not moved and the body leaves the block in place. One statement per input. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first column tile" (b = 0): the running extrema are reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the last column tile" (b = 7): the row tile's loss is stored. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column tile nothing is stored into the result's buffer and it is not written back. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-! ## The memrefs the body is called with -/

abbrev ms0 (t : Fin cfg0.N) : Memref sig .tc .vmem S256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
/-- The running maximum's and the running minimum's scratch buffers. -/
abbrev scPos : Memref sig .tc .vmem S256x1 .f32 := Memref.whole cc0_scratch0
abbrev scNeg : Memref sig .tc .vmem S256x1 .f32 := Memref.whole cc0_scratch1
/-- Views through which buffer contents are stated (any whole buffer of the shape serves). -/
abbrev VOut : View sig .tc .vmem S256x1 .f32 := (Memref.whole cc0_stg4_0 : Memref sig .tc .vmem S256x1 .f32).view
abbrev VPos : View sig .tc .vmem S256x1 .f32 := scPos.view
abbrev VNeg : View sig .tc .vmem S256x1 .f32 := scNeg.view

/-- What the region hands the body besides the windows: the two scratch buffers at some contents, and the
    generator register. -/
theorem PhiA_eq (c : Dev nD) :
    (Pipeline.ΦA spec0 c : sProp 𝕄)
      = iprop(iprop((∃ d, owns (c : Thread nD τ) scPos fullShare d) ∗ (∃ d, owns (c : Thread nD τ) scNeg fullShare d)) ∗ (∃ r, prngReg c r)) := by
  unfold Pipeline.ΦA; rw [scopedRest0_eq]; simp only [scPos, scNeg, owns_whole]; try rfl

end Cert.KernelIdeal.Hand

end
-- ==== Proof.KernelIdeal.Launch.lean ====
/-
  The run of @main, from the region's launch rule.

  Two of the region's windows read one array (the matrix, once by row tiles and once by column tiles), so the
  matrix's full share is dealt in halves to the two windows reading it; every other array goes whole to its one
  window. After the region the host takes the mean of the result: four operations that read the result's array and
  write four buffers the region never touches. The final memory then holds the mean of what the region left in the
  result's array, and the two arguments as launched.
-/
import proofs.«176029_j6657199309074_1_alg».proof.Proof.KernelIdeal.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt to the windows -/

/-- The distinct arrays behind the five windows: the matrix (twice), the labels' column and row, the result. -/
theorem arr_image : Finset.univ.image (Pipeline.arrRef spec0) = [main_arg0, main_v0, main_v1, main_v2].toFinset := by decide

/-- The four of them, each whole at the full share, one by one. -/
theorem arrBufs0_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq _ arr_image (by decide) _

/-- The four arrays, each held whole at the full share, are the five windows' arrays at the windows' shares: the
    matrix's full share is its left half, for the row-tile window, joined with its right half, for the column-tile
    window; the labels' column and row and the result go whole to the one window on each. -/
theorem hsplit_of {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hA : ∀ w, dat.A w = V m c (Pipeline.arrRef spec0 w)) :
    (Pipeline.arrBufs spec0 c (V m c) : sProp 𝕄) ⊢ dat.arrays (dat.arrAt · 0) := by
  have hs0 : dat.share 0 = fullShare.left := (if_neg (by decide)).trans hq0
  have hs1 : dat.share 1 = fullShare.right := (if_neg (by decide)).trans hq1
  have hs2 : dat.share 2 = fullShare := (if_neg (by decide)).trans hq2
  have hs3 : dat.share 3 = fullShare := (if_neg (by decide)).trans hq3
  have hs4 : dat.share 4 = fullShare := if_pos (by decide)
  have e0 : dat.arrAt 0 0 = V m c main_arg0 := hA 0
  have e1 : dat.arrAt 1 0 = V m c main_arg0 := hA 1
  have e2 : dat.arrAt 2 0 = V m c main_v0 := hA 2
  have e3 : dat.arrAt 3 0 = V m c main_v1 := hA 3
  have e4 : dat.arrAt 4 0 = V m c main_v2 := hA 4
  rw [arrBufs0_eq]
  unfold Dat.arrays
  rw [bigSep_W0, hs0, hs1, hs2, hs3, hs4]
  dsimp only
  rw [e0, e1, e2, e3, e4]
  simp only [View.set_whole]
  iintro ⟨H0, H1, H2, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H2]; · iexact H2
  iexact H3

/-! ## The mean after the region -/

/-- The buffers the mean's four operations touch: the result's array, which they read, and the four they write. -/
abbrev tailL : List (Ref sig .tc) := [main_v2, main_cst, main_v3, main_cst_0, main_v4]
abbrev tailS : Finset (DevRef τ sig) := tailL.toFinset.map ⟨Proc.devRef (sig := sig) .tc, Proc.devRef_injective _⟩

/-- A listed reference is, as a buffer of the device, one of them. -/
theorem mem_tailS {r : Ref sig .tc} (h : r ∈ tailL) : Proc.devRef (τ := τ) .tc r ∈ tailS :=
  Finset.mem_map_of_mem _ (List.mem_toFinset.mpr h)

/-- Each of the four operations touches only those: a constant its own buffer, the sum and the quotient their two
    operands and their result. -/
theorem hostOps1_tail : (hostOps1 : List (HloOp τ sig (Elt F))).Forall fun op => op.bufs ⊆ tailS :=
  ⟨Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩,
   Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩⟩

/-- Those buffers held whole at contents `W`, one by one. -/
theorem held_tailS (c : Dev nD) (W : Valuation τ sig (Elt F)) :
    (StableHlo.held (c.tc : Thread nD τ) tailS W : sProp 𝕄)
      = iprop((((c : Thread nD τ).loc main_v2) ↦{fullShare} W (Proc.devRef .tc main_v2)) ∗ (((c : Thread nD τ).loc main_cst) ↦{fullShare} W (Proc.devRef .tc main_cst))
          ∗ (((c : Thread nD τ).loc main_v3) ↦{fullShare} W (Proc.devRef .tc main_v3)) ∗ (((c : Thread nD τ).loc main_cst_0) ↦{fullShare} W (Proc.devRef .tc main_cst_0))
          ∗ (((c : Thread nD τ).loc main_v4) ↦{fullShare} W (Proc.devRef .tc main_v4))) := by
  unfold StableHlo.held tailS
  rw [bigSep_map]
  exact bigSep_eq_bigSepL tailL (by decide) _

/-- Core `c`'s contents as the mean's operations find them: the result's array at `X`, what the region left there,
    and every other buffer as the region was entered. -/
def exitV (c : Dev nD) (X : (⟨S4096x1, .f32⟩ : BufTy).Contents (Elt F)) : Valuation τ sig (Elt F) :=
  Function.update (V0 m c) (Proc.devRef .tc main_v2) X

/-- Read at the result's array it gives what the region left there, -/
theorem exitV_v2 (c : Dev nD) (X : (⟨S4096x1, .f32⟩ : BufTy).Contents (Elt F)) : exitV m c X (Proc.devRef .tc main_v2) = X :=
  Function.update_self ..
/-- and at any other reference the contents at the region's entry. -/
theorem exitV_ne (c : Dev nD) (X : (⟨S4096x1, .f32⟩ : BufTy).Contents (Elt F)) {r : Ref sig .tc} (h : r ≠ main_v2) :
    exitV m c X (Proc.devRef .tc r) = V m c r :=
  Function.update_of_ne (StableHlo.devRef_ne_of_ne h) ..

/-- After the four operations the last buffer holds the mean of the result's array, -/
theorem after_v4 (c : Dev nD) (X : (⟨S4096x1, .f32⟩ : BufTy).Contents (Elt F)) :
    StableHlo.after hostOps1 (exitV m c X) (Proc.devRef .tc main_v4) = meanOf X := by
  unfold meanOf
  after_results
  rw [exitV_v2]
/-- and the result's array, which they only read, what it held. -/
theorem after_v2 (c : Dev nD) (X : (⟨S4096x1, .f32⟩ : BufTy).Contents (Elt F)) :
    StableHlo.after hostOps1 (exitV m c X) (Proc.devRef .tc main_v2) = X := by
  after_results
  rw [exitV_v2]

/-- What the four operations leave of the buffers they touch: the result's array as it was, the last buffer at the
    mean (the three intermediate buffers are of no further use). -/
theorem held_after (c : Dev nD) (X : (⟨S4096x1, .f32⟩ : BufTy).Contents (Elt F)) :
    (StableHlo.held (c.tc : Thread nD τ) tailS (StableHlo.after [(hostOps1 : List (HloOp τ sig (Elt F)))].flatten (exitV m c X)) : sProp 𝕄)
      ⊢ iprop((((c : Thread nD τ).loc main_v2) ↦{fullShare} X) ∗ (((c : Thread nD τ).loc main_v4) ↦{fullShare} meanOf X)) := by
  rw [held_tailS, List.flatten_cons, List.flatten_nil, List.append_nil, after_v2, after_v4]
  iintro ⟨A4, -, -, -, Z4⟩
  isplitl [A4] <;> iassumption

/-- What the run holds of the buffers the region bypasses once the mean is taken: the labels as the region was
    entered, and the mean of what the region left in the result's array. -/
def tailZ' {c : Dev nD} (dat : Dat τ (Elt F) Unit ℕ (UR sig nD τ) ℕ cfg0 c) : sProp 𝕄 :=
  iprop((((c : Thread nD τ).loc main_arg1) ↦{fullShare} V m c main_arg1)
    ∗ (((c : Thread nD τ).loc main_v4) ↦{fullShare} meanOf (dat.arrAt 4 cfg0.N)))

/-- The mean's four operations from the region's exit: they run within the result's array (window 4's, held whole)
    and the four buffers they write, which bypass the region; the arrays come back as they were. -/
theorem htail_of {c : Dev nD} (dat : Dat τ (Elt F) Unit ℕ (UR sig nD τ) ℕ cfg0 c) (Q' : PUnit → sProp 𝕄) :
    iprop((iprop(dat.arrays (dat.arrAt · cfg0.N) ∗ tailZ' m dat) -∗ Q' ⟨⟩)
        ∗ boundary (c.tc : Thread nD τ) ∗ dat.arrays (dat.arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  have hs4 : dat.share 4 = fullShare := if_pos (by decide)
  rw [unscopedRest0_eq]
  unfold Dat.arrays tailZ'
  rw [bigSep_W0]
  dsimp only
  rw [hs4]
  simp only [View.set_whole]
  change _ ⊢ wp frame _ Set.univ (Pipeline.chain ([hostOps1].map StableHlo.seq ++ [])) Q'
  iintro ⟨Hk, Hb, ⟨A0, A1, A2, A3, A4⟩, Z1, Zc, Z3, Zc0, Z4⟩
  have hsub : ∀ ops ∈ [(hostOps1 : List (HloOp τ sig (Elt F)))], ∀ op ∈ ops, op.bufs ⊆ tailS := fun ops hops op hop => by
    rw [List.mem_singleton.mp hops] at hop
    exact List.forall_iff_forall_mem.mp hostOps1_tail op hop
  have hfresh : ∀ ops ∈ [(hostOps1 : List (HloOp τ sig (Elt F)))], ∀ op ∈ ops, op.fresh = ∅ := fun ops hops op hop => by
    rw [List.mem_singleton.mp hops] at hop
    exact List.forall_iff_forall_mem.mp hostOps1_fresh op hop
  iapply (Pipeline.wp_seqs_then pcfgs defs₀ Variants.none c tailS [] [hostOps1] hsub hfresh (exitV m c (dat.arrAt 4 cfg0.N))) $$ [Hb A4 Zc Z3 Zc0 Z4]
  · isplitl [Hb]; · iexact Hb
    rw [held_tailS, exitV_v2, exitV_ne m c _ (by decide : main_cst ≠ main_v2), exitV_ne m c _ (by decide : main_v3 ≠ main_v2),
      exitV_ne m c _ (by decide : main_cst_0 ≠ main_v2), exitV_ne m c _ (by decide : main_v4 ≠ main_v2)]
    isplitl [A4]; · iexact A4
    isplitl [Zc]; · iexact Zc
    isplitl [Z3]; · iexact Z3
    isplitl [Zc0]; · iexact Zc0
    iexact Z4
  iintro ⟨Hb, Hh⟩
  rw [Pipeline.chain_nil, wp_pure]
  imodintro
  ihave Hh' := (held_after m c (dat.arrAt 4 cfg0.N)) $$ Hh
  icases Hh' with ⟨A4, Z4⟩
  iapply Hk
  isplitl [A0 A1 A2 A3 A4]
  · isplitl [A0]; · iexact A0
    isplitl [A1]; · iexact A1
    isplitl [A2]; · iexact A2
    isplitl [A3]; · iexact A3
    iexact A4
  isplitl [Z1]; · iexact Z1
  iexact Z4

/-! ## The run -/

/-- From any launch memory with zero counters, for proof data that deal the matrix's halves to its two windows and
    enter at the contents after the reshapes: every weakly fair execution of @main terminates, the last buffer then
    holds the mean of what the region left in the result's array, and both arguments hold what they were launched with. -/
theorem run_of (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V m c (Pipeline.arrRef spec0 w))
    (hbody : ∀ c, Pipeline.BodyObligationLoose (dats 0 c) defs₀ Variants.none () Set.univ)
    (howed : ∀ c t, (dats 0 c).owed t = 0)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v4) = meanOf ((dats 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  -- The region's launch rule, with: no ghost state beyond the staging cells'; the region entered at the contents after
  -- the reshapes; the arrays dealt to the windows as above; the generator register handed through the region and the
  -- buffers that bypass it carried around it whole; the mean run from the region's exit; and the final memory read
  -- off the points-tos that remain — the mean and the labels from the bypassing buffers, the matrix from its first
  -- window's array, which, an input's, no write-back ever changes.
  exact Pipeline.θ_run_region_pf_tail (fun p => (cfgs p).toPCfg (Val := Elt F)) (fun p => (cfgs p).toPCfg_adm) dats () cellOf_inj 0
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_of m (dats 0 c) (hq0 c) (hq1 c) (hq2 c) (hq3 c) (hA c))
    (hpf := fun _ k => k.elim0)
    (X := fun c => iprop(∃ r, prngReg c r)) (Y := fun c => iprop(∃ r, prngReg c r))
    (Z := fun c => Pipeline.unscopedRest spec0 c (V m c)) (Z' := fun c => tailZ' m (dats 0 c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_of m (dats 0 c) Q')
    (QY := fun c s => s.mem ((c.tc : Thread nD τ).loc main_arg1) = V m c main_arg1
      ∧ s.mem ((c.tc : Thread nD τ).loc main_v4) = meanOf ((dats 0 c).arrAt 4 cfg0.N))
    (hY := fun c s' => by
      unfold tailZ'
      iintro ⟨-, ⟨H1, H4⟩, HSI⟩
      icombine HSI H1 gives %h1
      icombine HSI H4 gives %h4
      imodintro
      isplitr; · ipureintro; exact ⟨Buf.eq_of_forall_mem_univ h1, Buf.eq_of_forall_mem_univ h4⟩
      iexact HSI)
    (hQ := fun s h c => ⟨(h c).2.2.2,
      ((h c).1 0).trans ((((dats 0 c).arrAt_in 0 rfl _).trans (hA c 0)).trans (V_main_arg0 m c)),
      (h c).2.2.1.trans (V_main_arg1 m c)⟩)

end Cert.KernelIdeal.Hand

end
-- ==== Proof.KernelIdeal.RunFirst.lean ====
/-
  The body at a point of the FIRST column tile (b = 0, so not the last): both running extrema are reset to
  their start values (−1e30, +1e30) and then this tile is folded in. The result's buffer is not touched.
  The run states what the two scratch buffers end with as lists of stored pieces (latest first).
-/
import proofs.«176029_j6657199309074_1_alg».proof.Proof.KernelIdeal.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- On whole memrefs — the four inputs at their contents, the result's buffer at `xi4` (handed back untouched),
    the two scratch buffers at anything — the body runs to its end holding the inputs and the result's buffer as
    they were and each scratch buffer with its pieces written. -/
noncomputable def runFirst (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : condFirst i) (hc1 : ¬condLast i)
    (x0 : Vec F S256x2048 .f32) (x1 : Vec F S512x2048 .f32) (x2 : Vec F S256x1 .i32) (x3 : Vec F S1x512 .i32) :
    Σ' (LPos : List (View.Piece (Elt F) S256x1 .f32)), { LNeg : List (View.Piece (Elt F) S256x1 .f32) //
      ∀ (xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LPos)
                ∗ (∃ f, arg8.view.loc (c : Thread nD τ) ↦[arg8.view.set]{fullShare} arg8.view.writes (Elt F) f LNeg)) -∗ K ⟨⟩))
          ⊢ wp frame (wpE (defs₀ (F := F)) Variants.none c none) E (cc0__trihard_kernel i arg2 harg2 arg3 harg3 arg4 harg4 arg5 harg5 arg6 harg6 arg7 harg7 arg8 harg8) K } := by
  refine ⟨?_, ?_, fun xi4 E K => ?run⟩
  case run =>
    simp only [cc0__trihard_kernel_eq_skeleton]; unfold cc0__trihard_kernel_skel
    unfold owns
    iintro ⟨⟨%f0, %hf0, H0⟩, ⟨%f1, %hf1, H1⟩, ⟨%f2, %hf2, H2⟩, ⟨%f3, %hf3, H3⟩, ⟨%f4, %hf4, H4⟩, ⟨%dp, %fp, -, HP⟩, ⟨%dn, %fn, -, HN⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HP]; · iexists _; iexact HP
    iexists _; iexact HN

end Cert.KernelIdeal.Hand

end
-- ==== Proof.KernelIdeal.RunMid.lean ====
/-
  The body at a point of a MIDDLE column tile (0 < b < 7): the running extrema the point before left
  (`xp`, `xn`) are folded with this tile's row maxima and minima. The result's buffer is not touched.
-/
import proofs.«176029_j6657199309074_1_alg».proof.Proof.KernelIdeal.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- On whole memrefs — the four inputs at their contents, the result's buffer at `xi4` (handed back untouched),
    the two scratch buffers at what the point before left — the body runs to its end holding the inputs and the
    result's buffer as they were and each scratch buffer with its pieces written. -/
noncomputable def runMid (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : ¬condLast i)
    (x0 : Vec F S256x2048 .f32) (x1 : Vec F S512x2048 .f32) (x2 : Vec F S256x1 .i32) (x3 : Vec F S1x512 .i32) (xp : Vec F S256x1 .f32) (xn : Vec F S256x1 .f32) :
    Σ' (LPos : List (View.Piece (Elt F) S256x1 .f32)), { LNeg : List (View.Piece (Elt F) S256x1 .f32) //
      ∀ (xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xp ∗ owns (c : Thread nD τ) arg8 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LPos)
                ∗ (∃ f, arg8.view.loc (c : Thread nD τ) ↦[arg8.view.set]{fullShare} arg8.view.writes (Elt F) f LNeg)) -∗ K ⟨⟩))
          ⊢ wp frame (wpE (defs₀ (F := F)) Variants.none c none) E (cc0__trihard_kernel i arg2 harg2 arg3 harg3 arg4 harg4 arg5 harg5 arg6 harg6 arg7 harg7 arg8 harg8) K } := by
  refine ⟨?_, ?_, fun xi4 E K => ?run⟩
  case run =>
    simp only [cc0__trihard_kernel_eq_skeleton]; unfold cc0__trihard_kernel_skel
    unfold owns
    iintro ⟨⟨%f0, %hf0, H0⟩, ⟨%f1, %hf1, H1⟩, ⟨%f2, %hf2, H2⟩, ⟨%f3, %hf3, H3⟩, ⟨%f4, %hf4, H4⟩, ⟨%fp, %hfp, HP⟩, ⟨%fn, %hfn, HN⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfp; obtain rfl := harg8.eq_unread hfn
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HP]; · iexists _; iexact HP
    iexists _; iexact HN

end Cert.KernelIdeal.Hand

end
-- ==== Proof.KernelIdeal.RunLast.lean ====
/-
  The body at a point of the LAST column tile (b = 7, so not the first): the running extrema the point before
  left (`xp`, `xn`) are folded with this tile, and the margin loss of the row tile, computed from the two
  final extrema, is stored over the whole of the result's buffer.
-/
import proofs.«176029_j6657199309074_1_alg».proof.Proof.KernelIdeal.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- On whole memrefs — the four inputs at their contents, the result's buffer at anything, the two scratch
    buffers at what the point before left — the body runs to its end holding the inputs as they were and the
    result's buffer and each scratch buffer with its pieces written. -/
noncomputable def runLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i)
    (x0 : Vec F S256x2048 .f32) (x1 : Vec F S512x2048 .f32) (x2 : Vec F S256x1 .i32) (x3 : Vec F S1x512 .i32) (xp : Vec F S256x1 .f32) (xn : Vec F S256x1 .f32) :
    Σ' (LOut : List (View.Piece (Elt F) S256x1 .f32)) (LPos : List (View.Piece (Elt F) S256x1 .f32)), { LNeg : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xp ∗ owns (c : Thread nD τ) arg8 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LOut)
                ∗ (∃ f, arg7.view.loc (c : Thread nD τ) ↦[arg7.view.set]{fullShare} arg7.view.writes (Elt F) f LPos)
                ∗ (∃ f, arg8.view.loc (c : Thread nD τ) ↦[arg8.view.set]{fullShare} arg8.view.writes (Elt F) f LNeg)) -∗ K ⟨⟩))
          ⊢ wp frame (wpE (defs₀ (F := F)) Variants.none c none) E (cc0__trihard_kernel i arg2 harg2 arg3 harg3 arg4 harg4 arg5 harg5 arg6 harg6 arg7 harg7 arg8 harg8) K } := by
  refine ⟨?_, ?_, ?_, fun E K => ?run⟩
  case run =>
    simp only [cc0__trihard_kernel_eq_skeleton]; unfold cc0__trihard_kernel_skel
    unfold owns
    iintro ⟨⟨%f0, %hf0, H0⟩, ⟨%f1, %hf1, H1⟩, ⟨%f2, %hf2, H2⟩, ⟨%f3, %hf3, H3⟩, ⟨%d4, %f4, -, H4⟩, ⟨%fp, %hfp, HP⟩, ⟨%fn, %hfn, HN⟩, Hk⟩
    obtain rfl := harg2.eq_unread hf0; obtain rfl := harg3.eq_unread hf1; obtain rfl := harg4.eq_unread hf2
    obtain rfl := harg5.eq_unread hf3
    obtain rfl := harg7.eq_unread hfp; obtain rfl := harg8.eq_unread hfn
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HP]; · iexists _; iexact HP
    iexists _; iexact HN

end Cert.KernelIdeal.Hand

end
-- ==== Proof.KernelIdeal.Data.lean ====
/-
  What the region's buffers hold, point by point.

  Each case of the body leaves lists of stored pieces in the scratch buffers (and, at a last column tile, in the
  result's buffer); read back, a covering list is one vector. `outsAt n` is the triple (result buffer, running
  maximum, running minimum) after the body at point n, by recursion on n: at a first column tile the extrema
  restart, elsewhere they continue from point n − 1 — between two points of one row tile nothing else touches the
  scratch buffers. The region's invariant before point n + 1 holds the two scratch buffers at exactly that.
  The matrix is read through two windows; its full share is dealt to them as the left and the right half.
-/
import proofs.«176029_j6657199309074_1_alg».proof.Proof.KernelIdeal.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, as vectors -/

/-- The first-tile case's pieces cover each scratch buffer (one whole store is the latest piece). -/
theorem coverPosFirst (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : condFirst i) (hc1 : ¬condLast i) (x0 : Vec F S256x2048 .f32) (x1 : Vec F S512x2048 .f32) (x2 : Vec F S256x1 .i32) (x3 : Vec F S1x512 .i32) (y : S256x1.Idx) :
    ∃ pc ∈ (runFirst c i arg2 harg2 arg3 harg3 arg4 harg4 arg5 harg5 arg6 harg6 arg7 harg7 arg8 harg8 hc0 hc1 x0 x1 x2 x3).1, y ∈ pc.1.set :=
  View.cover_of_tiledL (runFirst c i arg2 harg2 arg3 harg3 arg4 harg4 arg5 harg5 arg6 harg6 arg7 harg7 arg8 harg8 hc0 hc1 x0 x1 x2 x3).1 S256x1.size (by sl_kernel_rfl) y
theorem coverNegFirst (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : condFirst i) (hc1 : ¬condLast i) (x0 : Vec F S256x2048 .f32) (x1 : Vec F S512x2048 .f32) (x2 : Vec F S256x1 .i32) (x3 : Vec F S1x512 .i32) (y : S256x1.Idx) :
    ∃ pc ∈ (runFirst c i arg2 harg2 arg3 harg3 arg4 harg4 arg5 harg5 arg6 harg6 arg7 harg7 arg8 harg8 hc0 hc1 x0 x1 x2 x3).2.1, y ∈ pc.1.set :=
  View.cover_of_tiledL (runFirst c i arg2 harg2 arg3 harg3 arg4 harg4 arg5 harg5 arg6 harg6 arg7 harg7 arg8 harg8 hc0 hc1 x0 x1 x2 x3).2.1 S256x1.size (by sl_kernel_rfl) y
/-- The running maximum and minimum after a first tile. -/
def posFirst (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : condFirst i) (hc1 : ¬condLast i) (x0 : Vec F S256x2048 .f32) (x1 : Vec F S512x2048 .f32) (x2 : Vec F S256x1 .i32) (x3 : Vec F S1x512 .i32) : Vec F S256x1 .f32 :=
  VPos.read (Elt F) (VPos.writes (Elt F) VPos.junk (runFirst c i arg2 harg2 arg3 harg3 arg4 harg4 arg5 harg5 arg6 harg6 arg7 harg7 arg8 harg8 hc0 hc1 x0 x1 x2 x3).1)
def negFirst (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : condFirst i) (hc1 : ¬condLast i) (x0 : Vec F S256x2048 .f32) (x1 : Vec F S512x2048 .f32) (x2 : Vec F S256x1 .i32) (x3 : Vec F S1x512 .i32) : Vec F S256x1 .f32 :=
  VNeg.read (Elt F) (VNeg.writes (Elt F) VNeg.junk (runFirst c i arg2 harg2 arg3 harg3 arg4 harg4 arg5 harg5 arg6 harg6 arg7 harg7 arg8 harg8 hc0 hc1 x0 x1 x2 x3).2.1)

/-- The middle-tile case likewise, over what the point before left. -/
theorem coverPosMid (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : ¬condLast i) (x0 : Vec F S256x2048 .f32) (x1 : Vec F S512x2048 .f32) (x2 : Vec F S256x1 .i32) (x3 : Vec F S1x512 .i32) (xp : Vec F S256x1 .f32) (xn : Vec F S256x1 .f32) (y : S256x1.Idx) :
    ∃ pc ∈ (runMid c i arg2 harg2 arg3 harg3 arg4 harg4 arg5 harg5 arg6 harg6 arg7 harg7 arg8 harg8 hc0 hc1 x0 x1 x2 x3 xp xn).1, y ∈ pc.1.set :=
  View.cover_of_tiledL (runMid c i arg2 harg2 arg3 harg3 arg4 harg4 arg5 harg5 arg6 harg6 arg7 harg7 arg8 harg8 hc0 hc1 x0 x1 x2 x3 xp xn).1 S256x1.size (by sl_kernel_rfl) y
theorem coverNegMid (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : ¬condLast i) (x0 : Vec F S256x2048 .f32) (x1 : Vec F S512x2048 .f32) (x2 : Vec F S256x1 .i32) (x3 : Vec F S1x512 .i32) (xp : Vec F S256x1 .f32) (xn : Vec F S256x1 .f32) (y : S256x1.Idx) :
    ∃ pc ∈ (runMid c i arg2 harg2 arg3 harg3 arg4 harg4 arg5 harg5 arg6 harg6 arg7 harg7 arg8 harg8 hc0 hc1 x0 x1 x2 x3 xp xn).2.1, y ∈ pc.1.set :=
  View.cover_of_tiledL (runMid c i arg2 harg2 arg3 harg3 arg4 harg4 arg5 harg5 arg6 harg6 arg7 harg7 arg8 harg8 hc0 hc1 x0 x1 x2 x3 xp xn).2.1 S256x1.size (by sl_kernel_rfl) y
def posMid (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : ¬condLast i) (x0 : Vec F S256x2048 .f32) (x1 : Vec F S512x2048 .f32) (x2 : Vec F S256x1 .i32) (x3 : Vec F S1x512 .i32) (xp : Vec F S256x1 .f32) (xn : Vec F S256x1 .f32) : Vec F S256x1 .f32 :=
  VPos.read (Elt F) (VPos.writes (Elt F) VPos.junk (runMid c i arg2 harg2 arg3 harg3 arg4 harg4 arg5 harg5 arg6 harg6 arg7 harg7 arg8 harg8 hc0 hc1 x0 x1 x2 x3 xp xn).1)
def negMid (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : ¬condLast i) (x0 : Vec F S256x2048 .f32) (x1 : Vec F S512x2048 .f32) (x2 : Vec F S256x1 .i32) (x3 : Vec F S1x512 .i32) (xp : Vec F S256x1 .f32) (xn : Vec F S256x1 .f32) : Vec F S256x1 .f32 :=
  VNeg.read (Elt F) (VNeg.writes (Elt F) VNeg.junk (runMid c i arg2 harg2 arg3 harg3 arg4 harg4 arg5 harg5 arg6 harg6 arg7 harg7 arg8 harg8 hc0 hc1 x0 x1 x2 x3 xp xn).2.1)

/-- The last-tile case: the result's buffer is covered too. -/
theorem coverOutLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) (y : S256x1.Idx) :
    ∃ pc ∈ (runLast c i arg2 harg2 arg3 harg3 arg4 harg4 arg5 harg5 arg6 harg6 arg7 harg7 arg8 harg8 hc0 hc1 x0 x1 x2 x3 xp xn).1, y ∈ pc.1.set :=
  View.cover_of_tiledL (runLast c i arg2 harg2 arg3 harg3 arg4 harg4 arg5 harg5 arg6 harg6 arg7 harg7 arg8 harg8 hc0 hc1 x0 x1 x2 x3 xp xn).1 S256x1.size (by sl_kernel_rfl) y
theorem coverPosLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) (y : S256x1.Idx) :
    ∃ pc ∈ (runLast c i arg2 harg2 arg3 harg3 arg4 harg4 arg5 harg5 arg6 harg6 arg7 harg7 arg8 harg8 hc0 hc1 x0 x1 x2 x3 xp xn).2.1, y ∈ pc.1.set :=
  View.cover_of_tiledL (runLast c i arg2 harg2 arg3 harg3 arg4 harg4 arg5 harg5 arg6 harg6 arg7 harg7 arg8 harg8 hc0 hc1 x0 x1 x2 x3 xp xn).2.1 S256x1.size (by sl_kernel_rfl) y
theorem coverNegLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) (y : S256x1.Idx) :
    ∃ pc ∈ (runLast c i arg2 harg2 arg3 harg3 arg4 harg4 arg5 harg5 arg6 harg6 arg7 harg7 arg8 harg8 hc0 hc1 x0 x1 x2 x3 xp xn).2.2.1, y ∈ pc.1.set :=
  View.cover_of_tiledL (runLast c i arg2 harg2 arg3 harg3 arg4 harg4 arg5 harg5 arg6 harg6 arg7 harg7 arg8 harg8 hc0 hc1 x0 x1 x2 x3 xp xn).2.2.1 S256x1.size (by sl_kernel_rfl) y
def outLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) : Vec F S256x1 .f32 :=
  VOut.read (Elt F) (VOut.writes (Elt F) VOut.junk (runLast c i arg2 harg2 arg3 harg3 arg4 harg4 arg5 harg5 arg6 harg6 arg7 harg7 arg8 harg8 hc0 hc1 x0 x1 x2 x3 xp xn).1)
def posLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) : Vec F S256x1 .f32 :=
  VPos.read (Elt F) (VPos.writes (Elt F) VPos.junk (runLast c i arg2 harg2 arg3 harg3 arg4 harg4 arg5 harg5 arg6 harg6 arg7 harg7 arg8 harg8 hc0 hc1 x0 x1 x2 x3 xp xn).2.1)
def negLast (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) : Vec F S256x1 .f32 :=
  VNeg.read (Elt F) (VNeg.writes (Elt F) VNeg.junk (runLast c i arg2 harg2 arg3 harg3 arg4 harg4 arg5 harg5 arg6 harg6 arg7 harg7 arg8 harg8 hc0 hc1 x0 x1 x2 x3 xp xn).2.2.1)

/-- Where the result's buffer is not stored into, its entry in the triple is a placeholder nothing consults
    (the window is idle there and not written back). -/
def junkOut : Vec F S256x1 .f32 := VOut.read (Elt F) VOut.junk

/-! ## The accumulation over the points -/

theorem notLast_of_first (t : Fin cfg0.N) (h0 : t.val % 8 = 0) : ¬condLast (grid0.coords t) :=
  fun h => by have h7 := (hcondLast t).mp h; omega
theorem notFirst_of (t : Fin cfg0.N) (h0 : ¬t.val % 8 = 0) : ¬condFirst (grid0.coords t) := fun h => h0 ((hcondFirst t).mp h)
theorem notLast_of (t : Fin cfg0.N) (h1 : ¬t.val % 8 = 7) : ¬condLast (grid0.coords t) := fun h => h1 ((hcondLast t).mp h)

/-- (result buffer, running maximum, running minimum) after the body at point `n`. -/
def outsAt (c : Dev nD) : (n : ℕ) → n < cfg0.N → Vec F S256x1 .f32 × Vec F S256x1 .f32 × Vec F S256x1 .f32
  | 0, hn => (junkOut, posFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scPos (Memref.isWhole_whole _) scNeg (Memref.isWhole_whole _) ((hcondFirst ⟨0, hn⟩).mpr (Nat.zero_mod _)) (notLast_of_first ⟨0, hn⟩ (Nat.zero_mod _)) (iblk m c 0 ⟨0, hn⟩) (iblk m c 1 ⟨0, hn⟩) (iblk m c 2 ⟨0, hn⟩) (iblk m c 3 ⟨0, hn⟩), negFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scPos (Memref.isWhole_whole _) scNeg (Memref.isWhole_whole _) ((hcondFirst ⟨0, hn⟩).mpr (Nat.zero_mod _)) (notLast_of_first ⟨0, hn⟩ (Nat.zero_mod _)) (iblk m c 0 ⟨0, hn⟩) (iblk m c 1 ⟨0, hn⟩) (iblk m c 2 ⟨0, hn⟩) (iblk m c 3 ⟨0, hn⟩))
  | n + 1, hn =>
    if h0 : (n + 1) % 8 = 0 then
      (junkOut, posFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) ((hcondFirst ⟨n + 1, hn⟩).mpr h0) (notLast_of_first ⟨n + 1, hn⟩ h0) (iblk m c 0 ⟨n + 1, hn⟩) (iblk m c 1 ⟨n + 1, hn⟩) (iblk m c 2 ⟨n + 1, hn⟩) (iblk m c 3 ⟨n + 1, hn⟩), negFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) ((hcondFirst ⟨n + 1, hn⟩).mpr h0) (notLast_of_first ⟨n + 1, hn⟩ h0) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) (notFirst_of ⟨n + 1, hn⟩ h0) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, posLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) (notFirst_of ⟨n + 1, hn⟩ h0) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, negLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) (notFirst_of ⟨n + 1, hn⟩ h0) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)
      else
        (junkOut, posMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) (notFirst_of ⟨n + 1, hn⟩ h0) (notLast_of ⟨n + 1, hn⟩ h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, negMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scPos (Memref.isWhole_whole _) scNeg (Memref.isWhole_whole _) (notFirst_of ⟨n + 1, hn⟩ h0) (notLast_of ⟨n + 1, hn⟩ h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)

/-- `outsAt` at a first column tile. -/
theorem outsAt_first (c : Dev nD) (t : Fin cfg0.N) (h0 : t.val % 8 = 0) :
    outsAt m c t.val t.isLt = (junkOut, posFirst c (grid0.coords t) (ms0 t) (hs0 t) (ms1 t) (hs1 t) (ms2 t) (hs2 t) (ms3 t) (hs3 t) (ms4 t) (hs4 t) scPos (Memref.isWhole_whole _) scNeg (Memref.isWhole_whole _) ((hcondFirst t).mpr h0) (notLast_of_first t h0) (iblk m c 0 t) (iblk m c 1 t) (iblk m c 2 t) (iblk m c 3 t), negFirst c (grid0.coords t) (ms0 t) (hs0 t) (ms1 t) (hs1 t) (ms2 t) (hs2 t) (ms3 t) (hs3 t) (ms4 t) (hs4 t) scPos (Memref.isWhole_whole _) scNeg (Memref.isWhole_whole _) ((hcondFirst t).mpr h0) (notLast_of_first t h0) (iblk m c 0 t) (iblk m c 1 t) (iblk m c 2 t) (iblk m c 3 t)) := by
  obtain ⟨n, hn⟩ := t
  cases n with
  | zero => exact rfl
  | succ n => exact (dif_pos h0).trans rfl

/-- `outsAt` at a middle column tile, over what the point before left. -/
theorem outsAt_mid (c : Dev nD) (t : Fin cfg0.N) (h0 : ¬t.val % 8 = 0) (h1 : ¬t.val % 8 = 7) :
    outsAt m c t.val t.isLt = (junkOut, posMid c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) (notLast_of t h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, negMid c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) (notLast_of t h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a last column tile, over what the point before left. -/
theorem outsAt_last (c : Dev nD) (t : Fin cfg0.N) (h0 : ¬t.val % 8 = 0) (h1 : t.val % 8 = 7) :
    outsAt m c t.val t.isLt = (outLast c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, posLast c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, negLast c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point: the scratch buffers at anything. Before point n + 1: at what point n left. -/
def PhiS (c : Dev nD) : (n : ℕ) → n ≤ cfg0.N → sProp 𝕄
  | 0, _ => Pipeline.ΦA spec0 c
  | n + 1, hn => iprop(iprop(owns (c : Thread nD τ) scPos fullShare ((outsAt m c n hn).2.1) ∗ owns (c : Thread nD τ) scNeg fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scPos fullShare ((outsAt m c n hn).2.1) ∗ owns (c : Thread nD τ) scNeg fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scPos fullShare ((outsAt m c (n - 1) (by omega)).2.1) ∗ owns (c : Thread nD τ) scNeg fullShare ((outsAt m c (n - 1) (by omega)).2.2)) ∗ (∃ r, prngReg c r)) := by
  cases n with
  | zero => exact absurd rfl hz
  | succ n => rfl

/-! ## The pipeline's proof data -/

/-- Arrays as the region finds them; after the body each input's buffer at its block and the result's at
    `outsAt`'s first component; the invariant `PhiS`; the matrix's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem q0_eq (c : Dev nD) : (dats m 0 c).q 0 = fullShare.left := by dsimp only [dats]
theorem q1_eq (c : Dev nD) : (dats m 0 c).q 1 = fullShare.right := by dsimp only [dats]
theorem q2_eq (c : Dev nD) : (dats m 0 c).q 2 = fullShare := by dsimp only [dats]
theorem q3_eq (c : Dev nD) : (dats m 0 c).q 3 = fullShare := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

end Cert.KernelIdeal.Hand

end
-- ==== Proof.KernelIdeal.Body.lean ====
/-
  The body's obligation to the pipeline, point by point.

  At point t the pipeline hands the body the region's invariant, what the core owes, and the current staging
  buffer of each of the five windows; it wants back the invariant of the next point, the same debt, and each
  buffer at what the proof data says the body leaves there. Which of the three runs of the body applies is
  decided by the column tile b = t % 8: b = 0 restarts the two running extrema (whatever the scratch buffers
  held is irrelevant), 0 < b < 7 folds one more tile into what the point before left, b = 7 folds the last tile
  and stores the row tile's loss over the whole of the result's buffer. Away from b = 7 the result's buffer is
  handed back exactly as it was received. Each run ends with a scratch (or result) buffer written piece by piece;
  since the pieces cover the buffer, reading them back gives one vector that does not depend on what was there.
-/
import proofs.«176029_j6657199309074_1_alg».proof.Proof.KernelIdeal.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Pieces read back -/

/-- A buffer that a run has written piece by piece, the pieces covering it, is owned at the pieces read back
    over anything — through whichever whole view of the shape the reading is stated. -/
theorem owns_of_pieces (c : Dev nD) (a : Memref sig .tc .vmem S256x1 .f32) (W : View sig .tc .vmem S256x1 .f32)
    (L : List (View.Piece (Elt F) S256x1 .f32)) (hL : ∀ y : S256x1.Idx, ∃ pc ∈ L, y ∈ pc.1.set) :
    (iprop(∃ f, a.view.loc (c : Thread nD τ) ↦[a.view.set]{fullShare} a.view.writes (Elt F) f L) : sProp 𝕄)
      ⊢ owns (c : Thread nD τ) a fullShare (W.read (Elt F) (W.writes (Elt F) W.junk L)) := by
  unfold owns
  iintro ⟨%f, H⟩
  iexists a.view.writes (Elt F) f L; isplitr
  · ipureintro; exact View.read_writes_of_cover a.view f W W.junk L hL
  iexact H

/-! ## The invariant with the scratch contents forgotten -/

/-- Before any point the invariant gives the two scratch buffers at SOME contents and the generator register:
    before the first point that is what it says; later the named contents are dropped. -/
theorem Phi_forget (c : Dev nD) (t : Fin (cfg0.N + 1)) :
    (dats m 0 c).Φ t ⊢ (iprop(iprop((∃ d, owns (c : Thread nD τ) scPos fullShare d) ∗ (∃ d, owns (c : Thread nD τ) scNeg fullShare d)) ∗ (∃ r, prngReg c r)) : sProp 𝕄) := by
  rw [show (dats m 0 c).Φ t = PhiS m c t.val (Nat.le_of_lt_succ t.isLt) from rfl]
  by_cases hz : t.val = 0
  · rw [PhiS_zero m c _ _ hz, PhiA_eq]
  · rw [PhiS_pos m c _ _ hz]
    iintro ⟨⟨HP, HN⟩, Hg⟩
    isplitr [Hg]
    · isplitl [HP]
      · iexists _; iexact HP
      iexists _; iexact HN
    iexact Hg

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives back what the launch handed over. -/
theorem hout (c : Dev nD) : (dats m 0 c).Φ (Fin.last cfg0.N) ⊢ Pipeline.ΦA spec0 c := by
  rw [PhiA_eq]
  exact Phi_forget m c _

/-! ## What each window's buffer is left at -/

/-- The four inputs are live at every point: each buffer is left holding its block. -/
theorem leaves0 (c : Dev nD) (t : Fin cfg0.N) :
    (dats m 0 c).leavesExact 0 t = owns (c : Thread nD τ) (ms0 t) fullShare (iblk m c 0 t) := by
  rw [← after0 m c t]
theorem leaves1 (c : Dev nD) (t : Fin cfg0.N) :
    (dats m 0 c).leavesExact 1 t = owns (c : Thread nD τ) (ms1 t) fullShare (iblk m c 1 t) := by
  rw [← after1 m c t]
theorem leaves2 (c : Dev nD) (t : Fin cfg0.N) :
    (dats m 0 c).leavesExact 2 t = owns (c : Thread nD τ) (ms2 t) fullShare (iblk m c 2 t) := by
  rw [← after2 m c t]
theorem leaves3 (c : Dev nD) (t : Fin cfg0.N) :
    (dats m 0 c).leavesExact 3 t = owns (c : Thread nD τ) (ms3 t) fullShare (iblk m c 3 t) := by
  rw [← after3 m c t]

/-- Away from the last column tile the result's window is idle and not written back: its buffer is to come
    back as it was found. -/
theorem leaves4_idle (c : Dev nD) (t : Fin cfg0.N) (h : ¬condLast (grid0.coords t)) :
    (dats m 0 c).leavesExact 4 t = iprop(∃ d, owns (c : Thread nD τ) (ms4 t) fullShare ((dats m 0 c).before 4 t d)) :=
  Dat.leavesExact_idle (dats m 0 c) 4 t (idle4 t h) (noFlush4 t h)

/-- At the last column tile it is live: its buffer is left at the accumulation's first component. -/
theorem leaves4_live (c : Dev nD) (t : Fin cfg0.N) (h : condLast (grid0.coords t)) :
    (dats m 0 c).leavesExact 4 t = owns (c : Thread nD τ) (ms4 t) fullShare ((outsAt m c t.val t.isLt).1) := by
  rw [← after4 m c t]; unfold Dat.leavesExact; rw [live4 t h]

/-! ## What the pipeline hands over and what it wants back -/

/-- Before the body at point `t`: the invariant, the debt, and the five windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- After it: the next point's invariant, the debt, and each buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-! ## The three cases -/

set_option maxHeartbeats 2000000 in
/-- First column tile. The scratch buffers' contents are forgotten before the run (it overwrites them whole);
    afterwards each is read back from its covering pieces, which is what the accumulation names at `t`. -/
theorem sound_first (c : Dev nD) (t : Fin cfg0.N) (h0 : t.val % 8 = 0) :
    bodyPre m c t ⊢ wp frame (wpE (defs₀ (F := F)) Variants.none c none) Set.univ (bodyAt0 t) (fun _ => bodyPost m c t) := by
  have hF : condFirst (grid0.coords t) := (hcondFirst t).mpr h0
  have hL : ¬condLast (grid0.coords t) := notLast_of_first t h0
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4_idle m c t hL]
  rw [outsAt_first m c t h0]
  unfold posFirst negFirst; dsimp only
  iintro ⟨HΦ, Ho, ⟨%d0, H0⟩, ⟨%d1, H1⟩, ⟨%d2, H2⟩, ⟨%d3, H3⟩, ⟨%d4, H4⟩⟩
  ihave HΦ' := (Phi_forget m c t.castSucc) $$ HΦ
  icases HΦ' with ⟨⟨HP, HN⟩, Hg⟩
  iapply ((runFirst c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t)).2.2 _ Set.univ _)
  isplitl [H0]; · iexact H0
  isplitl [H1]; · iexact H1
  isplitl [H2]; · iexact H2
  isplitl [H3]; · iexact H3
  isplitl [H4]; · iexact H4
  isplitl [HP]; · iexact HP
  isplitl [HN]; · iexact HN
  iintro ⟨H0, H1, H2, H3, H4, HP, HN⟩
  isplitl [HP HN Hg]
  · isplitr [Hg]
    · isplitl [HP]
      · iapply (owns_of_pieces c scPos VPos _ (coverPosFirst c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t)))
        iexact HP
      · iapply (owns_of_pieces c scNeg VNeg _ (coverNegFirst c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t)))
        iexact HN
    iexact Hg
  isplitl [Ho]; · iexact Ho
  isplitl [H0]; · iexact H0
  isplitl [H1]; · iexact H1
  isplitl [H2]; · iexact H2
  isplitl [H3]; · iexact H3
  iexists _; iexact H4

set_option maxHeartbeats 2000000 in
/-- Middle column tile. The point is not the grid's first, so the invariant holds the scratch buffers at what
    the point before left, which is what this run folds the tile into. -/
theorem sound_mid (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hF : ¬condFirst (grid0.coords t) := notFirst_of t h0
  have hL : ¬condLast (grid0.coords t) := notLast_of t h1
  have hz : t.val ≠ 0 := fun h => h0 (by rw [h])
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4_idle m c t hL]
  rw [outsAt_mid m c t h0 h1]
  unfold posMid negMid; dsimp only
  rw [PhiS_castSucc m c t, PhiS_pos m c _ _ hz]
  iintro ⟨⟨⟨HP, HN⟩, Hg⟩, Ho, ⟨%d0, H0⟩, ⟨%d1, H1⟩, ⟨%d2, H2⟩, ⟨%d3, H3⟩, ⟨%d4, H4⟩⟩
  iapply ((runMid c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2).2.2 _ Set.univ _)
  isplitl [H0]; · iexact H0
  isplitl [H1]; · iexact H1
  isplitl [H2]; · iexact H2
  isplitl [H3]; · iexact H3
  isplitl [H4]; · iexact H4
  isplitl [HP]; · iexact HP
  isplitl [HN]; · iexact HN
  iintro ⟨H0, H1, H2, H3, H4, HP, HN⟩
  isplitl [HP HN Hg]
  · isplitr [Hg]
    · isplitl [HP]
      · iapply (owns_of_pieces c scPos VPos _ (coverPosMid c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2))
        iexact HP
      · iapply (owns_of_pieces c scNeg VNeg _ (coverNegMid c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2))
        iexact HN
    iexact Hg
  isplitl [Ho]; · iexact Ho
  isplitl [H0]; · iexact H0
  isplitl [H1]; · iexact H1
  isplitl [H2]; · iexact H2
  isplitl [H3]; · iexact H3
  iexists _; iexact H4

set_option maxHeartbeats 2000000 in
/-- Last column tile. As at a middle tile for the scratch buffers; the result's buffer is taken at anything
    and comes back covered by the stored loss, read back as the accumulation's first component. -/
theorem sound_last (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  have hF : ¬condFirst (grid0.coords t) := notFirst_of t h0
  have hL : condLast (grid0.coords t) := (hcondLast t).mpr h1
  have hz : t.val ≠ 0 := fun h => h0 (by rw [h])
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4_live m c t hL]
  rw [outsAt_last m c t h0 h1]
  unfold outLast posLast negLast; dsimp only
  rw [PhiS_castSucc m c t, PhiS_pos m c _ _ hz]
  iintro ⟨⟨⟨HP, HN⟩, Hg⟩, Ho, ⟨%d0, H0⟩, ⟨%d1, H1⟩, ⟨%d2, H2⟩, ⟨%d3, H3⟩, ⟨%d4, H4⟩⟩
  iapply ((runLast c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2).2.2.2 Set.univ _)
  isplitl [H0]; · iexact H0
  isplitl [H1]; · iexact H1
  isplitl [H2]; · iexact H2
  isplitl [H3]; · iexact H3
  isplitl [H4]; · iexists _; iexact H4
  isplitl [HP]; · iexact HP
  isplitl [HN]; · iexact HN
  iintro ⟨H0, H1, H2, H3, H4, HP, HN⟩
  isplitl [HP HN Hg]
  · isplitr [Hg]
    · isplitl [HP]
      · iapply (owns_of_pieces c scPos VPos _ (coverPosLast c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2))
        iexact HP
      · iapply (owns_of_pieces c scNeg VNeg _ (coverNegLast c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2))
        iexact HN
    iexact Hg
  isplitl [Ho]; · iexact Ho
  isplitl [H0]; · iexact H0
  isplitl [H1]; · iexact H1
  isplitl [H2]; · iexact H2
  isplitl [H3]; · iexact H3
  iapply (owns_of_pieces c (ms4 t) VOut _ (coverOutLast c (grid0.coords t) (ms0 t) (hs0 t) (ms1 t) (hs1 t) (ms2 t) (hs2 t) (ms3 t) (hs3 t) (ms4 t) (hs4 t) scPos (Memref.isWhole_whole _) scNeg (Memref.isWhole_whole _) hF hL (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2))
  iexact H4

/-! ## Every point -/

/-- The column tile decides the case: b = 0, b = 7, or in between. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · by_cases h1 : t.val % 8 = 7
    · exact sound_last m c t h0 h1
    · exact sound_mid m c t h0 h1

/-- The library's body obligation: its two conjunctions over the windows written out are the pre and the post above. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdeal.Run.lean ====
/-
  The kernel's program runs: every weakly fair execution of @main ends, faults nowhere, leaves the two arguments
  as launched, and leaves in the result buffer the mean of the region's final [4096,1] array — the array the
  proof data computes from the body's write-backs.
-/
import proofs.«176029_j6657199309074_1_alg».proof.Proof.KernelIdeal.Launch
import proofs.«176029_j6657199309074_1_alg».proof.Proof.KernelIdeal.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of @main, with the result named. -/
theorem run_main : θ_run defs (onTc (τ := τ) (main (F := F))) ⟨m, fun _ => 0, ρ⟩ (fun r => ∀ c : Dev nD,
      r.2.mem ((c.tc : Thread nD τ).loc main_v4) = meanOf ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (dats m) (q0_eq m) (q1_eq m) (q2_eq m) (q3_eq m) (A_eq m) (fun c => (body_obligation m c).loose)
    (fun _ _ => rfl) (hin m) (hout m)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KernelIdeal.Pieces.lean ====
/-
  What each case's stored pieces read back as: the body's payloads.

  At a first column tile the running maximum is stored as the fold of this tile over the reset value −1e30 and the
  running minimum as the fold over +1e30; elsewhere over what the point before left (xp, xn); at a last column
  tile the result's buffer receives the margin loss of the two values just stored.
-/
import proofs.«176029_j6657199309074_1_alg».proof.Proof.KernelIdeal.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every store and load of the body starts at the origin: the offset written `![0, 0]` is the constant zero offset,
    so a rectangle of the buffer's own extent placed there is the whole buffer. -/
private theorem origin_eq : (![0, 0] : Fin 2 → Nat) = fun _ => 0 := funext fun a => by fin_cases a <;> rfl

/-- First column tile, running maximum. The buffer is stored into twice, each time over its whole extent: first the
    reset value, then the fold of this tile's row maxima over what is read back — and what is read back is the reset
    value, since that one store covered everything. The later store covers too, so its payload is what remains. -/
theorem posFirst_eq (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : condFirst i) (hc1 : ¬condLast i) (x0 : Vec F S256x2048 .f32) (x1 : Vec F S512x2048 .f32) (x2 : Vec F S256x1 .i32) (x3 : Vec F S1x512 .i32) :
    posFirst c i arg2 harg2 arg3 harg3 arg4 harg4 arg5 harg5 arg6 harg6 arg7 harg7 arg8 harg8 hc0 hc1 x0 x1 x2 x3 = k0_pay1 (k0_pay9 x0 x1 x2 x3 (k0_pay4 (F := F))) := by
  unfold posFirst
  rw [View.read_writes_eq_canon _ _ _ (coverPosFirst c i arg2 harg2 arg3 harg3 arg4 harg4 arg5 harg5 arg6 harg6 arg7 harg7 arg8 harg8 hc0 hc1 x0 x1 x2 x3)]
  unfold runFirst
  dsimp only
  sl_unfold_words
  rw [View.canon_cons_unit_zero (S := S256x1) origin_eq, View.readCov_unit_zero (S := S256x1) _ origin_eq]
  simp only [View.readAt_eq_ld, harg2.read_unread, harg3.read_unread, harg4.read_unread, harg5.read_unread, View.ld_unit_zero (S := S256x2048) origin_eq, View.ld_unit_zero (S := S512x2048) origin_eq,
    View.ld_unit_zero (S := S256x1) origin_eq, View.ld_unit_zero (S := S1x512) origin_eq]
/-- First column tile, running minimum: the same two whole stores, the reset to the large positive value and then
    the fold of this tile's row minima over the value read back. -/
theorem negFirst_eq (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : condFirst i) (hc1 : ¬condLast i) (x0 : Vec F S256x2048 .f32) (x1 : Vec F S512x2048 .f32) (x2 : Vec F S256x1 .i32) (x3 : Vec F S1x512 .i32) :
    negFirst c i arg2 harg2 arg3 harg3 arg4 harg4 arg5 harg5 arg6 harg6 arg7 harg7 arg8 harg8 hc0 hc1 x0 x1 x2 x3 = k0_pay2 (k0_pay8 x0 x1 x2 x3) (k0_pay5 (F := F)) := by
  unfold negFirst
  rw [View.read_writes_eq_canon _ _ _ (coverNegFirst c i arg2 harg2 arg3 harg3 arg4 harg4 arg5 harg5 arg6 harg6 arg7 harg7 arg8 harg8 hc0 hc1 x0 x1 x2 x3)]
  unfold runFirst
  dsimp only
  sl_unfold_words
  rw [View.canon_cons_unit_zero (S := S256x1) origin_eq, View.readCov_unit_zero (S := S256x1) _ origin_eq]
  simp only [View.readAt_eq_ld, harg2.read_unread, harg3.read_unread, harg4.read_unread, harg5.read_unread, View.ld_unit_zero (S := S256x2048) origin_eq, View.ld_unit_zero (S := S512x2048) origin_eq,
    View.ld_unit_zero (S := S256x1) origin_eq, View.ld_unit_zero (S := S1x512) origin_eq]
/-- Middle column tile, running maximum. One store over the whole buffer; its payload folds this tile's row maxima
    over a load of the same buffer, which — nothing having been stored yet — reads what the point before left. Every
    input is loaded whole, so each load is the input's contents. -/
theorem posMid_eq (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : ¬condLast i) (x0 : Vec F S256x2048 .f32) (x1 : Vec F S512x2048 .f32) (x2 : Vec F S256x1 .i32) (x3 : Vec F S1x512 .i32) (xp : Vec F S256x1 .f32) (xn : Vec F S256x1 .f32) :
    posMid c i arg2 harg2 arg3 harg3 arg4 harg4 arg5 harg5 arg6 harg6 arg7 harg7 arg8 harg8 hc0 hc1 x0 x1 x2 x3 xp xn = k0_pay1 (k0_pay9 x0 x1 x2 x3 xp) := by
  unfold posMid
  rw [View.read_writes_eq_canon _ _ _ (coverPosMid c i arg2 harg2 arg3 harg3 arg4 harg4 arg5 harg5 arg6 harg6 arg7 harg7 arg8 harg8 hc0 hc1 x0 x1 x2 x3 xp xn)]
  unfold runMid
  dsimp only
  sl_unfold_words
  rw [View.canon_unit_zero (S := S256x1) origin_eq]
  simp only [View.readAt_eq_ld, harg2.read_unread, harg3.read_unread, harg4.read_unread, harg5.read_unread, harg7.read_unread, View.ld_unit_zero (S := S256x2048) origin_eq, View.ld_unit_zero (S := S512x2048) origin_eq,
    View.ld_unit_zero (S := S256x1) origin_eq, View.ld_unit_zero (S := S1x512) origin_eq]
/-- Middle column tile, running minimum: one whole store, folding this tile's row minima over the earlier minimum. -/
theorem negMid_eq (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : ¬condLast i) (x0 : Vec F S256x2048 .f32) (x1 : Vec F S512x2048 .f32) (x2 : Vec F S256x1 .i32) (x3 : Vec F S1x512 .i32) (xp : Vec F S256x1 .f32) (xn : Vec F S256x1 .f32) :
    negMid c i arg2 harg2 arg3 harg3 arg4 harg4 arg5 harg5 arg6 harg6 arg7 harg7 arg8 harg8 hc0 hc1 x0 x1 x2 x3 xp xn = k0_pay2 (k0_pay8 x0 x1 x2 x3) xn := by
  unfold negMid
  rw [View.read_writes_eq_canon _ _ _ (coverNegMid c i arg2 harg2 arg3 harg3 arg4 harg4 arg5 harg5 arg6 harg6 arg7 harg7 arg8 harg8 hc0 hc1 x0 x1 x2 x3 xp xn)]
  unfold runMid
  dsimp only
  sl_unfold_words
  rw [View.canon_unit_zero (S := S256x1) origin_eq]
  simp only [View.readAt_eq_ld, harg2.read_unread, harg3.read_unread, harg4.read_unread, harg5.read_unread, harg8.read_unread, View.ld_unit_zero (S := S256x2048) origin_eq, View.ld_unit_zero (S := S512x2048) origin_eq,
    View.ld_unit_zero (S := S256x1) origin_eq, View.ld_unit_zero (S := S1x512) origin_eq]
/-- Last column tile, running maximum: the scratch buffers are updated exactly as at a middle tile. -/
theorem posLast_eq (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) :
    posLast c i arg2 harg2 arg3 harg3 arg4 harg4 arg5 harg5 arg6 harg6 arg7 harg7 arg8 harg8 hc0 hc1 x0 x1 x2 x3 xp xn = k0_pay1 (k0_pay9 x0 x1 x2 x3 xp) := by
  unfold posLast
  rw [View.read_writes_eq_canon _ _ _ (coverPosLast c i arg2 harg2 arg3 harg3 arg4 harg4 arg5 harg5 arg6 harg6 arg7 harg7 arg8 harg8 hc0 hc1 x0 x1 x2 x3 xp xn)]
  unfold runLast
  dsimp only
  sl_unfold_words
  rw [View.canon_unit_zero (S := S256x1) origin_eq]
  simp only [View.readAt_eq_ld, harg2.read_unread, harg3.read_unread, harg4.read_unread, harg5.read_unread, harg7.read_unread, View.ld_unit_zero (S := S256x2048) origin_eq, View.ld_unit_zero (S := S512x2048) origin_eq,
    View.ld_unit_zero (S := S256x1) origin_eq, View.ld_unit_zero (S := S1x512) origin_eq]
/-- Last column tile, running minimum: likewise. -/
theorem negLast_eq (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) :
    negLast c i arg2 harg2 arg3 harg3 arg4 harg4 arg5 harg5 arg6 harg6 arg7 harg7 arg8 harg8 hc0 hc1 x0 x1 x2 x3 xp xn = k0_pay2 (k0_pay8 x0 x1 x2 x3) xn := by
  unfold negLast
  rw [View.read_writes_eq_canon _ _ _ (coverNegLast c i arg2 harg2 arg3 harg3 arg4 harg4 arg5 harg5 arg6 harg6 arg7 harg7 arg8 harg8 hc0 hc1 x0 x1 x2 x3 xp xn)]
  unfold runLast
  dsimp only
  sl_unfold_words
  rw [View.canon_unit_zero (S := S256x1) origin_eq]
  simp only [View.readAt_eq_ld, harg2.read_unread, harg3.read_unread, harg4.read_unread, harg5.read_unread, harg8.read_unread, View.ld_unit_zero (S := S256x2048) origin_eq, View.ld_unit_zero (S := S512x2048) origin_eq,
    View.ld_unit_zero (S := S256x1) origin_eq, View.ld_unit_zero (S := S1x512) origin_eq]
/-- Last column tile, the result's buffer. It receives one whole store of the margin loss of two values loaded from the
    scratch buffers AFTER their updates; each such load reads back the single covering store before it, hence that
    store's payload: the updated maximum and the updated minimum. -/
theorem outLast_eq (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S256x1 .i32) (harg4 : arg4.IsWhole) (arg5 : Memref sig .tc .vmem S1x512 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬condFirst i) (hc1 : condLast i) (x0 : Vec F S256x2048 .f32) (x1 : Vec F S512x2048 .f32) (x2 : Vec F S256x1 .i32) (x3 : Vec F S1x512 .i32) (xp : Vec F S256x1 .f32) (xn : Vec F S256x1 .f32) :
    outLast c i arg2 harg2 arg3 harg3 arg4 harg4 arg5 harg5 arg6 harg6 arg7 harg7 arg8 harg8 hc0 hc1 x0 x1 x2 x3 xp xn
      = k0_pay3 (k0_pay1 (k0_pay9 x0 x1 x2 x3 xp)) (k0_pay2 (k0_pay8 x0 x1 x2 x3) xn) := by
  unfold outLast
  rw [View.read_writes_eq_canon _ _ _ (coverOutLast c i arg2 harg2 arg3 harg3 arg4 harg4 arg5 harg5 arg6 harg6 arg7 harg7 arg8 harg8 hc0 hc1 x0 x1 x2 x3 xp xn)]
  unfold runLast
  dsimp only
  sl_unfold_words
  rw [View.canon_unit_zero (S := S256x1) origin_eq]
  simp only [View.readAt_eq_ld, harg2.read_unread, harg3.read_unread, harg4.read_unread, harg5.read_unread, harg7.read_unread, harg8.read_unread, View.ld_unit_zero (S := S256x2048) origin_eq, View.ld_unit_zero (S := S512x2048) origin_eq,
    View.ld_unit_zero (S := S256x1) origin_eq, View.ld_unit_zero (S := S1x512) origin_eq,
    View.readCov_unit_zero (S := S256x1) _ origin_eq]

end Cert.KernelIdeal.Hand

end
-- ==== Proof.Spec.lean ====
/-
  The mathematics of the hard-example triplet loss, stated once over the extended reals.

  For a matrix x (4096 rows of 2048 entries) and integer labels t (4096 of them):
    sq r        = Σ_k x[r,k]²                      the squared norm of row r
    gram r s    = Σ_k x[r,k]·x[s,k]                the inner product of rows r and s
    dist r s    = (sq r + sq s) − 2·gram r s       the squared distance, as both programs group it
    hardPos r   = max over s of (dist r s where t[r] = t[s], else −1e30), from −∞
    hardNeg r   = min over s of (+1e30 where t[r] = t[s], else dist r s), from +∞
    rowLoss r   = max((hardPos r − hardNeg r) + 0.3, 0)
    loss        = (Σ_r rowLoss r) / 4096
  The float literals stay as their binary words: the same word stands on both sides and is never evaluated,
  except that −1e30 ≤ 0 is needed once (see `runPos_eight`).

  A tiled evaluation walks the columns in eight tiles of 512 and keeps a running maximum started at −1e30 and a
  running minimum started at +1e30 (`runPos`, `runNeg`). After the eighth tile these are `hardPos` and
  `hardNeg`:
  • the minimum side needs nothing: the diagonal candidate (s = r, labels equal) is +1e30 itself, so the row's
    minimum is already ≤ +1e30 and the extra start value is absorbed;
  • the maximum side needs the diagonal candidate dist r r = (sq r + sq r) − 2·sq r to be 0 ≥ −1e30, which holds
    when row r is finite (on the extended reals ∞ − ∞ is −∞, so finiteness is really used).
-/
import Idealize.ShloMosaic.PureOps.Ideal
import Idealize.ShloMosaic.Lib.ValueIdx

noncomputable section

open scoped BigOperators
open Idealize.ShloMosaic Idealize.ShloMosaic.ValueIdx

namespace Cert.Spec

/-- The matrix's shape and the label vector's. -/
abbrev SX : Shape := ⟨2, ![4096, 2048]⟩
abbrev ST : Shape := ⟨1, ![4096]⟩

/-- The five float literals both programs share, as their binary words read at the ideal instance. -/
def negBig : EReal := Ideal.ofBits .f32 0xF149F2CA#32
def posBig : EReal := Ideal.ofBits .f32 0x7149F2CA#32
def two : EReal := Ideal.ofBits .f32 0x40000000#32
def margin : EReal := Ideal.ofBits .f32 0x3E99999A#32
def count : EReal := Ideal.ofBits .f32 0x45800000#32

/-- Squared norm of row `r`. -/
def sq (x : FVec Ideal SX .f32) (r : Fin 4096) : EReal := ∑ k : Fin 2048, x (ix2 r k) * x (ix2 r k)
/-- Inner product of rows `r` and `s`. -/
def gram (x : FVec Ideal SX .f32) (r s : Fin 4096) : EReal := ∑ k : Fin 2048, x (ix2 r k) * x (ix2 s k)
/-- Squared distance between rows `r` and `s`, grouped as `(‖r‖² + ‖s‖²) − 2·⟨r,s⟩`. -/
def dist (x : FVec Ideal SX .f32) (r s : Fin 4096) : EReal := (sq x r + sq x s) - two * gram x r s

/-- The candidate column `s` offers row `r` for the hardest positive: the distance when the labels agree. -/
def posCand (x : FVec Ideal SX .f32) (t : IVec ST 32) (r s : Fin 4096) : EReal :=
  if t (ix1 r) = t (ix1 s) then dist x r s else negBig
/-- … and for the hardest negative: the distance when the labels differ. -/
def negCand (x : FVec Ideal SX .f32) (t : IVec ST 32) (r s : Fin 4096) : EReal :=
  if t (ix1 r) = t (ix1 s) then posBig else dist x r s

/-- Hardest positive of row `r`: the row maximum of its candidates, from −∞. -/
def hardPos (x : FVec Ideal SX .f32) (t : IVec ST 32) (r : Fin 4096) : EReal :=
  (Finset.univ : Finset (Fin 4096)).fold max ⊥ (posCand x t r)
/-- Hardest negative of row `r`: the row minimum of its candidates, from +∞. -/
def hardNeg (x : FVec Ideal SX .f32) (t : IVec ST 32) (r : Fin 4096) : EReal :=
  (Finset.univ : Finset (Fin 4096)).fold min ⊤ (negCand x t r)

/-- The margin loss of row `r`. -/
def rowLoss (x : FVec Ideal SX .f32) (t : IVec ST 32) (r : Fin 4096) : EReal :=
  max ((hardPos x t r - hardNeg x t r) + margin) 0

/-- The mean of the rows' losses. -/
def loss (x : FVec Ideal SX .f32) (t : IVec ST 32) : EReal :=
  Ideal.div (∑ r : Fin 4096, rowLoss x t r) count

/-! ## The tiled evaluation -/

/-- Column `q` of tile `b`. -/
def col (b : Fin 8) (q : Fin 512) : Fin 4096 := ⟨512 * b.val + q.val, by omega⟩

/-- One tile's maximum and minimum of row `r`'s candidates. -/
def tilePos (x : FVec Ideal SX .f32) (t : IVec ST 32) (r : Fin 4096) (b : Fin 8) : EReal :=
  (Finset.univ : Finset (Fin 512)).fold max ⊥ (fun q => posCand x t r (col b q))
def tileNeg (x : FVec Ideal SX .f32) (t : IVec ST 32) (r : Fin 4096) (b : Fin 8) : EReal :=
  (Finset.univ : Finset (Fin 512)).fold min ⊤ (fun q => negCand x t r (col b q))

/-- The running maximum after the first `n` tiles, started at −1e30. -/
def runPos (x : FVec Ideal SX .f32) (t : IVec ST 32) (r : Fin 4096) : ℕ → EReal
  | 0 => negBig
  | n + 1 => max (runPos x t r n) (if h : n < 8 then tilePos x t r ⟨n, h⟩ else ⊥)
/-- The running minimum after the first `n` tiles, started at +1e30. -/
def runNeg (x : FVec Ideal SX .f32) (t : IVec ST 32) (r : Fin 4096) : ℕ → EReal
  | 0 => posBig
  | n + 1 => min (runNeg x t r n) (if h : n < 8 then tileNeg x t r ⟨n, h⟩ else ⊤)

/-- Every entry of the matrix is a real number. -/
def Finite (x : FVec Ideal SX .f32) : Prop := ∀ i, ∃ v : ℝ, x i = (v : EReal)

/-! ## Eight tiles of 512 make the row of 4096 -/

/-- Every column lies in a tile: `s = 512·(s / 512) + s % 512`. -/
private theorem col_surj (s : Fin 4096) : ∃ b q, col b q = s :=
  ⟨⟨s.val / 512, by omega⟩, ⟨s.val % 512, Nat.mod_lt _ (by norm_num)⟩, by ext; simp [col]; omega⟩

/-- The supremum over all columns is the supremum, over the tiles, of each tile's supremum: every column is in
    some tile (so the left side is below the right), and every tile entry is a column (so the right is below the
    left). Only the lattice laws of `max` are used, no arithmetic. -/
private theorem sup_tiles (f : Fin 4096 → EReal) :
    (Finset.univ : Finset (Fin 4096)).sup f
      = (Finset.univ : Finset (Fin 8)).sup fun b => (Finset.univ : Finset (Fin 512)).sup fun q => f (col b q) := by
  apply le_antisymm
  · refine Finset.sup_le fun s _ => ?_
    obtain ⟨b, q, rfl⟩ := col_surj s
    exact le_trans (Finset.le_sup (f := fun q => f (col b q)) (Finset.mem_univ q))
      (Finset.le_sup (f := fun b => (Finset.univ : Finset (Fin 512)).sup fun q => f (col b q)) (Finset.mem_univ b))
  · exact Finset.sup_le fun b _ => Finset.sup_le fun q _ => Finset.le_sup (Finset.mem_univ _)

/-- The same for the infimum, by the dual argument. -/
private theorem inf_tiles (f : Fin 4096 → EReal) :
    (Finset.univ : Finset (Fin 4096)).inf f
      = (Finset.univ : Finset (Fin 8)).inf fun b => (Finset.univ : Finset (Fin 512)).inf fun q => f (col b q) := by
  apply le_antisymm
  · exact Finset.le_inf fun b _ => Finset.le_inf fun q _ => Finset.inf_le (Finset.mem_univ _)
  · refine Finset.le_inf fun s _ => ?_
    obtain ⟨b, q, rfl⟩ := col_surj s
    exact le_trans
      (Finset.inf_le (f := fun b => (Finset.univ : Finset (Fin 512)).inf fun q => f (col b q)) (Finset.mem_univ b))
      (Finset.inf_le (f := fun q => f (col b q)) (Finset.mem_univ q))

/-- A maximum folded from −∞ is the lattice supremum (the same fold by definition), so the hardest positive is the
    supremum of the eight tile maxima; dually the hardest negative is the infimum of the eight tile minima. -/
private theorem hardPos_eq_sup_tiles (x : FVec Ideal SX .f32) (t : IVec ST 32) (r : Fin 4096) :
    hardPos x t r = (Finset.univ : Finset (Fin 8)).sup (tilePos x t r) :=
  sup_tiles (posCand x t r)
private theorem hardNeg_eq_inf_tiles (x : FVec Ideal SX .f32) (t : IVec ST 32) (r : Fin 4096) :
    hardNeg x t r = (Finset.univ : Finset (Fin 8)).inf (tileNeg x t r) :=
  inf_tiles (negCand x t r)

/-! ## The running fold -/

/-- Walking the step numbers `0 … 7` and reading tile `n` at step `n` visits each of the eight tiles once: the
    supremum over the steps is the supremum over the tiles. -/
private theorem sup_range_eight (g : Fin 8 → EReal) :
    (Finset.range 8).sup (fun n => if h : n < 8 then g ⟨n, h⟩ else ⊥) = (Finset.univ : Finset (Fin 8)).sup g := by
  apply le_antisymm
  · refine Finset.sup_le fun n hn => ?_
    rw [dif_pos (Finset.mem_range.1 hn)]
    exact Finset.le_sup (Finset.mem_univ _)
  · refine Finset.sup_le fun b _ => ?_
    refine le_trans (le_of_eq ?_)
      (Finset.le_sup (f := fun n => if h : n < 8 then g ⟨n, h⟩ else ⊥) (Finset.mem_range.2 b.2))
    simp [b.2]
private theorem inf_range_eight (g : Fin 8 → EReal) :
    (Finset.range 8).inf (fun n => if h : n < 8 then g ⟨n, h⟩ else ⊤) = (Finset.univ : Finset (Fin 8)).inf g := by
  apply le_antisymm
  · refine Finset.le_inf fun b _ => ?_
    refine le_trans
      (Finset.inf_le (f := fun n => if h : n < 8 then g ⟨n, h⟩ else ⊤) (Finset.mem_range.2 b.2)) (le_of_eq ?_)
    simp [b.2]
  · refine Finset.le_inf fun n hn => ?_
    rw [dif_pos (Finset.mem_range.1 hn)]
    exact Finset.inf_le (Finset.mem_univ _)

/-- After `n` steps the running maximum is the start value joined with the supremum of the tiles taken so far
    (induction on `n`; the step is associativity and commutativity of `max`). -/
private theorem runPos_eq (x : FVec Ideal SX .f32) (t : IVec ST 32) (r : Fin 4096) : ∀ n : ℕ,
    runPos x t r n = max negBig ((Finset.range n).sup fun n => if h : n < 8 then tilePos x t r ⟨n, h⟩ else ⊥)
  | 0 => by simp [runPos]
  | n + 1 => by
      rw [runPos, runPos_eq x t r n, Finset.range_add_one, Finset.sup_insert, max_assoc]
      exact congrArg (max negBig) (max_comm _ _)
/-- Dually for the running minimum. -/
private theorem runNeg_eq (x : FVec Ideal SX .f32) (t : IVec ST 32) (r : Fin 4096) : ∀ n : ℕ,
    runNeg x t r n = min posBig ((Finset.range n).inf fun n => if h : n < 8 then tileNeg x t r ⟨n, h⟩ else ⊤)
  | 0 => by simp [runNeg]
  | n + 1 => by
      rw [runNeg, runNeg_eq x t r n, Finset.range_add_one, Finset.inf_insert, min_assoc]
      exact congrArg (min posBig) (min_comm _ _)

/-! ## The two literals that are evaluated -/

/-- The word `0x40000000` is the real number 2 (sign 0, exponent 128, significand 1.0). -/
theorem two_eq : two = ((2 : ℝ) : EReal) := by
  simp [two, Ideal.ofBits, Ideal.ieee, -EReal.coe_mul]; norm_num

/-- The word `0xF149F2CA` has its sign bit set and a finite exponent: a negative real number. -/
theorem negBig_le_zero : negBig ≤ 0 := by
  simp [negBig, Ideal.ofBits, Ideal.ieee, -EReal.coe_mul]

/-! ## The diagonal candidate of a finite row is 0 -/

/-- A finite sum of real numbers, read in the extended reals, is the real sum read there. -/
private theorem coe_sum {ι : Type} (s : Finset ι) (f : ι → ℝ) :
    ∑ k ∈ s, ((f k : ℝ) : EReal) = ((∑ k ∈ s, f k : ℝ) : EReal) := by
  classical
  refine Finset.induction_on s (by simp) fun a s ha ih => ?_
  rw [Finset.sum_insert ha, Finset.sum_insert ha, ih, EReal.coe_add]

/-- The squared norm of a row of real numbers is a real number. -/
private theorem sq_real (x : FVec Ideal SX .f32) (hx : Finite x) (r : Fin 4096) : ∃ a : ℝ, sq x r = (a : EReal) := by
  choose v hv using fun k : Fin 2048 => hx (ix2 r k)
  refine ⟨∑ k, v k * v k, ?_⟩
  rw [← coe_sum]
  exact Finset.sum_congr rfl fun k _ => by rw [hv k, EReal.coe_mul]

/-- A finite row is at distance 0 from itself: with `a` the real squared norm, `(a + a) − 2·a = 0` in ℝ. (On the
    extended reals this fails for an infinite `a`, where `∞ − ∞ = −∞`.) -/
private theorem dist_self (x : FVec Ideal SX .f32) (hx : Finite x) (r : Fin 4096) : dist x r r = 0 := by
  obtain ⟨a, ha⟩ := sq_real x hx r
  have hg : gram x r r = sq x r := rfl
  rw [dist, hg, ha, two_eq, ← EReal.coe_add, ← EReal.coe_mul, ← EReal.coe_sub,
    show a + a - 2 * a = 0 by ring, EReal.coe_zero]

/-! ## After the eighth tile -/

/-- After the eighth tile the running maximum is the hardest positive (finite rows: the diagonal candidate is 0). -/
theorem runPos_eight (x : FVec Ideal SX .f32) (t : IVec ST 32) (hx : Finite x) (r : Fin 4096) :
    runPos x t r 8 = hardPos x t r := by
  -- the start value is below the row maximum, through the diagonal candidate: −1e30 ≤ 0 = dist r r ≤ hardPos r
  have hdiag : negBig ≤ hardPos x t r :=
    calc negBig ≤ 0 := negBig_le_zero
      _ = dist x r r := (dist_self x hx r).symm
      _ = posCand x t r r := (if_pos rfl).symm
      _ ≤ hardPos x t r := Finset.le_sup (f := posCand x t r) (Finset.mem_univ r)
  -- the eight steps took the eight tiles, whose supremum is the row maximum; the start value is absorbed
  rw [runPos_eq, sup_range_eight (tilePos x t r), ← hardPos_eq_sup_tiles]
  exact max_eq_right hdiag

/-- After the eighth tile the running minimum is the hardest negative (the diagonal candidate is +1e30 itself). -/
theorem runNeg_eight (x : FVec Ideal SX .f32) (t : IVec ST 32) (r : Fin 4096) :
    runNeg x t r 8 = hardNeg x t r := by
  -- the row minimum is below the start value, through the diagonal candidate, which is +1e30 itself
  have hdiag : hardNeg x t r ≤ posBig :=
    calc hardNeg x t r ≤ negCand x t r r := Finset.inf_le (f := negCand x t r) (Finset.mem_univ r)
      _ = posBig := if_pos rfl
  rw [runNeg_eq, inf_range_eight (tileNeg x t r), ← hardNeg_eq_inf_tiles]
  exact min_eq_right hdiag

/-- What the tiled evaluation leaves for row `r`. -/
def tiledRowLoss (x : FVec Ideal SX .f32) (t : IVec ST 32) (r : Fin 4096) : EReal :=
  max ((runPos x t r 8 - runNeg x t r 8) + margin) 0

theorem tiledRowLoss_eq (x : FVec Ideal SX .f32) (t : IVec ST 32) (hx : Finite x) (r : Fin 4096) :
    tiledRowLoss x t r = rowLoss x t r := by
  unfold tiledRowLoss rowLoss; rw [runPos_eight x t hx r, runNeg_eight x t r]

end Cert.Spec

end
-- ==== Proof.KernelIdeal.Payload.lean ====
/-
  The body's arithmetic, read one entry at a time over the extended reals.

  A point of the grid sees a block x0 of 256 rows and a block x1 of 512 rows of the matrix (both 2048 wide), the
  labels l0 of the 256 rows (a column) and l1 of the 512 rows (a row). Entry (p, q) of its distance tile is
  (‖x0 p‖² + ‖x1 q‖²) − 2·⟨x0 p, x1 q⟩; the positive candidate keeps it where the labels agree (else −1e30),
  the negative candidate where they differ (else +1e30). The running maximum of row p becomes the maximum of its
  old value and the tile's row maximum (from −∞); the running minimum likewise (from +∞); the stored loss is
  max((running maximum − running minimum) + 0.3, 0).
-/
import proofs.«176029_j6657199309074_1_alg».proof.Proof.Gen.KernelIdeal.Skeleton
import proofs.«176029_j6657199309074_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx
open Cert.KernelIdeal Cert.KernelIdeal.Gen

namespace Cert.KernelIdeal.Payload

/-- Squared norms of a row of either block, their inner product, the tile's distance entry. -/
def bSq0 (x0 : Vec Ideal S256x2048 .f32) (p : Fin 256) : EReal := ∑ k : Fin 2048, x0 (ix2 p k) * x0 (ix2 p k)
def bSq1 (x1 : Vec Ideal S512x2048 .f32) (q : Fin 512) : EReal := ∑ k : Fin 2048, x1 (ix2 q k) * x1 (ix2 q k)
def bGram (x0 : Vec Ideal S256x2048 .f32) (x1 : Vec Ideal S512x2048 .f32) (p : Fin 256) (q : Fin 512) : EReal :=
  ∑ k : Fin 2048, x0 (ix2 p k) * x1 (ix2 q k)
def bDist (x0 : Vec Ideal S256x2048 .f32) (x1 : Vec Ideal S512x2048 .f32) (p : Fin 256) (q : Fin 512) : EReal :=
  (bSq0 x0 p + bSq1 x1 q) - Cert.Spec.two * bGram x0 x1 p q
/-- The tile's candidates for the hardest positive and the hardest negative. -/
def bPos (x0 : Vec Ideal S256x2048 .f32) (x1 : Vec Ideal S512x2048 .f32) (l0 : Vec Ideal S256x1 .i32) (l1 : Vec Ideal S1x512 .i32)
    (p : Fin 256) (q : Fin 512) : EReal :=
  if l0 (ix2 p (0 : Fin 1)) = l1 (ix2 (0 : Fin 1) q) then bDist x0 x1 p q else Cert.Spec.negBig
def bNeg (x0 : Vec Ideal S256x2048 .f32) (x1 : Vec Ideal S512x2048 .f32) (l0 : Vec Ideal S256x1 .i32) (l1 : Vec Ideal S1x512 .i32)
    (p : Fin 256) (q : Fin 512) : EReal :=
  if l0 (ix2 p (0 : Fin 1)) = l1 (ix2 (0 : Fin 1) q) then Cert.Spec.posBig else bDist x0 x1 p q

/-! ## Layout steps read at an entry

A vector of length `a` viewed as a column `[a, 1]` keeps entry `i` at `(i, 0)` (same row-major position); a column
`[a, 1]` spread over `b` lanes reads its row's one entry everywhere. -/

section Layout
variable {α : Type}

/-- An `[a]` vector cast to the column `[a, 1]` reads, at `(i, u)`, the operand at `i`: the row-major positions are
    `i` and `i · 1 + 0`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions along the lanes, read at a row

A lane reduction of a matrix at row `p` ranges over the entries `(p, k)`: the index lying over row `p` with lane
coordinate `k` inserted is `(p, k)` itself. A sum starts from the zero word, a maximum from the word of −∞, a minimum
from the word of +∞. -/

section Rows

/-- The index over row `p` with lane `k` inserted is `(p, k)`. -/
private theorem lift_row {n m : ℕ} (h : Shape.Reduces ⟨2, ![n, m]⟩ [1] ⟨1, ![n]⟩) (p : Fin n) (k : Fin m) :
    h.lift (ix1 p) k = ix2 p k :=
  funext fun c => Fin.ext (by match c with | ⟨0, _⟩ => rfl | ⟨1, _⟩ => rfl)

/-- A `minimumf` reduction over one axis is the fold of `min` from the start value over that axis's coordinates
    (`min` commutes and associates, so the order of the fold does not matter). -/
private theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The lane minimum of row `p`, from +∞. -/
private theorem rowMin_apply {n m : ℕ} (src : FVec Ideal ⟨2, ![n, m]⟩ .f32) (h : Shape.Reduces ⟨2, ![n, m]⟩ [1] ⟨1, ![n]⟩)
    (hφ : FKind.Formats .f32) (hacc : (0x7F800000#32 : BitVec 32) = FKind.minimumf.neutral .f32 hφ) (p : Fin n) :
    multiReduction .minimumf [1] ⟨1, ![n]⟩ src 0x7F800000#32 h hφ hacc (ix1 p)
      = (Finset.univ : Finset (Fin m)).fold min ⊤ (fun q => src (ix2 p q)) := by
  refine (multiReduction_minimumf_single src _ h hφ hacc (ix1 p)).trans ?_
  have htop : (FloatOps.ofBits (F := Ideal) .f32 0x7F800000#32) = (⊤ : EReal) := by simp [Ideal.ofBits, Ideal.ieee]
  rw [htop]
  exact congrArg (Finset.fold min ⊤ · (Finset.univ : Finset (Fin m))) (funext fun k => congrArg src (lift_row h p k))

/-- The lane maximum of row `p`, from −∞. -/
private theorem rowMax_apply {n m : ℕ} (src : FVec Ideal ⟨2, ![n, m]⟩ .f32) (h : Shape.Reduces ⟨2, ![n, m]⟩ [1] ⟨1, ![n]⟩)
    (hφ : FKind.Formats .f32) (hacc : (0xFF800000#32 : BitVec 32) = FKind.maximumf.neutral .f32 hφ) (p : Fin n) :
    multiReduction .maximumf [1] ⟨1, ![n]⟩ src 0xFF800000#32 h hφ hacc (ix1 p)
      = (Finset.univ : Finset (Fin m)).fold max ⊥ (fun q => src (ix2 p q)) := by
  refine (Ideal.multiReduction_maximumf_single src _ h hφ hacc (ix1 p)).trans ?_
  have hbot : (FloatOps.ofBits (F := Ideal) .f32 0xFF800000#32) = (⊥ : EReal) := by simp [Ideal.ofBits, Ideal.ieee]
  rw [hbot]
  exact congrArg (Finset.fold max ⊥ · (Finset.univ : Finset (Fin m))) (funext fun k => congrArg src (lift_row h p k))

/-- The lane sum of row `p`, from zero. -/
private theorem rowSum_apply {n m : ℕ} (src : FVec Ideal ⟨2, ![n, m]⟩ .f32) (h : Shape.Reduces ⟨2, ![n, m]⟩ [1] ⟨1, ![n]⟩)
    (hφ : FKind.Formats .f32) (hacc : (0x00000000#32 : BitVec 32) = FKind.add.neutral .f32 hφ) (p : Fin n) :
    multiReduction .add [1] ⟨1, ![n]⟩ src 0x00000000#32 h hφ hacc (ix1 p) = ∑ k : Fin m, src (ix2 p k) := by
  refine (Ideal.multiReduction_add_single src _ h hφ hacc (ix1 p)).trans ?_
  exact Finset.sum_congr rfl fun k _ => congrArg src (lift_row h p k)

end Rows

/-! ## The product tile

The matrix unit contracts the lane axis of BOTH operands (axis 1 against axis 1), so entry `(p, q)` of the product is
the inner product of row `p` of the left block with row `q` of the right block. The contraction index has one axis of
extent 2048; the sum over it is re-indexed by that axis's coordinate. -/

section Product

/-- Left operand, row axis: the output's row. -/
private theorem lhs_mm_0 (i : S256x512.Idx) (q : dot_S256x2048_S512x2048_S256x512_1_1_0_0_n_n.contr.Idx) :
    (dot_S256x2048_S512x2048_S256x512_1_1_0_0_n_n.lhsIdx i q 0).val = (i 0).val := by
  unfold DotDims.lhsIdx
  rw [dif_neg (show ¬(0 : Fin S256x2048.rank) ∈ dot_S256x2048_S512x2048_S256x512_1_1_0_0_n_n.lhsBatch by decide), dif_pos (show (0 : Fin S256x2048.rank) ∈ dot_S256x2048_S512x2048_S256x512_1_1_0_0_n_n.lhsNonContracting by decide)]
  rfl
/-- Left operand, lane axis: the contraction coordinate. -/
private theorem lhs_mm_1 (i : S256x512.Idx) (q : dot_S256x2048_S512x2048_S256x512_1_1_0_0_n_n.contr.Idx) :
    (dot_S256x2048_S512x2048_S256x512_1_1_0_0_n_n.lhsIdx i q 1).val = (q ⟨0, by decide⟩).val :=
  dot_S256x2048_S512x2048_S256x512_1_1_0_0_n_n.lhsIdx_val_of_single rfl i q
/-- Right operand, row axis: the output's column. -/
private theorem rhs_mm_0 (i : S256x512.Idx) (q : dot_S256x2048_S512x2048_S256x512_1_1_0_0_n_n.contr.Idx) :
    (dot_S256x2048_S512x2048_S256x512_1_1_0_0_n_n.rhsIdx i q 0).val = (i 1).val := by
  unfold DotDims.rhsIdx
  rw [dif_neg (show ¬(0 : Fin S512x2048.rank) ∈ dot_S256x2048_S512x2048_S256x512_1_1_0_0_n_n.rhsBatch by decide), dif_pos (show (0 : Fin S512x2048.rank) ∈ dot_S256x2048_S512x2048_S256x512_1_1_0_0_n_n.rhsNonContracting by decide)]
  rfl
/-- Right operand, lane axis: the contraction coordinate. -/
private theorem rhs_mm_1 (i : S256x512.Idx) (q : dot_S256x2048_S512x2048_S256x512_1_1_0_0_n_n.contr.Idx) :
    (dot_S256x2048_S512x2048_S256x512_1_1_0_0_n_n.rhsIdx i q 1).val = (q ⟨0, by decide⟩).val :=
  dot_S256x2048_S512x2048_S256x512_1_1_0_0_n_n.rhsIdx_val_of_single rfl i q

/-- Entry `(p, q)` of the product into a zero accumulator: `Σ_k a[p,k] · b[q,k]`. -/
private theorem matmul_rows_apply {φ₁ φ₂ : FTy} (a : FVec Ideal S256x2048 φ₁) (b : FVec Ideal S512x2048 φ₂) (p : Fin 256) (q : Fin 512) :
    matmul dot_S256x2048_S512x2048_S256x512_1_1_0_0_n_n none a b (constant (F := Ideal) S256x512 .f32 0x00000000#32) (ix2 p q)
      = ∑ k : Fin 2048, a (ix2 p k) * b (ix2 q k) := by
  simp only [matmul]
  rw [Ideal.matmul_constant_zero_apply, ← Equiv.sum_comp (contrEquiv1 dot_S256x2048_S512x2048_S256x512_1_1_0_0_n_n 2048 rfl rfl).symm]
  refine Finset.sum_congr rfl fun k _ => ?_
  have hk := contrEquiv1_symm_val dot_S256x2048_S512x2048_S256x512_1_1_0_0_n_n 2048 rfl rfl k
  have el : dot_S256x2048_S512x2048_S256x512_1_1_0_0_n_n.lhsIdx (ix2 p q) ((contrEquiv1 dot_S256x2048_S512x2048_S256x512_1_1_0_0_n_n 2048 rfl rfl).symm k) = ix2 p k := funext fun c => Fin.ext (by
    match c with
    | ⟨0, _⟩ => exact lhs_mm_0 _ _
    | ⟨1, _⟩ => exact (lhs_mm_1 _ _).trans hk)
  have er : dot_S256x2048_S512x2048_S256x512_1_1_0_0_n_n.rhsIdx (ix2 p q) ((contrEquiv1 dot_S256x2048_S512x2048_S256x512_1_1_0_0_n_n 2048 rfl rfl).symm k) = ix2 q k := funext fun c => Fin.ext (by
    match c with
    | ⟨0, _⟩ => exact rhs_mm_0 _ _
    | ⟨1, _⟩ => exact (rhs_mm_1 _ _).trans hk)
  rw [el, er]

end Product

/-! ## The distance tile and the label mask -/

/-- A select on the bit of an equality test is the `if` on the equality. -/
private theorem select_cmpi_eq {α : Type} {w : ℕ} (a b : BitVec w) (X Y : α) :
    Scalar.select (IntOp.cmpi .eq a b) X Y = if a = b then X else Y := by
  unfold Scalar.select
  refine if_congr ?_ rfl rfl
  show BitVec.ofBool (a == b) = 1#1 ↔ a = b
  rw [← beq_iff_eq (a := a) (b := b)]
  generalize (a == b) = c
  cases c <;> decide

/-- Entry `(p, q)` of the distance tile: the two squared norms (a lane sum each, the second carried from a column to a
    row by the transpose) spread over the tile and added, less twice the product tile's entry. -/
private theorem pay6_apply (x0 : Vec Ideal S256x2048 .f32) (x1 : Vec Ideal S512x2048 .f32) (p : Fin 256) (q : Fin 512) :
    k0_pay6 (F := Ideal) x0 x1 (ix2 p q) = bDist x0 x1 p q := by
  unfold k0_pay6 bDist bSq0 bSq1 bGram Cert.Spec.two
  simp only [subf_apply, addf_apply, mulf_apply, broadcast_apply]
  refine congrArg₂ (· - ·) (congrArg₂ (· + ·) ?_ ?_) (congrArg (Ideal.ofBits .f32 0x40000000#32 * ·) ?_)
  · exact (broadcastTo_a1_ab_apply _ _ p q).trans ((shapeCast_a_a1_apply _ _ p 0).trans (rowSum_apply _ _ _ _ p))
  · exact (broadcastTo_1b_ab_apply _ _ p q).trans ((transpose_ix2_apply _ _ 0 q).trans
      ((shapeCast_a_a1_apply _ _ q 0).trans (rowSum_apply _ _ _ _ q)))
  · exact matmul_rows_apply _ _ p q

/-- Entry `(p, q)` of the label mask: the bit of "label of row p = label of column q". -/
private theorem pay7_apply (l0 : Vec Ideal S256x1 .i32) (l1 : Vec Ideal S1x512 .i32) (p : Fin 256) (q : Fin 512) :
    k0_pay7 (F := Ideal) l0 l1 (ix2 p q) = IntOp.cmpi .eq (l0 (ix2 p (0 : Fin 1))) (l1 (ix2 (0 : Fin 1) q)) := by
  unfold k0_pay7
  simp only [shapeCast_self]
  show IntOp.cmpi .eq (broadcastTo S256x512 l0 broadcasts_S256x1_S256x512 (ix2 p q))
    (broadcastTo S256x512 l1 broadcasts_S1x512_S256x512 (ix2 p q)) = _
  rw [broadcastTo_a1_ab_apply, broadcastTo_1b_ab_apply]

/-- The reset values. -/
theorem pay4_apply (p : Fin 256) : k0_pay4 (F := Ideal) (ix2 p (0 : Fin 1)) = Cert.Spec.negBig := by
  unfold k0_pay4
  simp only [shapeCast_self]
  rfl
theorem pay5_apply (p : Fin 256) : k0_pay5 (F := Ideal) (ix2 p (0 : Fin 1)) = Cert.Spec.posBig := by
  unfold k0_pay5
  simp only [shapeCast_self]
  rfl

/-- The store of the running maximum passes its value through. -/
theorem pay1_apply (v : FVec Ideal S256x1 .f32) (p : Fin 256) : k0_pay1 (F := Ideal) v (ix2 p (0 : Fin 1)) = v (ix2 p (0 : Fin 1)) := by
  unfold k0_pay1
  simp only [shapeCast_self]

/-- The negative candidates' tile. -/
theorem pay8_apply (x0 : Vec Ideal S256x2048 .f32) (x1 : Vec Ideal S512x2048 .f32) (l0 : Vec Ideal S256x1 .i32) (l1 : Vec Ideal S1x512 .i32)
    (p : Fin 256) (q : Fin 512) : k0_pay8 (F := Ideal) x0 x1 l0 l1 (ix2 p q) = bNeg x0 x1 l0 l1 p q := by
  unfold k0_pay8 bNeg
  simp only [select_apply, broadcast_apply]
  rw [pay7_apply, pay6_apply, select_cmpi_eq]
  rfl

/-- The new running maximum of row `p`. -/
theorem pay9_apply (x0 : Vec Ideal S256x2048 .f32) (x1 : Vec Ideal S512x2048 .f32) (l0 : Vec Ideal S256x1 .i32) (l1 : Vec Ideal S1x512 .i32)
    (v : Vec Ideal S256x1 .f32) (p : Fin 256) :
    k0_pay9 (F := Ideal) x0 x1 l0 l1 v (ix2 p (0 : Fin 1))
      = max (v (ix2 p (0 : Fin 1))) ((Finset.univ : Finset (Fin 512)).fold max ⊥ (fun q => bPos x0 x1 l0 l1 p q)) := by
  unfold k0_pay9
  simp only [maximumf_apply]
  refine congrArg (max _) ?_
  refine (shapeCast_a_a1_apply _ _ p 0).trans ?_
  refine (rowMax_apply _ _ _ _ p).trans ?_
  refine congrArg (Finset.fold max ⊥ · (Finset.univ : Finset (Fin 512))) (funext fun q => ?_)
  unfold bPos
  rw [select_apply, pay7_apply, pay6_apply, select_cmpi_eq, broadcast_apply]
  rfl

/-- The new running minimum of row `p`, from a tile of candidates. -/
theorem pay2_apply (w : FVec Ideal S256x512 .f32) (v : Vec Ideal S256x1 .f32) (p : Fin 256) :
    k0_pay2 (F := Ideal) w v (ix2 p (0 : Fin 1))
      = min (v (ix2 p (0 : Fin 1))) ((Finset.univ : Finset (Fin 512)).fold min ⊤ (fun q => w (ix2 p q))) := by
  unfold k0_pay2
  simp only [shapeCast_self, minimumf_apply]
  refine congrArg (min _) ?_
  refine (shapeCast_a_a1_apply _ _ p 0).trans ?_
  exact rowMin_apply w _ _ _ p

/-- The stored loss of row `p`. -/
theorem pay3_apply (vp vn : Vec Ideal S256x1 .f32) (p : Fin 256) :
    k0_pay3 (F := Ideal) vp vn (ix2 p (0 : Fin 1)) = max ((vp (ix2 p (0 : Fin 1)) - vn (ix2 p (0 : Fin 1))) + Cert.Spec.margin) 0 := by
  unfold k0_pay3
  simp only [maximumf_apply, addf_apply, subf_apply, broadcast_apply]
  show max (_ + Ideal.ofBits .f32 0x3E99999A#32) (Ideal.ofBits .f32 0x00000000#32) = _
  rw [Ideal.ofBits_zero_f32]
  rfl

end Cert.KernelIdeal.Payload

end
-- ==== Proof.KernelIdeal.Blocks.lean ====
/-
  The windows' blocks, entry by entry, in terms of the two arguments.

  Point t of the 16 × 8 grid has row tile t / 8 and column tile t % 8. Window 0's block holds rows
  256·(t/8) … of the matrix, window 1's rows 512·(t%8) … (the columns of the distance tile). The labels reach the
  region through a reshape to a column [4096,1] (window 2, rows 256·(t/8) …) and to a row [1,4096] (window 3,
  columns 512·(t%8) …); a reshape keeps the row-major order, so entry (r,0) of the column and entry (0,s) of the
  row are the labels r and s.
-/
import proofs.«176029_j6657199309074_1_alg».proof.Proof.KernelIdeal.Base
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The four input blocks at a point, each at its literal vector type. -/
abbrev blk0 (c : Dev nD) (t : Fin cfg0.N) : Vec F S256x2048 .f32 := iblk m c 0 t
abbrev blk1 (c : Dev nD) (t : Fin cfg0.N) : Vec F S512x2048 .f32 := iblk m c 1 t
abbrev blk2 (c : Dev nD) (t : Fin cfg0.N) : Vec F S256x1 .i32 := iblk m c 2 t
abbrev blk3 (c : Dev nD) (t : Fin cfg0.N) : Vec F S1x512 .i32 := iblk m c 3 t

/-- The two arguments at their literal vector types. -/
abbrev argX (c : Dev nD) : Vec F S4096x2048 .f32 := m ((c : Thread nD τ).loc main_arg0)
abbrev argT (c : Dev nD) : Vec F S4096 .i32 := m ((c : Thread nD τ).loc main_arg1)

/-- Row `p` of point `t`'s row tile, and column `q` of its column tile, as rows of the matrix. -/
def rowOf (t : Fin cfg0.N) (p : Fin 256) : Fin 4096 :=
  ⟨256 * (t.val / 8) + p.val, by have h := t.isLt; have hN : cfg0.N = 128 := N_0; omega⟩
def colOf (t : Fin cfg0.N) (q : Fin 512) : Fin 4096 := ⟨512 * (t.val % 8) + q.val, by omega⟩

/-- The windows' block indices at a point, read off the printed index maps over the whole 16 × 8 grid: windows 0
    and 2 sit at block (t / 8, 0), window 1 at block (t % 8, 0), window 3 at block (0, t % 8). -/
private theorem index_win0 : ∀ t : Fin cfg0.N, win0_0.index t (0 : Fin 2) = t.val / 8 ∧ win0_0.index t (1 : Fin 2) = 0 :=
  (by decide +kernel : ∀ t : Fin grid0.N, _)
private theorem index_win1 : ∀ t : Fin cfg0.N, win0_1.index t (0 : Fin 2) = t.val % 8 ∧ win0_1.index t (1 : Fin 2) = 0 :=
  (by decide +kernel : ∀ t : Fin grid0.N, _)
private theorem index_win2 : ∀ t : Fin cfg0.N, win0_2.index t (0 : Fin 2) = t.val / 8 ∧ win0_2.index t (1 : Fin 2) = 0 :=
  (by decide +kernel : ∀ t : Fin grid0.N, _)
private theorem index_win3 : ∀ t : Fin cfg0.N, win0_3.index t (0 : Fin 2) = 0 ∧ win0_3.index t (1 : Fin 2) = t.val % 8 :=
  (by decide +kernel : ∀ t : Fin grid0.N, _)

/-- When the region is entered the column [4096,1] and the row [1,4096] hold the label vector, reshaped: each
    reshape wrote its own result once and nothing after it touches that result. -/
private theorem V_column (c : Dev nD) :
    (V m c main_v0 : S4096x1.Idx → Elt F .i32) = shapeCast S4096x1 (argT m c) shapeCasts_S4096_S4096x1 := by
  dsimp only [V, V0]
  simp only [hostOps0, List.flatten_cons, List.flatten_nil, List.append_nil]
  after_results
  rfl
private theorem V_row (c : Dev nD) :
    (V m c main_v1 : S1x4096.Idx → Elt F .i32) = shapeCast S1x4096 (argT m c) shapeCasts_S4096_S1x4096 := by
  dsimp only [V, V0]
  simp only [hostOps0, List.flatten_cons, List.flatten_nil, List.append_nil]
  after_results
  rfl

/-- Window 0: entry (p, k) of the block is entry (256·(t/8) + p, k) of the matrix. A block's coordinate on an axis
    is its block index times the block's extent there, plus the coordinate inside the block; on the column axis
    the block index is 0 and the block is all 2048 columns. -/
theorem blk0_apply (c : Dev nD) (t : Fin cfg0.N) (p : Fin 256) (k : Fin 2048) :
    blk0 m c t (ix2 p k) = argX m c (ix2 (rowOf t p) k) := by
  obtain ⟨e0, e1⟩ := index_win0 t
  show V m c main_arg0 (((cfg0.win 0).blk t).view.emb (ix2 p k)) = _
  rw [V_main_arg0]
  refine congrArg _ ?_
  funext a; apply Fin.ext
  match a with
  | ⟨0, _⟩ => show win0_0.index t (0 : Fin 2) * 256 + 1 * p.val = 256 * (t.val / 8) + p.val; omega
  | ⟨1, _⟩ => show win0_0.index t (1 : Fin 2) * 2048 + 1 * k.val = k.val; omega
/-- Window 1: the same matrix cut into tiles of 512 rows, the tile chosen by the point's column coordinate: entry
    (q, k) of the block is entry (512·(t%8) + q, k) of the matrix. -/
theorem blk1_apply (c : Dev nD) (t : Fin cfg0.N) (q : Fin 512) (k : Fin 2048) :
    blk1 m c t (ix2 q k) = argX m c (ix2 (colOf t q) k) := by
  obtain ⟨e0, e1⟩ := index_win1 t
  show V m c main_arg0 (((cfg0.win 1).blk t).view.emb (ix2 q k)) = _
  rw [V_main_arg0]
  refine congrArg _ ?_
  funext a; apply Fin.ext
  match a with
  | ⟨0, _⟩ => show win0_1.index t (0 : Fin 2) * 512 + 1 * q.val = 512 * (t.val % 8) + q.val; omega
  | ⟨1, _⟩ => show win0_1.index t (1 : Fin 2) * 2048 + 1 * k.val = k.val; omega
/-- Window 2: entry (p, 0) of the block is entry (256·(t/8) + p, 0) of the column, whose row-major position
    (256·(t/8) + p)·1 + 0 is the position of label 256·(t/8) + p in the vector. -/
theorem blk2_apply (c : Dev nD) (t : Fin cfg0.N) (p : Fin 256) :
    blk2 m c t (ix2 p (0 : Fin 1)) = argT m c (ix1 (rowOf t p)) := by
  obtain ⟨e0, e1⟩ := index_win2 t
  show V m c main_v0 (((cfg0.win 2).blk t).view.emb (ix2 p (0 : Fin 1))) = _
  rw [V_column]
  refine shapeCast_apply _ _ _ _ ?_
  rw [Shape.rowMajor_val_two, Shape.rowMajor_val_one]
  show (256 * (t.val / 8) + p.val) = (win0_2.index t (0 : Fin 2) * 256 + 1 * p.val) * 1 + (win0_2.index t (1 : Fin 2) * 1 + 1 * 0)
  omega
/-- Window 3: entry (0, q) of the block is entry (0, 512·(t%8) + q) of the row, whose row-major position
    0·4096 + (512·(t%8) + q) is the position of label 512·(t%8) + q in the vector. -/
theorem blk3_apply (c : Dev nD) (t : Fin cfg0.N) (q : Fin 512) :
    blk3 m c t (ix2 (0 : Fin 1) q) = argT m c (ix1 (colOf t q)) := by
  obtain ⟨e0, e1⟩ := index_win3 t
  show V m c main_v1 (((cfg0.win 3).blk t).view.emb (ix2 (0 : Fin 1) q)) = _
  rw [V_row]
  refine shapeCast_apply _ _ _ _ ?_
  rw [Shape.rowMajor_val_two, Shape.rowMajor_val_one]
  show (512 * (t.val % 8) + q.val) = (win0_3.index t (0 : Fin 2) * 1 + 1 * 0) * 4096 + (win0_3.index t (1 : Fin 2) * 512 + 1 * q.val)
  omega

end Cert.KernelIdeal.Hand

end
-- ==== Proof.KernelIdeal.Value.lean ====
/-
  The region's result, and its mean, as the specification's loss.

  Row p of the row tile of point t is row r = 256·(t/8) + p of the matrix. By induction along a row tile's eight
  points, after the point with column tile b the running maximum and minimum at row p are the specification's
  running values over the first b + 1 tiles (`Spec.runPos`, `Spec.runNeg`): the first tile starts them from the
  reset values, every later tile folds its 512 candidates in — the tile's candidate (p, q) is the specification's
  candidate (r, 512·b + q), because the two blocks and the two label blocks are the matrix's and the labels' rows
  r and 512·b + q. At the last tile the stored entry is the tiled row loss. The result array is written back one
  row tile at a time, at the sixteen last-tile points, whose blocks cover it; so entry (r, 0) of the final array is
  the tiled row loss of r, which for a finite matrix is the specification's row loss. The host's sum over the
  [4096,1] array from 0, divided by 4096, is then the specification's loss.
-/
import proofs.«176029_j6657199309074_1_alg».proof.Proof.KernelIdeal.Pieces
import proofs.«176029_j6657199309074_1_alg».proof.Proof.KernelIdeal.Payload
import proofs.«176029_j6657199309074_1_alg».proof.Proof.KernelIdeal.Blocks
import proofs.«176029_j6657199309074_1_alg».proof.Proof.Spec
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx
open scoped BigOperators

/-! ## A tile's candidates are the specification's -/

/-- The column tile of a point, as one of the specification's eight tiles. -/
def tileOf (t : Fin cfg0.N) : Fin 8 := ⟨t.val % 8, Nat.mod_lt _ (by norm_num)⟩

/-- Column `q` of a point's column tile is column `q` of that tile in the specification's numbering. -/
theorem colOf_eq (t : Fin cfg0.N) (q : Fin 512) : colOf t q = Spec.col (tileOf t) q := rfl

/-- Entry (p, q) of a point's distance tile is the specification's squared distance between the matrix's rows
    `rowOf t p` and `colOf t q`: the two blocks are those rows of the matrix, term by term of the three sums. -/
theorem bDist_eq (c : Dev nD) (t : Fin cfg0.N) (p : Fin 256) (q : Fin 512) :
    Payload.bDist (blk0 (F := Ideal) m c t) (blk1 (F := Ideal) m c t) p q
      = Spec.dist (argX (F := Ideal) m c) (rowOf t p) (colOf t q) := by
  unfold Payload.bDist Spec.dist Payload.bSq0 Payload.bSq1 Payload.bGram Spec.sq Spec.gram
  have e0 : ∀ k : Fin 2048, blk0 (F := Ideal) m c t (ix2 p k) = argX (F := Ideal) m c (ix2 (rowOf t p) k) :=
    fun k => blk0_apply (F := Ideal) m c t p k
  have e1 : ∀ k : Fin 2048, blk1 (F := Ideal) m c t (ix2 q k) = argX (F := Ideal) m c (ix2 (colOf t q) k) :=
    fun k => blk1_apply (F := Ideal) m c t q k
  simp only [e0, e1]

/-- The tile's positive and negative candidates are the specification's: the label blocks are the labels of the
    same two rows. -/
theorem bPos_eq (c : Dev nD) (t : Fin cfg0.N) (p : Fin 256) (q : Fin 512) :
    Payload.bPos (blk0 (F := Ideal) m c t) (blk1 (F := Ideal) m c t) (blk2 (F := Ideal) m c t) (blk3 (F := Ideal) m c t) p q
      = Spec.posCand (argX (F := Ideal) m c) (argT (F := Ideal) m c) (rowOf t p) (colOf t q) := by
  unfold Payload.bPos Spec.posCand
  rw [blk2_apply (F := Ideal) m c t p, blk3_apply (F := Ideal) m c t q, bDist_eq m c t p q]
theorem bNeg_eq (c : Dev nD) (t : Fin cfg0.N) (p : Fin 256) (q : Fin 512) :
    Payload.bNeg (blk0 (F := Ideal) m c t) (blk1 (F := Ideal) m c t) (blk2 (F := Ideal) m c t) (blk3 (F := Ideal) m c t) p q
      = Spec.negCand (argX (F := Ideal) m c) (argT (F := Ideal) m c) (rowOf t p) (colOf t q) := by
  unfold Payload.bNeg Spec.negCand
  rw [blk2_apply (F := Ideal) m c t p, blk3_apply (F := Ideal) m c t q, bDist_eq m c t p q]

/-- So a point's row maximum and row minimum over its tile are the specification's tile values. -/
theorem foldPos_eq (c : Dev nD) (t : Fin cfg0.N) (p : Fin 256) :
    (Finset.univ : Finset (Fin 512)).fold max ⊥
        (fun q => Payload.bPos (blk0 (F := Ideal) m c t) (blk1 (F := Ideal) m c t) (blk2 (F := Ideal) m c t) (blk3 (F := Ideal) m c t) p q)
      = Spec.tilePos (argX (F := Ideal) m c) (argT (F := Ideal) m c) (rowOf t p) (tileOf t) := by
  unfold Spec.tilePos
  exact congrArg (fun f : Fin 512 → EReal => (Finset.univ : Finset (Fin 512)).fold max ⊥ f) (funext fun q => bPos_eq m c t p q)
theorem foldNeg_eq (c : Dev nD) (t : Fin cfg0.N) (p : Fin 256) :
    (Finset.univ : Finset (Fin 512)).fold min ⊤
        (fun q => Payload.bNeg (blk0 (F := Ideal) m c t) (blk1 (F := Ideal) m c t) (blk2 (F := Ideal) m c t) (blk3 (F := Ideal) m c t) p q)
      = Spec.tileNeg (argX (F := Ideal) m c) (argT (F := Ideal) m c) (rowOf t p) (tileOf t) := by
  unfold Spec.tileNeg
  exact congrArg (fun f : Fin 512 → EReal => (Finset.univ : Finset (Fin 512)).fold min ⊤ f) (funext fun q => bNeg_eq m c t p q)

/-! ## What each point leaves, as the body's payloads of its blocks -/

/-- The point before `t`, and what it left in the two scratch buffers. -/
def predPt (t : Fin cfg0.N) : Fin cfg0.N := ⟨t.val - 1, Nat.lt_of_le_of_lt (Nat.sub_le _ _) t.isLt⟩
abbrev prevPos (c : Dev nD) (t : Fin cfg0.N) : Vec Ideal S256x1 .f32 :=
  (outsAt (F := Ideal) m c (t.val - 1) (Nat.lt_of_le_of_lt (Nat.sub_le _ _) t.isLt)).2.1
abbrev prevNeg (c : Dev nD) (t : Fin cfg0.N) : Vec Ideal S256x1 .f32 :=
  (outsAt (F := Ideal) m c (t.val - 1) (Nat.lt_of_le_of_lt (Nat.sub_le _ _) t.isLt)).2.2

/-- At a first column tile the running maximum is this tile's fold over the reset value −1e30, the running
    minimum this tile's fold over +1e30. -/
theorem pos_first (c : Dev nD) (t : Fin cfg0.N) (h0 : t.val % 8 = 0) :
    (outsAt (F := Ideal) m c t.val t.isLt).2.1 = k0_pay1 (k0_pay9 (blk0 (F := Ideal) m c t) (blk1 (F := Ideal) m c t) (blk2 (F := Ideal) m c t) (blk3 (F := Ideal) m c t) (k0_pay4 (F := Ideal))) := by
  rw [outsAt_first m c t h0]; dsimp only
  exact posFirst_eq (F := Ideal) c (grid0.coords t) (ms0 t) (hs0 t) (ms1 t) (hs1 t) (ms2 t) (hs2 t) (ms3 t) (hs3 t) (ms4 t) (hs4 t) scPos (Memref.isWhole_whole _) scNeg (Memref.isWhole_whole _) ((hcondFirst t).mpr h0) (notLast_of_first t h0) (blk0 (F := Ideal) m c t) (blk1 (F := Ideal) m c t) (blk2 (F := Ideal) m c t) (blk3 (F := Ideal) m c t)
theorem neg_first (c : Dev nD) (t : Fin cfg0.N) (h0 : t.val % 8 = 0) :
    (outsAt (F := Ideal) m c t.val t.isLt).2.2 = k0_pay2 (k0_pay8 (blk0 (F := Ideal) m c t) (blk1 (F := Ideal) m c t) (blk2 (F := Ideal) m c t) (blk3 (F := Ideal) m c t)) (k0_pay5 (F := Ideal)) := by
  rw [outsAt_first m c t h0]; dsimp only
  exact negFirst_eq (F := Ideal) c (grid0.coords t) (ms0 t) (hs0 t) (ms1 t) (hs1 t) (ms2 t) (hs2 t) (ms3 t) (hs3 t) (ms4 t) (hs4 t) scPos (Memref.isWhole_whole _) scNeg (Memref.isWhole_whole _) ((hcondFirst t).mpr h0) (notLast_of_first t h0) (blk0 (F := Ideal) m c t) (blk1 (F := Ideal) m c t) (blk2 (F := Ideal) m c t) (blk3 (F := Ideal) m c t)

/-- At a middle column tile they are this tile's folds over what the point before left. -/
theorem pos_mid (c : Dev nD) (t : Fin cfg0.N) (h0 : ¬t.val % 8 = 0) (h1 : ¬t.val % 8 = 7) :
    (outsAt (F := Ideal) m c t.val t.isLt).2.1 = k0_pay1 (k0_pay9 (blk0 (F := Ideal) m c t) (blk1 (F := Ideal) m c t) (blk2 (F := Ideal) m c t) (blk3 (F := Ideal) m c t) (prevPos m c t)) := by
  rw [outsAt_mid m c t h0 h1]; dsimp only
  exact posMid_eq (F := Ideal) c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) (notLast_of t h1) (blk0 (F := Ideal) m c t) (blk1 (F := Ideal) m c t) (blk2 (F := Ideal) m c t) (blk3 (F := Ideal) m c t) (prevPos m c t) (prevNeg m c t)
theorem neg_mid (c : Dev nD) (t : Fin cfg0.N) (h0 : ¬t.val % 8 = 0) (h1 : ¬t.val % 8 = 7) :
    (outsAt (F := Ideal) m c t.val t.isLt).2.2 = k0_pay2 (k0_pay8 (blk0 (F := Ideal) m c t) (blk1 (F := Ideal) m c t) (blk2 (F := Ideal) m c t) (blk3 (F := Ideal) m c t)) (prevNeg m c t) := by
  rw [outsAt_mid m c t h0 h1]; dsimp only
  exact negMid_eq (F := Ideal) c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) (notLast_of t h1) (blk0 (F := Ideal) m c t) (blk1 (F := Ideal) m c t) (blk2 (F := Ideal) m c t) (blk3 (F := Ideal) m c t) (prevPos m c t) (prevNeg m c t)

/-- At a last column tile likewise, and the result's buffer receives the margin loss of the two new values. -/
theorem pos_last (c : Dev nD) (t : Fin cfg0.N) (h0 : ¬t.val % 8 = 0) (h1 : t.val % 8 = 7) :
    (outsAt (F := Ideal) m c t.val t.isLt).2.1 = k0_pay1 (k0_pay9 (blk0 (F := Ideal) m c t) (blk1 (F := Ideal) m c t) (blk2 (F := Ideal) m c t) (blk3 (F := Ideal) m c t) (prevPos m c t)) := by
  rw [outsAt_last m c t h0 h1]; dsimp only
  exact posLast_eq (F := Ideal) c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) ((hcondLast t).mpr h1) (blk0 (F := Ideal) m c t) (blk1 (F := Ideal) m c t) (blk2 (F := Ideal) m c t) (blk3 (F := Ideal) m c t) (prevPos m c t) (prevNeg m c t)
theorem neg_last (c : Dev nD) (t : Fin cfg0.N) (h0 : ¬t.val % 8 = 0) (h1 : t.val % 8 = 7) :
    (outsAt (F := Ideal) m c t.val t.isLt).2.2 = k0_pay2 (k0_pay8 (blk0 (F := Ideal) m c t) (blk1 (F := Ideal) m c t) (blk2 (F := Ideal) m c t) (blk3 (F := Ideal) m c t)) (prevNeg m c t) := by
  rw [outsAt_last m c t h0 h1]; dsimp only
  exact negLast_eq (F := Ideal) c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) ((hcondLast t).mpr h1) (blk0 (F := Ideal) m c t) (blk1 (F := Ideal) m c t) (blk2 (F := Ideal) m c t) (blk3 (F := Ideal) m c t) (prevPos m c t) (prevNeg m c t)
theorem out_last (c : Dev nD) (t : Fin cfg0.N) (h0 : ¬t.val % 8 = 0) (h1 : t.val % 8 = 7) :
    (outsAt (F := Ideal) m c t.val t.isLt).1
      = k0_pay3 (k0_pay1 (k0_pay9 (blk0 (F := Ideal) m c t) (blk1 (F := Ideal) m c t) (blk2 (F := Ideal) m c t) (blk3 (F := Ideal) m c t) (prevPos m c t))) (k0_pay2 (k0_pay8 (blk0 (F := Ideal) m c t) (blk1 (F := Ideal) m c t) (blk2 (F := Ideal) m c t) (blk3 (F := Ideal) m c t)) (prevNeg m c t)) := by
  rw [outsAt_last m c t h0 h1]; dsimp only
  exact outLast_eq (F := Ideal) c (grid0.coords t) (ms0 t) (hs0 t) (ms1 t) (hs1 t) (ms2 t) (hs2 t) (ms3 t) (hs3 t) (ms4 t) (hs4 t) scPos (Memref.isWhole_whole _) scNeg (Memref.isWhole_whole _) (notFirst_of t h0) ((hcondLast t).mpr h1) (blk0 (F := Ideal) m c t) (blk1 (F := Ideal) m c t) (blk2 (F := Ideal) m c t) (blk3 (F := Ideal) m c t) (prevPos m c t) (prevNeg m c t)

/-! ## The invariant along a row tile -/

/-- One more tile folded into the specification's running maximum and minimum. -/
theorem runPos_step (x : FVec Ideal Spec.SX .f32) (tt : IVec Spec.ST 32) (r : Fin 4096) (b : Fin 8) :
    Spec.runPos x tt r (b.val + 1) = max (Spec.runPos x tt r b.val) (Spec.tilePos x tt r b) := by
  rw [Spec.runPos, dif_pos b.isLt]
theorem runNeg_step (x : FVec Ideal Spec.SX .f32) (tt : IVec Spec.ST 32) (r : Fin 4096) (b : Fin 8) :
    Spec.runNeg x tt r (b.val + 1) = min (Spec.runNeg x tt r b.val) (Spec.tileNeg x tt r b) := by
  rw [Spec.runNeg, dif_pos b.isLt]

/-- The body's update of the running maximum at row `p`: the old value joined with the specification's tile
    maximum of row `rowOf t p`; and of the running minimum, dually. -/
theorem pos_step (c : Dev nD) (t : Fin cfg0.N) (xp : Vec Ideal S256x1 .f32) (p : Fin 256) :
    k0_pay1 (F := Ideal) (k0_pay9 (blk0 (F := Ideal) m c t) (blk1 (F := Ideal) m c t) (blk2 (F := Ideal) m c t) (blk3 (F := Ideal) m c t) xp) (ix2 p (0 : Fin 1))
      = max (xp (ix2 p (0 : Fin 1))) (Spec.tilePos (argX (F := Ideal) m c) (argT (F := Ideal) m c) (rowOf t p) (tileOf t)) := by
  rw [Payload.pay1_apply, Payload.pay9_apply, foldPos_eq]
theorem neg_step (c : Dev nD) (t : Fin cfg0.N) (xn : Vec Ideal S256x1 .f32) (p : Fin 256) :
    k0_pay2 (F := Ideal) (k0_pay8 (blk0 (F := Ideal) m c t) (blk1 (F := Ideal) m c t) (blk2 (F := Ideal) m c t) (blk3 (F := Ideal) m c t)) xn (ix2 p (0 : Fin 1))
      = min (xn (ix2 p (0 : Fin 1))) (Spec.tileNeg (argX (F := Ideal) m c) (argT (F := Ideal) m c) (rowOf t p) (tileOf t)) := by
  rw [Payload.pay2_apply]
  simp only [Payload.pay8_apply]
  rw [foldNeg_eq]

/-- After point `t` the two scratch buffers hold, at every row `p` of the row tile, the specification's running
    values of row `rowOf t p` over the column tiles up to and including `t`'s. -/
def RunInv (c : Dev nD) (t : Fin cfg0.N) : Prop := ∀ p : Fin 256,
  (outsAt (F := Ideal) m c t.val t.isLt).2.1 (ix2 p (0 : Fin 1)) = Spec.runPos (argX (F := Ideal) m c) (argT (F := Ideal) m c) (rowOf t p) ((tileOf t).val + 1)
    ∧ (outsAt (F := Ideal) m c t.val t.isLt).2.2 (ix2 p (0 : Fin 1)) = Spec.runNeg (argX (F := Ideal) m c) (argT (F := Ideal) m c) (rowOf t p) ((tileOf t).val + 1)

/-- A first column tile starts the running values: no tile has been folded in, so the old values are the resets. -/
theorem inv_first (c : Dev nD) (t : Fin cfg0.N) (h0 : t.val % 8 = 0) : RunInv m c t := by
  intro p
  have hb : (tileOf t).val = 0 := h0
  constructor
  · rw [pos_first m c t h0, pos_step m c t _ p, Payload.pay4_apply, runPos_step]
    exact congrArg (fun v => max v (Spec.tilePos (argX (F := Ideal) m c) (argT (F := Ideal) m c) (rowOf t p) (tileOf t))) (by rw [hb]; rfl)
  · rw [neg_first m c t h0, neg_step m c t _ p, Payload.pay5_apply, runNeg_step]
    exact congrArg (fun v => min v (Spec.tileNeg (argX (F := Ideal) m c) (argT (F := Ideal) m c) (rowOf t p) (tileOf t))) (by rw [hb]; rfl)

/-- Away from a first column tile the point before is in the same row tile, one column tile earlier; so what it
    left are the specification's running values over the tiles before `t`'s. -/
theorem prev_vals (c : Dev nD) (t : Fin cfg0.N) (h0 : ¬t.val % 8 = 0) (hI : RunInv m c (predPt t)) (p : Fin 256) :
    prevPos m c t (ix2 p (0 : Fin 1)) = Spec.runPos (argX (F := Ideal) m c) (argT (F := Ideal) m c) (rowOf t p) (tileOf t).val
      ∧ prevNeg m c t (ix2 p (0 : Fin 1)) = Spec.runNeg (argX (F := Ideal) m c) (argT (F := Ideal) m c) (rowOf t p) (tileOf t).val := by
  have hrow : rowOf (predPt t) p = rowOf t p := by
    apply Fin.ext
    show 256 * ((t.val - 1) / 8) + p.val = 256 * (t.val / 8) + p.val
    omega
  have hidx : (tileOf (predPt t)).val + 1 = (tileOf t).val := by
    show (t.val - 1) % 8 + 1 = t.val % 8
    omega
  constructor
  · refine (hI p).1.trans ?_
    rw [hrow, hidx]
  · refine (hI p).2.trans ?_
    rw [hrow, hidx]

/-- Every later tile folds itself into what the point before left. -/
theorem inv_next (c : Dev nD) (t : Fin cfg0.N) (h0 : ¬t.val % 8 = 0) (hI : RunInv m c (predPt t)) : RunInv m c t := by
  intro p
  obtain ⟨ep, en⟩ := prev_vals m c t h0 hI p
  by_cases h1 : t.val % 8 = 7
  · constructor
    · rw [pos_last m c t h0 h1, pos_step m c t _ p, ep, runPos_step]
    · rw [neg_last m c t h0 h1, neg_step m c t _ p, en, runNeg_step]
  · constructor
    · rw [pos_mid m c t h0 h1, pos_step m c t _ p, ep, runPos_step]
    · rw [neg_mid m c t h0 h1, neg_step m c t _ p, en, runNeg_step]

/-- The invariant holds at every point, by induction along the grid's order. -/
theorem run_inv (c : Dev nD) : ∀ (n : ℕ) (t : Fin cfg0.N), t.val = n → RunInv m c t := by
  intro n
  induction n with
  | zero =>
    intro t ht
    exact inv_first m c t (by rw [ht])
  | succ n ih =>
    intro t ht
    by_cases h0 : t.val % 8 = 0
    · exact inv_first m c t h0
    · exact inv_next m c t h0 (ih (predPt t) (by show t.val - 1 = n; omega))

/-! ## The last tile stores the tiled row loss -/

/-- At a last column tile the eighth tile has just been folded in, and the stored entry of row `p` is the margin
    loss of the two complete running values: the tiled row loss of row `rowOf t p`. -/
theorem out_at_last (c : Dev nD) (t : Fin cfg0.N) (h1 : t.val % 8 = 7) (p : Fin 256) :
    (outsAt (F := Ideal) m c t.val t.isLt).1 (ix2 p (0 : Fin 1)) = Spec.tiledRowLoss (argX (F := Ideal) m c) (argT (F := Ideal) m c) (rowOf t p) := by
  have h0 : ¬t.val % 8 = 0 := by omega
  obtain ⟨ep, en⟩ := prev_vals m c t h0 (run_inv m c (predPt t).val (predPt t) rfl) p
  have h8 : (tileOf t).val + 1 = 8 := by
    show t.val % 8 + 1 = 8
    omega
  rw [out_last m c t h0 h1, Payload.pay3_apply, pos_step m c t _ p, neg_step m c t _ p, ep, en, ← runPos_step, ← runNeg_step, h8]
  rfl

/-! ## From the written-back blocks to the result array -/

/-- The array of tiled row losses: entry (r, 0) is the tiled row loss of row r. -/
abbrev lossArr (c : Dev nD) : S4096x1.Idx → Elt Ideal .f32 :=
  fun j => Spec.tiledRowLoss (argX (F := Ideal) m c) (argT (F := Ideal) m c) ⟨(j 0).val, idx2_lt0 j⟩

/-- The result window's block index at point `t` is its row tile (and 0 along the unit axis). -/
theorem resIndex : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- What a last-tile point writes back is its block of the array of tiled row losses: row `p` of the block is row
    256·(t/8) + p of the array, the row whose loss the point has just stored there. -/
theorem resFlushed_eq (c : Dev nD) (t : Fin cfg0.N) (hf : (cfg0.win 4).flush t = true) :
    (dats (F := Ideal) m 0 c).flushed 4 t = ((cfg0.win 4).blk t).view.read (Elt Ideal) (lossArr m c) := by
  have h1 : t.val % 8 = 7 := (flush0_4 t).mp hf
  show (cfg0.win 4).cut (grid0.coords t) ((dats (F := Ideal) m 0 c).after 4 t) = _
  rw [after4]
  obtain ⟨e0, e1⟩ := resIndex t
  funext y
  rw [View.read_apply]
  have hy0 : (y 0).val < 256 := (y 0).isLt
  have hy1 : (y 1).val < 1 := (y 1).isLt
  show (outsAt (F := Ideal) m c t.val t.isLt).1 ((cfg0.win 4).xinj (grid0.coords t) y) = lossArr m c (((cfg0.win 4).blk t).view.emb y)
  have hx : (cfg0.win 4).xinj (grid0.coords t) y = ix2 (⟨(y 0).val, hy0⟩ : Fin 256) (0 : Fin 1) := by
    funext a; apply Fin.ext
    match a with
    | ⟨0, _⟩ => rfl
    | ⟨1, _⟩ => show (y 1).val = 0; omega
  rw [hx, out_at_last m c t h1 ⟨(y 0).val, hy0⟩]
  show Spec.tiledRowLoss (argX (F := Ideal) m c) (argT (F := Ideal) m c) _ = Spec.tiledRowLoss (argX (F := Ideal) m c) (argT (F := Ideal) m c) _
  congr 1; apply Fin.ext
  show 256 * (t.val / 8) + (y 0).val = win0_4.index t (0 : Fin 2) * 256 + 1 * (y 0).val
  omega

/-- An index of the array is in point `t`'s block iff each coordinate is in the block's range on its axis. -/
theorem mem_resBlk (t : Fin cfg0.N) (i : S4096x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v2).slice (win0_4.rect t)).set ↔ _
  rw [View.set_slice_whole, Rect.mem_set_unit]
  exact Iff.rfl

/-- Row r of the array is written back by the last-tile point of its row tile, t = 8·(r / 256) + 7. -/
theorem resCovered (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 128 := N_0
  have hlt : 8 * ((i 0).val / 256) + 7 < cfg0.N := by omega
  refine ⟨⟨8 * ((i 0).val / 256) + 7, hlt⟩, (flush0_4 _).mpr (by show (8 * ((i 0).val / 256) + 7) % 8 = 7; omega), ?_⟩
  obtain ⟨e0, e1⟩ := resIndex ⟨8 * ((i 0).val / 256) + 7, hlt⟩
  have ht : (8 * ((i 0).val / 256) + 7) / 8 = (i 0).val / 256 := by omega
  rw [mem_resBlk]
  intro a
  match a with
  | ⟨0, _⟩ =>
    show win0_4.index ⟨8 * ((i 0).val / 256) + 7, hlt⟩ (0 : Fin 2) * 256 ≤ (i 0).val ∧ (i 0).val < win0_4.index ⟨8 * ((i 0).val / 256) + 7, hlt⟩ (0 : Fin 2) * 256 + 256
    rw [e0]; show (8 * ((i 0).val / 256) + 7) / 8 * 256 ≤ (i 0).val ∧ (i 0).val < (8 * ((i 0).val / 256) + 7) / 8 * 256 + 256
    omega
  | ⟨1, _⟩ =>
    show win0_4.index ⟨8 * ((i 0).val / 256) + 7, hlt⟩ (1 : Fin 2) * 1 ≤ (i 1).val ∧ (i 1).val < win0_4.index ⟨8 * ((i 0).val / 256) + 7, hlt⟩ (1 : Fin 2) * 1 + 1
    rw [e1]; omega

/-- So the result array ends as the array of tiled row losses. -/
theorem resArr_eq (c : Dev nD) : (dats (F := Ideal) m 0 c).arrAt 4 cfg0.N = lossArr m c :=
  (dats (F := Ideal) m 0 c).arrAt_eq_of_cover 4 (lossArr m c) (fun t hf => resFlushed_eq m c t hf) resCovered

/-! ## The mean -/

/-- The mean of the region's final result array is the specification's loss of the two arguments. -/
theorem mean_value (c : Dev nD) (hx : Cert.Spec.Finite (argX (F := Ideal) m c)) :
    meanOf (F := Ideal) ((dats (F := Ideal) m 0 c).arrAt 4 cfg0.N)
      = fun _ => Cert.Spec.loss (argX (F := Ideal) m c) (argT (F := Ideal) m c) := by
  rw [resArr_eq m c]
  funext j
  -- the sum over the [4096,1] array is the sum over its rows (the second axis has one entry), and for a finite
  -- matrix each tiled row loss is the specification's row loss
  have hsum : ∑ i : S4096x1.Idx, lossArr m c i = ∑ r : Fin 4096, Spec.rowLoss (argX (F := Ideal) m c) (argT (F := Ideal) m c) r := by
    rw [sum_idx2]
    refine Finset.sum_congr rfl fun r _ => ?_
    rw [Fin.sum_univ_one]
    exact Spec.tiledRowLoss_eq _ _ hx r
  -- the host's sum from the word 0 is 0 plus that total; the divisor is the same word as the specification's count
  show Ideal.div (Ideal.hostReduceAdd reducesTo_S4096x1_S_d0_1 (lossArr m c) (Ideal.ofBits .f32 0x00000000#32) j) (Ideal.ofBits .f32 0x45800000#32)
    = Ideal.div (∑ r : Fin 4096, Spec.rowLoss (argX (F := Ideal) m c) (argT (F := Ideal) m c) r) Spec.count
  rw [Ideal.hostReduceAdd_total reducesTo_S4096x1_S_d0_1 (fun b => b.elim0) (lossArr m c) _ j, Ideal.ofBits_zero_f32, zero_add, hsum]
  rfl

end Cert.KernelIdeal.Hand

end
-- ==== Proof.RefValue.lean ====
/-
  The reference program computes the hard-example triplet loss of the specification.

  Read one stage at a time, at an index, the reference is:
    row r of the squared matrix, summed                         →  sq r
    the matrix times its own transpose, at (r, s)               →  gram r s
    (sq r down the rows + sq s along the columns) − 2·gram      →  dist r s
    the label of row r against the label of column s            →  the mask "t r = t s"
    the mask choosing the distance or −1e30 / +1e30 or the distance →  posCand r s / negCand r s
    the row maximum from −∞ / the row minimum from +∞           →  hardPos r / hardNeg r
    max((hardPos − hardNeg) + 0.3, 0)                           →  rowLoss r
    the sum over the rows divided by 4096                       →  loss
  Every step is the same expression on both sides once the layout operations (keepdims column, transpose,
  broadcast) are read as the index maps they are; the only evaluations of a literal are 0 (the sums' start),
  −∞ and +∞ (the extrema's starts).
-/
import proofs.«176029_j6657199309074_1_alg».proof.Proof.Gen.ReferenceIdeal.Read
import proofs.«176029_j6657199309074_1_alg».proof.Proof.Spec
import Idealize.ShloMosaic.Lib.ValueIdxRank1

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Choosing by the bit of an equality test is choosing by the equality. -/
theorem select_cmpi_eq {α : Type} {w : Nat} (a b : BitVec w) (u v : α) :
    Scalar.select (IntOp.cmpi .eq a b) u v = if a = b then u else v := by
  unfold Scalar.select
  exact if_congr IntOp.cmpi_eq rfl rfl

/-- The word of −∞ is the bottom of the extended reals … -/
theorem negInf_eq : Ideal.ofBits .f32 0xFF800000#32 = (⊥ : EReal) := by simp [Ideal.ofBits, Ideal.ieee]
/-- … and the word of +∞ the top. -/
theorem posInf_eq : Ideal.ofBits .f32 0x7F800000#32 = (⊤ : EReal) := by simp [Ideal.ofBits, Ideal.ieee]

/-- Row r of the elementwise square, summed from 0 along the row, is the squared norm of row r. -/
theorem sq_at (x : FVec Ideal S4096x2048 .f32) (r : Fin 4096) :
    val_main_v1 (F := Ideal) x (ix1 r) = Cert.Spec.sq x r := by
  rw [val_main_v1_apply, val_main_cst_1_apply, Ideal.ofBits_def, Ideal.ofBits_zero_f32, zero_add]
  unfold Cert.Spec.sq
  refine Finset.sum_congr rfl fun k _ => ?_
  rw [val_main_v0_apply, Ideal.mulf_def]
  have e : idx_main_v1 (ix1 r) k = ix2 r k :=
    funext fun a => Fin.ext (by match a with | ⟨0, _⟩ => rfl | ⟨1, _⟩ => rfl)
  rw [e]

/-- The matrix against its transpose, at (r, s), is the inner product of rows r and s. -/
theorem gram_at (x : FVec Ideal S4096x2048 .f32) (r s : Fin 4096) :
    val_main_v8 (F := Ideal) x (ix2 r s) = Cert.Spec.gram x r s := by
  rw [val_main_v8_apply]
  unfold Cert.Spec.gram
  refine Finset.sum_congr rfl fun k _ => ?_
  rw [val_main_v7_apply]
  have el : lidx_main_v8 (ix2 r s) k = ix2 r k :=
    funext fun a => Fin.ext (by match a with | ⟨0, _⟩ => rfl | ⟨1, _⟩ => rfl)
  have er : idx_main_v7 (ridx_main_v8 (ix2 r s) k) = ix2 s k :=
    funext fun a => Fin.ext (by match a with | ⟨0, _⟩ => rfl | ⟨1, _⟩ => rfl)
  rw [el, er]

/-- The squared norms laid down the rows plus the same laid along the columns, minus twice the inner products, at
    (r, s), is the squared distance of rows r and s in the specification's grouping. -/
theorem dist_at (x : FVec Ideal S4096x2048 .f32) (r s : Fin 4096) :
    val_main_v11 (F := Ideal) x (ix2 r s) = Cert.Spec.dist x r s := by
  have e4 : idx_main_v2 (idx_main_v4 (ix2 r s)) = ix1 r :=
    funext fun a => Fin.ext (by match a with | ⟨0, _⟩ => rfl)
  have e5 : idx_main_v2 (idx_main_v3 (idx_main_v5 (ix2 r s))) = ix1 s :=
    funext fun a => Fin.ext (by match a with | ⟨0, _⟩ => rfl)
  rw [val_main_v11_apply, val_main_v6_apply, val_main_v10_apply, val_main_v4_apply, val_main_v5_apply,
    val_main_v3_apply, val_main_v2_apply, e4, val_main_v2_apply, e5, val_main_v9_apply, val_main_cst_2_apply,
    gram_at, sq_at, sq_at]
  rfl

/-- The label of row r against the label of column s: the bit of their equality. -/
theorem mask_at (t : IVec S4096 32) (r s : Fin 4096) :
    val_main_v16 (F := Ideal) t (ix2 r s) = IntOp.cmpi .eq (t (ix1 r)) (t (ix1 s)) := by
  have e1 : idx_main_v12 (idx_main_v14 (ix2 r s)) = ix1 r :=
    funext fun a => Fin.ext (by match a with | ⟨0, _⟩ => rfl)
  have e2 : idx_main_v13 (idx_main_v15 (ix2 r s)) = ix1 s :=
    funext fun a => Fin.ext (by match a with | ⟨0, _⟩ => rfl)
  rw [val_main_v16_apply, val_main_v14_apply, val_main_v15_apply, val_main_v12_apply, val_main_v13_apply, e1, e2]

/-- Where the labels agree the distance, elsewhere −1e30: the candidate for the hardest positive. -/
theorem posCand_at (x : FVec Ideal S4096x2048 .f32) (t : IVec S4096 32) (r s : Fin 4096) :
    val_main_v17 (F := Ideal) x t (ix2 r s) = Cert.Spec.posCand x t r s := by
  rw [val_main_v17_apply, mask_at, dist_at, val_main_call0_v0_apply, val_main_cst_apply, select_cmpi_eq]
  rfl

/-- Where the labels agree +1e30, elsewhere the distance: the candidate for the hardest negative. -/
theorem negCand_at (x : FVec Ideal S4096x2048 .f32) (t : IVec S4096 32) (r s : Fin 4096) :
    val_main_v19 (F := Ideal) x t (ix2 r s) = Cert.Spec.negCand x t r s := by
  rw [val_main_v19_apply, mask_at, dist_at, val_main_call1_v0_apply, val_main_cst_0_apply, select_cmpi_eq]
  rfl

/-- Dropping the column axis of the square matrix is a reduction in the library's sense. -/
theorem reduces_cols : S4096x4096.Reduces [1] S4096 := by decide

/-- Row index r with column k put back is (r, k). -/
theorem lift_cols (r : Fin 4096) (k : Fin (S4096x4096.size 1)) :
    reduces_cols.lift (ix1 r) k = ix2 r (⟨k.val, k.isLt⟩ : Fin 4096) := by
  funext c; apply Fin.ext
  fin_cases c <;> rfl

/-- The row maximum of the positive candidates, from −∞, is the hardest positive. -/
theorem hardPos_at (x : FVec Ideal S4096x2048 .f32) (t : IVec S4096 32) (r : Fin 4096) :
    val_main_v18 (F := Ideal) x t (ix1 r) = Cert.Spec.hardPos x t r := by
  unfold val_main_v18
  rw [Host.reduce_eq_fold_single FloatOps.maximumf _ _ reducesTo_S4096x4096_S4096_d1 reduces_cols h_S_,
    val_main_cst_3_apply, Ideal.ofBits_def, negInf_eq]
  have hf : (val_main_v17 (F := Ideal) x t ∘ reduces_cols.lift (ix1 r)) = Cert.Spec.posCand x t r :=
    funext fun k => by
      show val_main_v17 (F := Ideal) x t (reduces_cols.lift (ix1 r) k) = _
      rw [lift_cols, posCand_at]
      rfl
  rw [hf]
  rfl

/-- The row minimum of the negative candidates, from +∞, is the hardest negative. -/
theorem hardNeg_at (x : FVec Ideal S4096x2048 .f32) (t : IVec S4096 32) (r : Fin 4096) :
    val_main_v20 (F := Ideal) x t (ix1 r) = Cert.Spec.hardNeg x t r := by
  unfold val_main_v20
  rw [Host.reduce_eq_fold_single FloatOps.minimumf _ _ reducesTo_S4096x4096_S4096_d1 reduces_cols h_S_,
    val_main_cst_4_apply, Ideal.ofBits_def, posInf_eq]
  have hf : (val_main_v19 (F := Ideal) x t ∘ reduces_cols.lift (ix1 r)) = Cert.Spec.negCand x t r :=
    funext fun k => by
      show val_main_v19 (F := Ideal) x t (reduces_cols.lift (ix1 r) k) = _
      rw [lift_cols, negCand_at]
      rfl
  rw [hf]
  rfl

/-- The hardest positive minus the hardest negative plus the margin, cut off below at 0: the row's loss. -/
theorem rowLoss_at (x : FVec Ideal S4096x2048 .f32) (t : IVec S4096 32) (r : Fin 4096) :
    val_main_v25 (F := Ideal) x t (ix1 r) = Cert.Spec.rowLoss x t r := by
  rw [val_main_v25_apply, val_main_v23_apply, val_main_v21_apply, hardPos_at, hardNeg_at, val_main_v22_apply,
    val_main_cst_5_apply, val_main_v24_apply, val_main_cst_6_apply, Ideal.maximumf_def, Ideal.addf_def,
    Ideal.subf_def, Ideal.ofBits_def, Ideal.ofBits_def, Ideal.ofBits_zero_f32]
  rfl

/-- The last stage: the rows' losses summed from 0 and divided by 4096 — the specification's loss, at the one index
    a rank-0 result has. -/
theorem loss_eq (x : FVec Ideal S4096x2048 .f32) (t : IVec S4096 32) :
    val_main_v27 (F := Ideal) x t = fun _ => Cert.Spec.loss x t := by
  have hs : ∑ j : S4096.Idx, val_main_v25 (F := Ideal) x t j = ∑ r : Fin 4096, Cert.Spec.rowLoss x t r :=
    (Fintype.sum_equiv (idxEquiv1 (n := 4096)).symm _ _ (fun r => (rowLoss_at x t r).symm)).symm
  funext i
  rw [val_main_v27_apply, val_main_v26_apply, hs, val_main_cst_7_apply, val_main_cst_8_apply, Ideal.hostDivf_def,
    Ideal.ofBits_def, Ideal.ofBits_def, Ideal.ofBits_zero_f32, zero_add]
  unfold Cert.Spec.loss Cert.Spec.count
  rfl

/-- The composed term the reference's run leaves in its result is the specification's loss. -/
theorem result_eq (x : FVec Ideal S4096x2048 .f32) (t : IVec S4096 32) :
    (Host.divf (Host.reduceAdd (maximumf (addf (subf (Host.reduce FloatOps.maximumf (select (cmpi .eq (broadcastInDim S4096x4096 ![0, 1] bcast_S4096x1_S4096x4096_0_1 (broadcastInDim S4096x1 ![0] bcast_S4096_S4096x1_0 t)) (broadcastInDim S4096x4096 ![0, 1] bcast_S1x4096_S4096x4096_0_1 (broadcastInDim S1x4096 ![1] bcast_S4096_S1x4096_1 t))) (subf (addf (broadcastInDim S4096x4096 ![0, 1] bcast_S4096x1_S4096x4096_0_1 (broadcastInDim S4096x1 ![0] bcast_S4096_S4096x1_0 (Host.reduceAdd (mulf x x) (constant S_ .f32 0x00000000#32) reducesTo_S4096x2048_S4096_d1 h_S_))) (broadcastInDim S4096x4096 ![0, 1] bcast_S1x4096_S4096x4096_0_1 (transpose S1x4096 [1, 0] (broadcastInDim S4096x1 ![0] bcast_S4096_S4096x1_0 (Host.reduceAdd (mulf x x) (constant S_ .f32 0x00000000#32) reducesTo_S4096x2048_S4096_d1 h_S_)) transposes_S4096x1_S1x4096_1_0))) (mulf (broadcastInDim S4096x4096 ![] bcast_S_S4096x4096 (constant S_ .f32 0x40000000#32)) (Host.dotGeneral dot_S4096x2048_S2048x4096_S4096x4096_1_0_0_1_n_n none x (transpose S2048x4096 [1, 0] x transposes_S4096x2048_S2048x4096_1_0)))) (broadcastInDim S4096x4096 ![] bcast_S_S4096x4096 (constant S_ .f32 0xF149F2CA#32))) (constant S_ .f32 0xFF800000#32) reducesTo_S4096x4096_S4096_d1 h_S_) (Host.reduce FloatOps.minimumf (select (cmpi .eq (broadcastInDim S4096x4096 ![0, 1] bcast_S4096x1_S4096x4096_0_1 (broadcastInDim S4096x1 ![0] bcast_S4096_S4096x1_0 t)) (broadcastInDim S4096x4096 ![0, 1] bcast_S1x4096_S4096x4096_0_1 (broadcastInDim S1x4096 ![1] bcast_S4096_S1x4096_1 t))) (broadcastInDim S4096x4096 ![] bcast_S_S4096x4096 (constant S_ .f32 0x7149F2CA#32)) (subf (addf (broadcastInDim S4096x4096 ![0, 1] bcast_S4096x1_S4096x4096_0_1 (broadcastInDim S4096x1 ![0] bcast_S4096_S4096x1_0 (Host.reduceAdd (mulf x x) (constant S_ .f32 0x00000000#32) reducesTo_S4096x2048_S4096_d1 h_S_))) (broadcastInDim S4096x4096 ![0, 1] bcast_S1x4096_S4096x4096_0_1 (transpose S1x4096 [1, 0] (broadcastInDim S4096x1 ![0] bcast_S4096_S4096x1_0 (Host.reduceAdd (mulf x x) (constant S_ .f32 0x00000000#32) reducesTo_S4096x2048_S4096_d1 h_S_)) transposes_S4096x1_S1x4096_1_0))) (mulf (broadcastInDim S4096x4096 ![] bcast_S_S4096x4096 (constant S_ .f32 0x40000000#32)) (Host.dotGeneral dot_S4096x2048_S2048x4096_S4096x4096_1_0_0_1_n_n none x (transpose S2048x4096 [1, 0] x transposes_S4096x2048_S2048x4096_1_0))))) (constant S_ .f32 0x7F800000#32) reducesTo_S4096x4096_S4096_d1 h_S_)) (broadcastInDim S4096 ![] bcast_S_S4096 (constant S_ .f32 0x3E99999A#32))) (broadcastInDim S4096 ![] bcast_S_S4096 (constant S_ .f32 0x00000000#32))) (constant S_ .f32 0x00000000#32) reducesTo_S4096_S_d0 h_S_) (constant S_ .f32 0x45800000#32) : (⟨S_, .f32⟩ : BufTy).Contents (Elt Ideal))
      = fun _ => Cert.Spec.loss x t :=
  (val_main_v27_eq (F := Ideal) x t).trans (loss_eq x t)

/-- Every weakly fair execution of the reference ends with its result holding the specification's loss of the two
    arguments' launch contents, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
          = (fun _ => Cert.Spec.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v27_eq (F := Ideal) _ _).trans (loss_eq _ _)), (h c).2⟩)
    (Cert.ReferenceIdeal.Value.run (F := Ideal) m ρ)

end Cert.ReferenceIdeal.RefValue

end
-- ==== Proof.PreFinite.lean ====
import proofs.«176029_j6657199309074_1_alg».proof.Pre_finite_inputs
import proofs.«176029_j6657199309074_1_alg».proof.Proof.Gen.Pre_finite_inputs
import proofs.«176029_j6657199309074_1_alg».proof.Proof.Spec
import Idealize.ShloMosaic.Lib.ReduceAll

/-
  From the stated precondition to "every entry of the matrix is a real number".

  The precondition takes |x| entrywise, compares it strictly below the word of +∞, and joins all the
  answers by "and", starting from true. If the joined answer is true then each single answer is true:
  |x i| < +∞ for every index i. On the extended reals |a| is max a (−a); at a = +∞ or a = −∞ that maximum is
  +∞ itself, which is not strictly below +∞. So every entry is neither infinity, hence a real.
-/

open Idealize.ShloMosaic

namespace Cert.PreFinite

/-- A shape with no axes has exactly one index: two indices are functions out of the empty set. -/
instance : Subsingleton Cert.Pre_finite_inputs.S_.Idx := ⟨fun a b => funext fun d => d.elim0⟩

/-- The word 0x7F800000 (sign 0, exponent all ones, fraction 0) denotes +∞. -/
theorem inf_word : Ideal.ofBits .f32 0x7F800000#32 = (⊤ : EReal) := by
  simp [Ideal.ofBits, Ideal.ieee]

/-- An extended real whose absolute value max a (−a) lies strictly below +∞ is a real number:
    at −∞ the negation is +∞, at +∞ the number itself is, and in both cases the maximum is +∞. -/
theorem real_of_abs_lt_top (a : EReal) (h : max a (-a) < ⊤) : ∃ v : ℝ, a = (v : EReal) := by
  induction a using EReal.rec with
  | bot => simp at h
  | coe v => exact ⟨v, rfl⟩
  | top => simp at h

/-- A strict comparison of extended reals that answers the word 1 holds. -/
theorem lt_of_cmp_olt (a b : EReal) (h : Ideal.cmp .olt a b = 1#1) : a < b := by
  by_contra hn
  simp [Ideal.cmp, hn] at h

/-- The precondition, answered true, makes every entry of the matrix a real number. -/
theorem finite_of_pre [Cert.Pre_finite_inputs.Facts]
    (x : FVec Ideal Cert.Pre_finite_inputs.S4096x2048 .f32) (t : IVec Cert.Pre_finite_inputs.S4096 32)
    (h : Cert.Pre_finite_inputs.fn (F := Ideal) x t = (fun _ => 1#1)) : Cert.Spec.Finite x := by
  intro i
  -- the joined answer at the result's only index
  have h0 := congrFun h ValueIdx.ix0
  dsimp only [Cert.Pre_finite_inputs.fn] at h0
  -- a conjunction over all indices that is true is true at i
  have hi := Host.reduce_andi_all _ _ _ _ _ h0 i
  -- at i the answer is the comparison |x i| < (the word of +∞)
  have hc : Ideal.cmp .olt (max (x i) (-(x i))) (Ideal.ofBits .f32 0x7F800000#32) = 1#1 := hi
  rw [inf_word] at hc
  exact real_of_abs_lt_top (x i) (lt_of_cmp_olt _ _ hc)

end Cert.PreFinite
-- ==== Proof.lean ====
/-
  The tiled hard-example triplet loss against its plain reference.

  Both programs compute, for a 4096 × 2048 matrix and 4096 integer labels, the mean over rows r of
  max((hardest positive of r − hardest negative of r) + 0.3, 0), the hardest positive being the largest squared
  distance to a row with r's label and the hardest negative the smallest to a row with another label. The
  reference builds the whole 4096 × 4096 distance matrix and takes masked row maxima and minima from −∞ and +∞.
  The kernel walks the matrix in 256 × 512 tiles and keeps running extrema in scratch started at −1e30 and +1e30.
  Those two finite start values are absorbed by the diagonal entry of each row (its own label, distance 0 for a
  finite row; candidate +1e30 on the minimum side): that is the one place the precondition — every entry finite —
  is used. No float literal is evaluated except −1e30 ≤ 0 and 2 = 2.

  The frames of the two kernel programs are proved from the launch theorem by its fields, the matrix's full share
  dealt as two halves to the two windows that read it; the kernel's value is read off that run: the result array
  point by point (induction along each row tile's eight column tiles), then the host's mean. The reference's run
  and its stages at an index are the generated modules; that its term is the specification is proved beside them.
  The ideal pass rewrote nothing, so `preserves` is `True`.
-/
import proofs.«176029_j6657199309074_1_alg».proof.Defs
import proofs.«176029_j6657199309074_1_alg».proof.Proof.Kernel.Run
import proofs.«176029_j6657199309074_1_alg».proof.Proof.KernelIdeal.Run
import proofs.«176029_j6657199309074_1_alg».proof.Proof.KernelIdeal.Value
import proofs.«176029_j6657199309074_1_alg».proof.Proof.RefValue
import proofs.«176029_j6657199309074_1_alg».proof.Proof.PreFinite
import proofs.«176029_j6657199309074_1_alg».proof.Proof.Gen.ReferenceIdeal.Run

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the specification's loss of those arguments:
    the kernel by its run and the value of its result array's mean (finite entries, from the precondition), the
    reference by its run read as the specification. -/
theorem algebraic : Cert.algebraic_KernelIdeal_ReferenceIdeal := by
  intro m ρ m' ρ' hpre hagree
  refine ⟨fun c => fun _ => Cert.Spec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Hand.run_main (F := Ideal) m ρ)
    exact Cert.KernelIdeal.Hand.mean_value m c (Cert.PreFinite.finite_of_pre _ _ (hpre c))
  · refine (θ_run Cert.ReferenceIdeal.defs _ _).mono (fun _ h c => ⟨(h c).1.trans ?_, (h c).2⟩)
      (Cert.ReferenceIdeal.RefValue.run_spec m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
